-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S4000000 : Shape := ⟨1, ![4000000]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel

variable [Facts]

def fn {F : FTy → Type} [FloatOps F] (main_arg0 : FVec F S4000000x6 .f32) (main_arg1 : IVec S4000000 32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  main_v3
-- ==== Kernel.lean ====
abbrev S4000000x6 : Shape := ⟨2, ![4000000, 6]⟩
abbrev S4000000 : Shape := ⟨1, ![4000000]⟩
abbrev S4000000x1 : Shape := ⟨2, ![4000000, 1]⟩
abbrev S2x176x256 : Shape := ⟨3, ![2, 176, 256]⟩
abbrev S2x1x1 : Shape := ⟨3, ![2, 1, 1]⟩
abbrev S3200x6 : Shape := ⟨2, ![3200, 6]⟩
abbrev S3200x1 : Shape := ⟨2, ![3200, 1]⟩
abbrev S1x176x256 : Shape := ⟨3, ![1, 176, 256]⟩
abbrev S1x1x1 : Shape := ⟨3, ![1, 1, 1]⟩
abbrev S3200x11 : Shape := ⟨2, ![3200, 11]⟩
abbrev S3200x176 : Shape := ⟨2, ![3200, 176]⟩
abbrev S176x256 : Shape := ⟨2, ![176, 256]⟩
abbrev S1x1 : Shape := ⟨2, ![1, 1]⟩
abbrev S3200x5 : Shape := ⟨2, ![3200, 5]⟩
abbrev S3200 : Shape := ⟨1, ![3200]⟩
abbrev S1x16 : Shape := ⟨2, ![1, 16]⟩
abbrev S3200x16 : Shape := ⟨2, ![3200, 16]⟩
abbrev S1x256 : Shape := ⟨2, ![1, 256]⟩
abbrev S3200x256 : Shape := ⟨2, ![3200, 256]⟩
abbrev S1 : Shape := ⟨1, ![1]⟩
abbrev S_ : Shape := ⟨0, ![]⟩
abbrev S16x11x256 : Shape := ⟨3, ![16, 11, 256]⟩
abbrev S11x16x256 : Shape := ⟨3, ![11, 16, 256]⟩
abbrev S11x4096 : Shape := ⟨2, ![11, 4096]⟩
abbrev S5x4096 : Shape := ⟨2, ![5, 4096]⟩
abbrev S1x4096 : Shape := ⟨2, ![1, 4096]⟩
abbrev S4096 : Shape := ⟨1, ![4096]⟩
abbrev S4096x5 : Shape := ⟨2, ![4096, 5]⟩
abbrev S4096x1 : Shape := ⟨2, ![4096, 1]⟩

abbrev nBuf : Space → Nat
  | .hbm => 75
  | .vmem => 10
  | .smem => 0
  | _ => 0

abbrev bufTy : (tb : Table) → Fin (tcTables nBuf tb) → BufTy
  | .hbm, ⟨0, _⟩ => ⟨S4000000x6, .f32⟩
  | .hbm, ⟨1, _⟩ => ⟨S4000000, .i32⟩
  | .hbm, ⟨2, _⟩ => ⟨S4000000x1, .i32⟩
  | .hbm, ⟨3, _⟩ => ⟨S2x176x256, .f32⟩
  | .hbm, ⟨4, _⟩ => ⟨S2x1x1, .f32⟩
  | .hbm, ⟨5, _⟩ => ⟨S1x176x256, .f32⟩
  | .hbm, ⟨6, _⟩ => ⟨S176x256, .f32⟩
  | .hbm, ⟨7, _⟩ => ⟨S1x176x256, .f32⟩
  | .hbm, ⟨8, _⟩ => ⟨S176x256, .f32⟩
  | .hbm, ⟨9, _⟩ => ⟨S176x256, .f32⟩
  | .hbm, ⟨10, _⟩ => ⟨S1x1x1, .f32⟩
  | .hbm, ⟨11, _⟩ => ⟨S_, .f32⟩
  | .hbm, ⟨12, _⟩ => ⟨S1x1x1, .f32⟩
  | .hbm, ⟨13, _⟩ => ⟨S_, .f32⟩
  | .hbm, ⟨14, _⟩ => ⟨S_, .f32⟩
  | .hbm, ⟨15, _⟩ => ⟨S16x11x256, .f32⟩
  | .hbm, ⟨16, _⟩ => ⟨S11x16x256, .f32⟩
  | .hbm, ⟨17, _⟩ => ⟨S11x4096, .f32⟩
  | .hbm, ⟨18, _⟩ => ⟨S5x4096, .f32⟩
  | .hbm, ⟨19, _⟩ => ⟨S1x4096, .f32⟩
  | .hbm, ⟨20, _⟩ => ⟨S4096, .f32⟩
  | .hbm, ⟨21, _⟩ => ⟨S5x4096, .f32⟩
  | .hbm, ⟨22, _⟩ => ⟨S4096x5, .f32⟩
  | .hbm, ⟨23, _⟩ => ⟨S4096x5, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x5, .f32⟩
  | .hbm, ⟨29, _⟩ => ⟨S4096x5, .f32⟩
  | .hbm, ⟨30, _⟩ => ⟨S4096x5, .f32⟩
  | .hbm, ⟨31, _⟩ => ⟨S4096x5, .f32⟩
  | .hbm, ⟨32, _⟩ => ⟨S4096x5, .f32⟩
  | .hbm, ⟨33, _⟩ => ⟨S4096x5, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x5, .f32⟩
  | .hbm, ⟨41, _⟩ => ⟨S4096x5, .f32⟩
  | .hbm, ⟨42, _⟩ => ⟨S_, .f32⟩
  | .hbm, ⟨43, _⟩ => ⟨S4096, .f32⟩
  | .hbm, ⟨44, _⟩ => ⟨S4096, .i1⟩
  | .hbm, ⟨45, _⟩ => ⟨S4096x1, .i1⟩
  | .hbm, ⟨46, _⟩ => ⟨S_, .f32⟩
  | .hbm, ⟨47, _⟩ => ⟨S_, .f32⟩
  | .hbm, ⟨48, _⟩ => ⟨S4096x5, .i1⟩
  | .hbm, ⟨49, _⟩ => ⟨S4096x5, .f32⟩
  | .hbm, ⟨50, _⟩ => ⟨S4096x5, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096, .f32⟩
  | .hbm, ⟨60, _⟩ => ⟨S4096, .i1⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S3200x6, .f32⟩
  | .local _ .vmem, ⟨1, _⟩ => ⟨S3200x6, .f32⟩
  | .local _ .vmem, ⟨2, _⟩ => ⟨S3200x1, .i32⟩
  | .local _ .vmem, ⟨3, _⟩ => ⟨S3200x1, .i32⟩
  | .local _ .vmem, ⟨4, _⟩ => ⟨S1x176x256, .f32⟩
  | .local _ .vmem, ⟨5, _⟩ => ⟨S1x176x256, .f32⟩
  | .local _ .vmem, ⟨6, _⟩ => ⟨S1x1x1, .f32⟩
  | .local _ .vmem, ⟨7, _⟩ => ⟨S1x1x1, .f32⟩
  | .local _ .vmem, ⟨8, _⟩ => ⟨S3200x11, .bf16⟩
  | .local _ .vmem, ⟨9, _⟩ => ⟨S3200x176, .bf16⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 625], ![false, false]⟩

def cc0_transform_0 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3200x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4000000_S4000000x1 : S4000000.ShapeCasts S4000000x1
  inb_S1x176x256_S1x176x256_0_0_0 : ∀ a, (![0, 0, 0] : Fin 3 → Nat) a + S1x176x256.size a ≤ S1x176x256.size a
  h_S1x176x256 : 0 < S1x176x256.numel
  shapeCasts_S1x176x256_S176x256 : S1x176x256.ShapeCasts S176x256
  shapeCasts_S176x256_S1x176x256 : S176x256.ShapeCasts S1x176x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S3200x6_S3200x6_0_0 : ∀ a, (![0, 0] : Fin 2 → Nat) a + S3200x6.size a ≤ S3200x6.size a
  h_S3200x6 : 0 < S3200x6.numel
  slices_S3200x6_o0_0_S3200x5 : S3200x6.Slices ![0, 0] S3200x5
  reduces_S3200x5_S3200 : S3200x5.Reduces [1] S3200
  shapeCasts_S3200_S3200x1 : S3200.ShapeCasts S3200x1
  broadcasts_S3200x1_S3200x5 : S3200x1.Broadcasts S3200x5
  bitsLt_bf16_f32 : FTy.bits .bf16 < FTy.bits .f32
  inb_S3200x11_S3200x5_0_0 : ∀ a, (![0, 0] : Fin 2 → Nat) a + S3200x5.size a ≤ S3200x11.size a
  h_S3200x5 : 0 < S3200x5.numel
  shapeCasts_S3200x5_S3200x5 : S3200x5.ShapeCasts S3200x5
  packedbf16_S3200x11_S3200x5_0_0 : (Rect.unit (s := S3200x11) ![0, 0] S3200x5.size inb_S3200x11_S3200x5_0_0).PackedRows (EltTy.packing .bf16)
  inb_S3200x11_S3200x1_0_5 : ∀ a, (![0, 5] : Fin 2 → Nat) a + S3200x1.size a ≤ S3200x11.size a
  h_S3200x1 : 0 < S3200x1.numel
  shapeCasts_S3200x1_S3200x1 : S3200x1.ShapeCasts S3200x1
  packedbf16_S3200x11_S3200x1_0_5 : (Rect.unit (s := S3200x11) ![0, 5] S3200x1.size inb_S3200x11_S3200x1_0_5).PackedRows (EltTy.packing .bf16)
  inb_S3200x11_S3200x5_0_6 : ∀ a, (![0, 6] : Fin 2 → Nat) a + S3200x5.size a ≤ S3200x11.size a
  packedbf16_S3200x11_S3200x5_0_6 : (Rect.unit (s := S3200x11) ![0, 6] S3200x5.size inb_S3200x11_S3200x5_0_6).PackedRows (EltTy.packing .bf16)
  inb_S3200x11_S3200x11_0_0 : ∀ a, (![0, 0] : Fin 2 → Nat) a + S3200x11.size a ≤ S3200x11.size a
  h_S3200x11 : 0 < S3200x11.numel
  inb_S3200x1_S3200x1_0_0 : ∀ a, (![0, 0] : Fin 2 → Nat) a + S3200x1.size a ≤ S3200x1.size a
  iota_S1x16_d1_w32 : S1x16.Iotas .tc 32 [1]
  broadcasts_S3200x1_S3200x16 : S3200x1.Broadcasts S3200x16
  broadcasts_S1x16_S3200x16 : S1x16.Broadcasts S3200x16
  natLt_1_32 : 1 < 32
  iota_S1x256_d1_w32 : S1x256.Iotas .tc 32 [1]
  broadcasts_S3200x1_S3200x256 : S3200x1.Broadcasts S3200x256
  broadcasts_S1x256_S3200x256 : S1x256.Broadcasts S3200x256
  slices_S3200x16_o0_0_S3200x1 : S3200x16.Slices ![0, 0] S3200x1
  broadcasts_S3200x1_S3200x11 : S3200x1.Broadcasts S3200x11
  inb_S3200x176_S3200x11_0_0 : ∀ a, (![0, 0] : Fin 2 → Nat) a + S3200x11.size a ≤ S3200x176.size a
  shapeCasts_S3200x11_S3200x11 : S3200x11.ShapeCasts S3200x11
  packedbf16_S3200x176_S3200x11_0_0 : (Rect.unit (s := S3200x176) ![0, 0] S3200x11.size inb_S3200x176_S3200x11_0_0).PackedRows (EltTy.packing .bf16)
  slices_S3200x16_o0_1_S3200x1 : S3200x16.Slices ![0, 1] S3200x1
  inb_S3200x176_S3200x11_0_11 : ∀ a, (![0, 11] : Fin 2 → Nat) a + S3200x11.size a ≤ S3200x176.size a
  packedbf16_S3200x176_S3200x11_0_11 : (Rect.unit (s := S3200x176) ![0, 11] S3200x11.size inb_S3200x176_S3200x11_0_11).PackedRows (EltTy.packing .bf16)
  slices_S3200x16_o0_2_S3200x1 : S3200x16.Slices ![0, 2] S3200x1
  inb_S3200x176_S3200x11_0_22 : ∀ a, (![0, 22] : Fin 2 → Nat) a + S3200x11.size a ≤ S3200x176.size a
  packedbf16_S3200x176_S3200x11_0_22 : (Rect.unit (s := S3200x176) ![0, 22] S3200x11.size inb_S3200x176_S3200x11_0_22).PackedRows (EltTy.packing .bf16)
  slices_S3200x16_o0_3_S3200x1 : S3200x16.Slices ![0, 3] S3200x1
  inb_S3200x176_S3200x11_0_33 : ∀ a, (![0, 33] : Fin 2 → Nat) a + S3200x11.size a ≤ S3200x176.size a
  packedbf16_S3200x176_S3200x11_0_33 : (Rect.unit (s := S3200x176) ![0, 33] S3200x11.size inb_S3200x176_S3200x11_0_33).PackedRows (EltTy.packing .bf16)
  slices_S3200x16_o0_4_S3200x1 : S3200x16.Slices ![0, 4] S3200x1
  inb_S3200x176_S3200x11_0_44 : ∀ a, (![0, 44] : Fin 2 → Nat) a + S3200x11.size a ≤ S3200x176.size a
  packedbf16_S3200x176_S3200x11_0_44 : (Rect.unit (s := S3200x176) ![0, 44] S3200x11.size inb_S3200x176_S3200x11_0_44).PackedRows (EltTy.packing .bf16)
  slices_S3200x16_o0_5_S3200x1 : S3200x16.Slices ![0, 5] S3200x1
  inb_S3200x176_S3200x11_0_55 : ∀ a, (![0, 55] : Fin 2 → Nat) a + S3200x11.size a ≤ S3200x176.size a
  packedbf16_S3200x176_S3200x11_0_55 : (Rect.unit (s := S3200x176) ![0, 55] S3200x11.size inb_S3200x176_S3200x11_0_55).PackedRows (EltTy.packing .bf16)
  slices_S3200x16_o0_6_S3200x1 : S3200x16.Slices ![0, 6] S3200x1
  inb_S3200x176_S3200x11_0_66 : ∀ a, (![0, 66] : Fin 2 → Nat) a + S3200x11.size a ≤ S3200x176.size a
  packedbf16_S3200x176_S3200x11_0_66 : (Rect.unit (s := S3200x176) ![0, 66] S3200x11.size inb_S3200x176_S3200x11_0_66).PackedRows (EltTy.packing .bf16)
  slices_S3200x16_o0_7_S3200x1 : S3200x16.Slices ![0, 7] S3200x1
  inb_S3200x176_S3200x11_0_77 : ∀ a, (![0, 77] : Fin 2 → Nat) a + S3200x11.size a ≤ S3200x176.size a
  packedbf16_S3200x176_S3200x11_0_77 : (Rect.unit (s := S3200x176) ![0, 77] S3200x11.size inb_S3200x176_S3200x11_0_77).PackedRows (EltTy.packing .bf16)
  slices_S3200x16_o0_8_S3200x1 : S3200x16.Slices ![0, 8] S3200x1
  inb_S3200x176_S3200x11_0_88 : ∀ a, (![0, 88] : Fin 2 → Nat) a + S3200x11.size a ≤ S3200x176.size a
  packedbf16_S3200x176_S3200x11_0_88 : (Rect.unit (s := S3200x176) ![0, 88] S3200x11.size inb_S3200x176_S3200x11_0_88).PackedRows (EltTy.packing .bf16)
  slices_S3200x16_o0_9_S3200x1 : S3200x16.Slices ![0, 9] S3200x1
  inb_S3200x176_S3200x11_0_99 : ∀ a, (![0, 99] : Fin 2 → Nat) a + S3200x11.size a ≤ S3200x176.size a
  packedbf16_S3200x176_S3200x11_0_99 : (Rect.unit (s := S3200x176) ![0, 99] S3200x11.size inb_S3200x176_S3200x11_0_99).PackedRows (EltTy.packing .bf16)
  slices_S3200x16_o0_10_S3200x1 : S3200x16.Slices ![0, 10] S3200x1
  inb_S3200x176_S3200x11_0_110 : ∀ a, (![0, 110] : Fin 2 → Nat) a + S3200x11.size a ≤ S3200x176.size a
  packedbf16_S3200x176_S3200x11_0_110 : (Rect.unit (s := S3200x176) ![0, 110] S3200x11.size inb_S3200x176_S3200x11_0_110).PackedRows (EltTy.packing .bf16)
  slices_S3200x16_o0_11_S3200x1 : S3200x16.Slices ![0, 11] S3200x1
  inb_S3200x176_S3200x11_0_121 : ∀ a, (![0, 121] : Fin 2 → Nat) a + S3200x11.size a ≤ S3200x176.size a
  packedbf16_S3200x176_S3200x11_0_121 : (Rect.unit (s := S3200x176) ![0, 121] S3200x11.size inb_S3200x176_S3200x11_0_121).PackedRows (EltTy.packing .bf16)
  slices_S3200x16_o0_12_S3200x1 : S3200x16.Slices ![0, 12] S3200x1
  inb_S3200x176_S3200x11_0_132 : ∀ a, (![0, 132] : Fin 2 → Nat) a + S3200x11.size a ≤ S3200x176.size a
  packedbf16_S3200x176_S3200x11_0_132 : (Rect.unit (s := S3200x176) ![0, 132] S3200x11.size inb_S3200x176_S3200x11_0_132).PackedRows (EltTy.packing .bf16)
  slices_S3200x16_o0_13_S3200x1 : S3200x16.Slices ![0, 13] S3200x1
  inb_S3200x176_S3200x11_0_143 : ∀ a, (![0, 143] : Fin 2 → Nat) a + S3200x11.size a ≤ S3200x176.size a
  packedbf16_S3200x176_S3200x11_0_143 : (Rect.unit (s := S3200x176) ![0, 143] S3200x11.size inb_S3200x176_S3200x11_0_143).PackedRows (EltTy.packing .bf16)
  slices_S3200x16_o0_14_S3200x1 : S3200x16.Slices ![0, 14] S3200x1
  inb_S3200x176_S3200x11_0_154 : ∀ a, (![0, 154] : Fin 2 → Nat) a + S3200x11.size a ≤ S3200x176.size a
  packedbf16_S3200x176_S3200x11_0_154 : (Rect.unit (s := S3200x176) ![0, 154] S3200x11.size inb_S3200x176_S3200x11_0_154).PackedRows (EltTy.packing .bf16)
  slices_S3200x16_o0_15_S3200x1 : S3200x16.Slices ![0, 15] S3200x1
  inb_S3200x176_S3200x11_0_165 : ∀ a, (![0, 165] : Fin 2 → Nat) a + S3200x11.size a ≤ S3200x176.size a
  packedbf16_S3200x176_S3200x11_0_165 : (Rect.unit (s := S3200x176) ![0, 165] S3200x11.size inb_S3200x176_S3200x11_0_165).PackedRows (EltTy.packing .bf16)
  inb_S3200x176_S3200x176_0_0 : ∀ a, (![0, 0] : Fin 2 → Nat) a + S3200x176.size a ≤ S3200x176.size a
  h_S3200x176 : 0 < S3200x176.numel
  reduces_S3200x1_S1 : S3200x1.Reduces [0] S1
  shapeCasts_S1_S1x1 : S1.ShapeCasts S1x1
  slices_S2x176x256_S1x176x256_0_0_0 : S2x176x256.Slices ![0, 0, 0] S1x176x256
  slices_S2x176x256_S1x176x256_1_0_0 : S2x176x256.Slices ![1, 0, 0] S1x176x256
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  shapeCasts_S176x256_S16x11x256 : S176x256.ShapeCasts S16x11x256
  transposes_S16x11x256_S11x16x256_1_0_2 : S16x11x256.Transposes [1, 0, 2] S11x16x256
  shapeCasts_S11x16x256_S11x4096 : S11x16x256.ShapeCasts S11x4096
  slices_S11x4096_S5x4096_0_0 : S11x4096.Slices ![0, 0] S5x4096
  slices_S11x4096_S1x4096_5_0 : S11x4096.Slices ![5, 0] S1x4096
  shapeCasts_S1x4096_S4096 : S1x4096.ShapeCasts S4096
  slices_S11x4096_S5x4096_6_0 : S11x4096.Slices ![6, 0] S5x4096
  transposes_S5x4096_S4096x5_1_0 : S5x4096.Transposes [1, 0] S4096x5
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x5_0_1 : S4096x1.BroadcastsInDim S4096x5 (![0, 1] : Fin 2 → Fin S4096x5.rank)
  bcast_S_S4096 : S_.BroadcastsInDim S4096 (![] : Fin 0 → Fin S4096.rank)
  bcast_S_S4096x5 : S_.BroadcastsInDim S4096x5 (![] : Fin 0 → Fin S4096x5.rank)
  reducesTo_S4096x5_S4096_d1 : S4096x5.ReducesTo [1] S4096
  h_S_ : 0 < S_.numel
  reducesTo_S4096_S_d0 : S4096.ReducesTo [0] S_
  dot_S3200x176_S3200x256_S176x256_0_0_1_1_n_n_wf : DotDims.WF S3200x176 S3200x256 S176x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x6.size a ≤ S4000000x6.size a
  hwx0_0 : ∀ i : grid0.Coords, EltTy.bits .f32 = 32 ∨ (Rect.block (s := S4000000x6) S3200x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1.size a ≤ S4000000x1.size a
  hwx0_1 : ∀ i : grid0.Coords, EltTy.bits .i32 = 32 ∨ (Rect.block (s := S4000000x1) S3200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x176x256.size a ≤ S2x176x256.size a
  hwx0_2 : ∀ i : grid0.Coords, EltTy.bits .f32 = 32 ∨ (Rect.block (s := S2x176x256) S1x176x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S3200x176_S3200x256_S176x256_0_0_1_1_n_n : DotDims S3200x176 S3200x256 S176x256 where
  lhsContracting := [0]
  rhsContracting := [0]
  lhsNonContracting := [1]
  rhsNonContracting := [1]
  lhsBatch := []
  rhsBatch := []
  wf := dot_S3200x176_S3200x256_S176x256_0_0_1_1_n_n_wf

abbrev win0_0 : Pipeline.Window sig grid0 :=
  Pipeline.Window.ofSpec (Memref.whole main_arg0) S3200x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x176x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x6 : Shape := ⟨2, ![4000000, 6]⟩
abbrev S4000000 : Shape := ⟨1, ![4000000]⟩
abbrev S4000000x5 : Shape := ⟨2, ![4000000, 5]⟩
abbrev S_ : Shape := ⟨0, ![]⟩
abbrev S4000000x1 : Shape := ⟨2, ![4000000, 1]⟩
abbrev S4096 : Shape := ⟨1, ![4096]⟩
abbrev S4096x5 : Shape := ⟨2, ![4096, 5]⟩
abbrev S4096x1 : Shape := ⟨2, ![4096, 1]⟩

abbrev nBuf : Space → Nat
  | .hbm => 93
  | .vmem => 0
  | .smem => 0
  | _ => 0

abbrev bufTy : (tb : Table) → Fin (tcTables nBuf tb) → BufTy
  | .hbm, ⟨0, _⟩ => ⟨S4000000x6, .f32⟩
  | .hbm, ⟨1, _⟩ => ⟨S4000000, .i32⟩
  | .hbm, ⟨2, _⟩ => ⟨S4000000x5, .f32⟩
  | .hbm, ⟨3, _⟩ => ⟨S_, .f32⟩
  | .hbm, ⟨4, _⟩ => ⟨S4000000, .f32⟩
  | .hbm, ⟨5, _⟩ => ⟨S_, .f32⟩
  | .hbm, ⟨6, _⟩ => ⟨S4000000, .f32⟩
  | .hbm, ⟨7, _⟩ => ⟨S4000000, .f32⟩
  | .hbm, ⟨8, _⟩ => ⟨S4000000x1, .f32⟩
  | .hbm, ⟨9, _⟩ => ⟨S4000000x5, .f32⟩
  | .hbm, ⟨10, _⟩ => ⟨S4000000x5, .f32⟩
  | .hbm, ⟨11, _⟩ => ⟨S4000000x5, .f32⟩
  | .hbm, ⟨12, _⟩ => ⟨S_, .f32⟩
  | .hbm, ⟨13, _⟩ => ⟨S4000000, .f32⟩
  | .hbm, ⟨14, _⟩ => ⟨S4000000x1, .f32⟩
  | .hbm, ⟨15, _⟩ => ⟨S4000000x5, .f32⟩
  | .hbm, ⟨16, _⟩ => ⟨S4000000x5, .f32⟩
  | .hbm, ⟨17, _⟩ => ⟨S_, .f32⟩
  | .hbm, ⟨18, _⟩ => ⟨S4000000, .f32⟩
  | .hbm, ⟨19, _⟩ => ⟨S_, .f32⟩
  | .hbm, ⟨20, _⟩ => ⟨S4096, .f32⟩
  | .hbm, ⟨21, _⟩ => ⟨S4000000x1, .i32⟩
  | .hbm, ⟨22, _⟩ => ⟨S4096, .f32⟩
  | .hbm, ⟨23, _⟩ => ⟨S_, .f32⟩
  | .hbm, ⟨24, _⟩ => ⟨S4096x5, .f32⟩
  | .hbm, ⟨25, _⟩ => ⟨S4000000x1, .i32⟩
  | .hbm, ⟨26, _⟩ => ⟨S4096x5, .f32⟩
  | .hbm, ⟨27, _⟩ => ⟨S4000000x5, .f32⟩
  | .hbm, ⟨28, _⟩ => ⟨S_, .f32⟩
  | .hbm, ⟨29, _⟩ => ⟨S4096x5, .f32⟩
  | .hbm, ⟨30, _⟩ => ⟨S4000000x1, .i32⟩
  | .hbm, ⟨31, _⟩ => ⟨S4096x5, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x5, .f32⟩
  | .hbm, ⟨37, _⟩ => ⟨S4096x5, .f32⟩
  | .hbm, ⟨38, _⟩ => ⟨S4096x5, .f32⟩
  | .hbm, ⟨39, _⟩ => ⟨S4096x5, .f32⟩
  | .hbm, ⟨40, _⟩ => ⟨S4096x5, .f32⟩
  | .hbm, ⟨41, _⟩ => ⟨S4096x5, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x5, .f32⟩
  | .hbm, ⟨49, _⟩ => ⟨S4096x5, .f32⟩
  | .hbm, ⟨50, _⟩ => ⟨S_, .f32⟩
  | .hbm, ⟨51, _⟩ => ⟨S4096, .f32⟩
  | .hbm, ⟨52, _⟩ => ⟨S4096, .i1⟩
  | .hbm, ⟨53, _⟩ => ⟨S4096x1, .i1⟩
  | .hbm, ⟨54, _⟩ => ⟨S_, .f32⟩
  | .hbm, ⟨55, _⟩ => ⟨S_, .f32⟩
  | .hbm, ⟨56, _⟩ => ⟨S4096x5, .i1⟩
  | .hbm, ⟨57, _⟩ => ⟨S4096x5, .f32⟩
  | .hbm, ⟨58, _⟩ => ⟨S4096x5, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .i1⟩
  | .hbm, ⟨69, _⟩ => ⟨S4096, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4000000x5, .f32⟩
  | .hbm, ⟨78, _⟩ => ⟨S4000000x5, .f32⟩
  | .hbm, ⟨79, _⟩ => ⟨S4000000x5, .f32⟩
  | .hbm, ⟨80, _⟩ => ⟨S4000000x5, .f32⟩
  | .hbm, ⟨81, _⟩ => ⟨S_, .f32⟩
  | .hbm, ⟨82, _⟩ => ⟨S4000000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_c_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_cst_21 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]

class Facts₀ : Prop where
  slices_S4000000x6_S4000000x5_0_0 : S4000000x6.Slices ![0, 0] S4000000x5
  reducesTo_S4000000x5_S4000000_d1 : S4000000x5.ReducesTo [1] S4000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x5_0_1 : S4000000x1.BroadcastsInDim S4000000x5 (![0, 1] : Fin 2 → Fin S4000000x5.rank)
  bcast_S_S4096 : S_.BroadcastsInDim S4096 (![] : Fin 0 → Fin S4096.rank)
  bcast_S_S4096x5 : S_.BroadcastsInDim S4096x5 (![] : Fin 0 → Fin S4096x5.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x5_0_1 : S4096x1.BroadcastsInDim S4096x5 (![0, 1] : Fin 2 → Fin S4096x5.rank)
  reducesTo_S4096x5_S4096_d1 : S4096x5.ReducesTo [1] S4096
  reducesTo_S4096_S_d0 : S4096.ReducesTo [0] S_
  natLt_1_32 : 1 < 32
  bcast_S_S4000000x5 : S_.BroadcastsInDim S4000000x5 (![] : Fin 0 → Fin S4000000x5.rank)
  reducesTo_S4000000_S_d0 : S4000000.ReducesTo [0] S_
  scatter_S4096_S4000000x1_S4000000_n_0_0_1_wf : ScatterDims.WF S4096 S4000000x1 S4000000 [] [0] [0] 1
  scatter_S4096x5_S4000000x1_S4000000x5_1_0_0_1_wf : ScatterDims.WF S4096x5 S4000000x1 S4000000x5 [1] [0] [0] 1

variable [Facts₀]

def scatter_S4096_S4000000x1_S4000000_n_0_0_1 : ScatterDims S4096 S4000000x1 S4000000 where
  updateWindowDims := []
  insertedWindowDims := [0]
  scatterDimsToOperandDims := [0]
  indexVectorDim := 1
  wf := scatter_S4096_S4000000x1_S4000000_n_0_0_1_wf
def scatter_S4096x5_S4000000x1_S4000000x5_1_0_0_1 : ScatterDims S4096x5 S4000000x1 S4000000x5 where
  updateWindowDims := [1]
  insertedWindowDims := [0]
  scatterDimsToOperandDims := [0]
  indexVectorDim := 1
  wf := scatter_S4096x5_S4000000x1_S4000000x5_1_0_0_1_wf

class Facts : Prop extends Facts₀ where

variable [Facts]
-- ==== Proof.KFrameKit.lean ====
/-
  The launch side of the one pipelined call, written against the library's frame theorems: the host lines before the
  call (a reshape of the segment ids into a column), the call, and the three stretches of host lines after it; what the
  call's arrays hold when it is entered; each window's block at a grid point; the branch condition of the body (the
  accumulators are reset exactly at the first step of each core's row of the grid, i.e. at the points that are
  multiples of 625); and the step from a run with every array named to the statement that the arguments end unchanged.
-/
import proofs.«405333_j27135603376138_3_alg».proof.Proof.Gen.Kernel.Launch
import proofs.«405333_j27135603376138_3_alg».proof.Proof.Gen.Kernel.Skeleton
import proofs.«405333_j27135603376138_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The buffers' contents when the call is entered: after the one host line before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The three stretches of host lines after the call. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is: the line before the call, the call, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only the call's arrays and buffers the call does not use. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
/-- No later line writes reference `b` when `b` is none of their result buffers: stated once per array of the call. -/
theorem tail_keeps_arg0 : ∀ op ∈ (List.flatten tailOps : List (HloOp τ sig (Elt F))), Proc.devRef .tc main_arg0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_arg1 : ∀ op ∈ (List.flatten tailOps : List (HloOp τ sig (Elt F))), Proc.devRef .tc main_arg1 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v0 : ∀ op ∈ (List.flatten tailOps : List (HloOp τ sig (Elt F))), Proc.devRef .tc main_v0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v1_0 : ∀ op ∈ (List.flatten tailOps : List (HloOp τ sig (Elt F))), Proc.devRef .tc main_v1_0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v1_1 : ∀ op ∈ (List.flatten tailOps : List (HloOp τ sig (Elt F))), Proc.devRef .tc main_v1_1 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- And they write no array of the call. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (List.flatten tailOps : List (HloOp τ sig (Elt F))) := List.mem_flatten.mpr ⟨ops, hops, hop⟩
  fin_cases w
  · exact tail_keeps_arg0 op hmem
  · exact tail_keeps_v0 op hmem
  · exact tail_keeps_v1_0 op hmem
  · exact tail_keeps_v1_1 op hmem

/-- The line before the call writes neither argument: the call finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
/-- No later line writes the second argument (the segment ids), which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that names every array of the call after it and every other buffer after the later lines: the two
    arguments end as launched (the logits are an input window's array; the segment ids are staged by no window). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch -/

/-- The body resets its two accumulators when the second grid coordinate is zero. -/
abbrev cond0_0 (i : grid0.Coords) : Prop := (Scalar.cmpi .ne (Scalar.extui (Scalar.cmpi .eq (BitVec.ofNat 32 (i 1).val) 0#32)) 0#32) = 1#1
/-- That is at the points that are multiples of 625 (the first step of each core's row). -/
theorem hcond0_0 : ∀ t : Fin cfg0.N, cond0_0 (grid0.coords t) ↔ t.val % 625 = 0 :=
  (by decide +kernel : ∀ t : Fin grid0.N, cond0_0 (grid0.coords t) ↔ t.val % 625 = 0)

/-! ## The memrefs the body is called with -/

/-- One staging buffer of each output window, through which its contents are stated. -/
abbrev VO0_2 : View sig .tc .vmem S1x176x256 .f32 := (Memref.whole cc0_stg2_0 : Memref sig .tc .vmem S1x176x256 .f32).view
abbrev VO0_3 : View sig .tc .vmem S1x1x1 .f32 := (Memref.whole cc0_stg3_0 : Memref sig .tc .vmem S1x1x1 .f32).view
abbrev ms0_0 (t : Fin cfg0.N) : Memref sig .tc .vmem S3200x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x176x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two scratch buffers (the statistics rows, and their sixteen masked copies side by side). -/
abbrev scM0_0 : Memref sig .tc .vmem S3200x11 .bf16 := Memref.whole cc0_scratch0
abbrev scM0_1 : Memref sig .tc .vmem S3200x176 .bf16 := Memref.whole cc0_scratch1

/-- What the body may use besides its windows: the two scratch buffers at any contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/-
  The body of the call run once, symbolically, in the case where the second grid coordinate is zero (the accumulators are reset first):
  from the two input blocks, the accumulators at anything and the two scratch buffers at anything, it ends with the
  inputs as they were, each accumulator's buffer written by the stores the run lists, and the scratch buffers at some contents.
-/
import proofs.«405333_j27135603376138_3_alg».proof.Proof.KFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two accumulators' buffers in this case (last first), with the proof that the body runs to
    any continuation that accepts the buffers so written. -/
noncomputable def kernelRun0_A (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) :
    Σ' (L2 : List (View.Piece (Elt F) S1x176x256 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KRunB.lean ====
/-
  The body of the call run once, symbolically, in the case where the second grid coordinate is not zero (the accumulators carry what the step before left):
  from the two input blocks, the accumulators at their running contents and the two scratch buffers at anything, it ends with the
  inputs as they were, each accumulator's buffer written by the stores the run lists, and the scratch buffers at some contents.
-/
import proofs.«405333_j27135603376138_3_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two accumulators' buffers in this case (last first), with the proof that the body runs to
    any continuation that accepts the buffers so written. -/
noncomputable def kernelRun0_B (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) :
    Σ' (L2 : List (View.Piece (Elt F) S1x176x256 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KFrame.lean ====
/-
  The call's proof data and its run. After each grid point the two accumulators' buffers hold: at the first step of a
  core's row (points that are multiples of 625) what the reset-then-add run leaves; at every other point what the add run
  leaves over the contents of the point before (the buffers are not written back in between: they are written back only
  at the last step of a row). With that the body is sound at every point, the whole program runs to the end, every
  array of the call is named afterwards, and the two arguments end unchanged.
-/
import proofs.«405333_j27135603376138_3_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators' buffers -/

theorem cover0_A_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) (y : S1x176x256.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x176x256.size (by sl_kernel_rfl) y
theorem cover0_A_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) (y : S1x1x1.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x1x1.size (by sl_kernel_rfl) y
theorem cover0_B_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) (y : S1x176x256.Idx) :
    ∃ pc ∈ (kernelRun0_B c i arg2 harg2 arg3 harg3 arg4 harg4 arg5 harg5 arg6 harg6 arg7 harg7 hc0 x0 x1 xo2 xo3).1, y ∈ pc.1.set :=
  View.cover_of_tiledL (kernelRun0_B c i arg2 harg2 arg3 harg3 arg4 harg4 arg5 harg5 arg6 harg6 arg7 harg7 hc0 x0 x1 xo2 xo3).1 S1x176x256.size (by sl_kernel_rfl) y
theorem cover0_B_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) (y : S1x1x1.Idx) :
    ∃ pc ∈ (kernelRun0_B c i arg2 harg2 arg3 harg3 arg4 harg4 arg5 harg5 arg6 harg6 arg7 harg7 hc0 x0 x1 xo2 xo3).2.1, y ∈ pc.1.set :=
  View.cover_of_tiledL (kernelRun0_B c i arg2 harg2 arg3 harg3 arg4 harg4 arg5 harg5 arg6 harg6 arg7 harg7 hc0 x0 x1 xo2 xo3).2.1 S1x1x1.size (by sl_kernel_rfl) y

/-- The statistics accumulator after a reset step. -/
def out0_A_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) : Vec F S1x176x256 .f32 :=
  VO0_2.read (Elt F) (VO0_2.writes (Elt F) VO0_2.junk (kernelRun0_A c i arg2 harg2 arg3 harg3 arg4 harg4 arg5 harg5 arg6 harg6 arg7 harg7 hc0 x0 x1).1)
/-- The entropy accumulator after a reset step. -/
def out0_A_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) : Vec F S1x1x1 .f32 :=
  VO0_3.read (Elt F) (VO0_3.writes (Elt F) VO0_3.junk (kernelRun0_A c i arg2 harg2 arg3 harg3 arg4 harg4 arg5 harg5 arg6 harg6 arg7 harg7 hc0 x0 x1).2.1)
/-- The statistics accumulator after an adding step, over the running contents. -/
def out0_B_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) : Vec F S1x176x256 .f32 :=
  VO0_2.read (Elt F) (VO0_2.writes (Elt F) VO0_2.junk (kernelRun0_B c i arg2 harg2 arg3 harg3 arg4 harg4 arg5 harg5 arg6 harg6 arg7 harg7 hc0 x0 x1 xo2 xo3).1)
/-- The entropy accumulator after an adding step, over the running contents. -/
def out0_B_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 arg6 harg6 arg7 harg7 hc0 x0 x1 xo2 xo3).2.1)

/-! ## The accumulation, point by point -/

/-- What the two accumulators' buffers hold after the body at point `n` (statistics, entropy). -/
def outsAt0 (c : Dev nD) : (n : ℕ) → n < cfg0.N → Vec F S1x176x256 .f32 × Vec F S1x1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _)
        ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _)
        ((hcond0_0 ⟨0, hn⟩).mpr (Nat.zero_mod _)) (iblk m c 0 ⟨0, hn⟩) (iblk m c 1 ⟨0, hn⟩))
  | n + 1, hn =>
    if h0 : (n + 1) % 625 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a reset point. -/
theorem outsAt0_A (c : Dev nD) (t : Fin cfg0.N) (h0 : t.val % 625 = 0) :
    outsAt0 m c t.val t.isLt =
      (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (iblk m c 0 t) (iblk m c 1 t)) := by
  obtain ⟨n, hn⟩ := t
  cases n with
  | zero => exact rfl
  | succ n => exact (dif_pos h0).trans rfl

/-- At an adding point: over what the point before left. -/
theorem outsAt0_B (c : Dev nD) (t : Fin cfg0.N) (h0 : ¬t.val % 625 = 0) :
    outsAt0 m c t.val t.isLt =
      (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an adding point an accumulator's buffer holds what the point before left (it was not written back in between). -/
theorem before0_2_B (c : Dev nD) (t : Fin cfg0.N) (h0 : ¬t.val % 625 = 0) (d) :
    (dats m 0 c).before 2 t d = (outsAt0 m c (t.val - 1) (Nat.lt_of_le_of_lt (Nat.sub_le _ _) t.isLt)).1 := by
  have hN : t.val < 1250 := lt_of_lt_of_eq t.isLt (show cfg0.N = 1250 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 625 = 0) (d) :
    (dats m 0 c).before 3 t d = (outsAt0 m c (t.val - 1) (Nat.lt_of_le_of_lt (Nat.sub_le _ _) t.isLt)).2 := by
  have hN : t.val < 1250 := lt_of_lt_of_eq t.isLt (show cfg0.N = 1250 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body is sound at every point: the inputs' buffers hold their blocks; the point is a reset point or an adding
    point, and at an adding point the accumulators hold what the point before left; the scratch buffers and the
    generator register pass through at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 1250 := lt_of_lt_of_eq t.isLt (show cfg0.N = 1250 from N_0)
  by_cases h0 : t.val % 625 = 0
  · rw [outsAt0_A m c t h0]
    unfold out0_A_2 out0_A_3; (try dsimp only)
    iintro ⟨⟨⟨HS0, HS1⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists (scM0_0.view.read (Elt F) es0), es0; isplitr; · ipureintro; rfl
          iexact HS0
        unfold owns; iexists (scM0_1.view.read (Elt F) es1), es1; isplitr; · ipureintro; rfl
        iexact HS1
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    unfold owns; iexists _; isplitr
    swap; · iexact H3
    ipureintro; exact View.read_writes_of_cover _ _ _ _ _ (cover0_A_3 c _ _ _ _ _ _ _ _ _ _ _ _ _ _ _ _)
  · rw [outsAt0_B m c t h0]
    simp only [before0_2_B m c t h0, before0_3_B m c t h0]
    unfold out0_B_2 out0_B_3; (try dsimp only)
    iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists (scM0_0.view.read (Elt F) es0), es0; isplitr; · ipureintro; rfl
          iexact HS0
        unfold owns; iexists (scM0_1.view.read (Elt F) es1), es1; isplitr; · ipureintro; rfl
        iexact HS1
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 4000000 in
/-- Every weakly fair execution of the program terminates; afterwards every array of the call holds what the library
    computes from the proof data, and every other buffer what the later host lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIFrameKit.lean ====
/-
  The launch side of the one pipelined call, written against the library's frame theorems: the host lines before the
  call (a reshape of the segment ids into a column), the call, and the three stretches of host lines after it; what the
  call's arrays hold when it is entered; each window's block at a grid point; the branch condition of the body (the
  accumulators are reset exactly at the first step of each core's row of the grid, i.e. at the points that are
  multiples of 625); and the step from a run with every array named to the statement that the arguments end unchanged.
-/
import proofs.«405333_j27135603376138_3_alg».proof.Proof.Gen.KernelIdeal.Launch
import proofs.«405333_j27135603376138_3_alg».proof.Proof.Gen.KernelIdeal.Skeleton
import proofs.«405333_j27135603376138_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- The buffers' contents when the call is entered: after the one host line before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The three stretches of host lines after the call. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is: the line before the call, the call, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only the call's arrays and buffers the call does not use. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
/-- No later line writes reference `b` when `b` is none of their result buffers: stated once per array of the call. -/
theorem tail_keeps_arg0 : ∀ op ∈ (List.flatten tailOps : List (HloOp τ sig (Elt F))), Proc.devRef .tc main_arg0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_arg1 : ∀ op ∈ (List.flatten tailOps : List (HloOp τ sig (Elt F))), Proc.devRef .tc main_arg1 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v0 : ∀ op ∈ (List.flatten tailOps : List (HloOp τ sig (Elt F))), Proc.devRef .tc main_v0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v1_0 : ∀ op ∈ (List.flatten tailOps : List (HloOp τ sig (Elt F))), Proc.devRef .tc main_v1_0 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
set_option maxHeartbeats 4000000 in
theorem tail_keeps_v1_1 : ∀ op ∈ (List.flatten tailOps : List (HloOp τ sig (Elt F))), Proc.devRef .tc main_v1_1 ∉ op.writes :=
  (List.forall_iff_forall_mem.mp (by
      simp only [tailOps, hostOps1, hostOps1_1, hostOps1_2, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- And they write no array of the call. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (List.flatten tailOps : List (HloOp τ sig (Elt F))) := List.mem_flatten.mpr ⟨ops, hops, hop⟩
  fin_cases w
  · exact tail_keeps_arg0 op hmem
  · exact tail_keeps_v0 op hmem
  · exact tail_keeps_v1_0 op hmem
  · exact tail_keeps_v1_1 op hmem

/-- The line before the call writes neither argument: the call finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
/-- No later line writes the second argument (the segment ids), which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that names every array of the call after it and every other buffer after the later lines: the two
    arguments end as launched (the logits are an input window's array; the segment ids are staged by no window). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch -/

/-- The body resets its two accumulators when the second grid coordinate is zero. -/
abbrev cond0_0 (i : grid0.Coords) : Prop := (Scalar.cmpi .ne (Scalar.extui (Scalar.cmpi .eq (BitVec.ofNat 32 (i 1).val) 0#32)) 0#32) = 1#1
/-- That is at the points that are multiples of 625 (the first step of each core's row). -/
theorem hcond0_0 : ∀ t : Fin cfg0.N, cond0_0 (grid0.coords t) ↔ t.val % 625 = 0 :=
  (by decide +kernel : ∀ t : Fin grid0.N, cond0_0 (grid0.coords t) ↔ t.val % 625 = 0)

/-! ## The memrefs the body is called with -/

/-- One staging buffer of each output window, through which its contents are stated. -/
abbrev VO0_2 : View sig .tc .vmem S1x176x256 .f32 := (Memref.whole cc0_stg2_0 : Memref sig .tc .vmem S1x176x256 .f32).view
abbrev VO0_3 : View sig .tc .vmem S1x1x1 .f32 := (Memref.whole cc0_stg3_0 : Memref sig .tc .vmem S1x1x1 .f32).view
abbrev ms0_0 (t : Fin cfg0.N) : Memref sig .tc .vmem S3200x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x176x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two scratch buffers (the statistics rows, and their sixteen masked copies side by side). -/
abbrev scM0_0 : Memref sig .tc .vmem S3200x11 .bf16 := Memref.whole cc0_scratch0
abbrev scM0_1 : Memref sig .tc .vmem S3200x176 .bf16 := Memref.whole cc0_scratch1

/-- What the body may use besides its windows: the two scratch buffers at any contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The body of the call run once, symbolically, in the case where the second grid coordinate is zero (the accumulators are reset first):
  from the two input blocks, the accumulators at anything and the two scratch buffers at anything, it ends with the
  inputs as they were, each accumulator's buffer written by the stores the run lists, and the scratch buffers at some contents.
-/
import proofs.«405333_j27135603376138_3_alg».proof.Proof.KIFrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two accumulators' buffers in this case (last first), with the proof that the body runs to
    any continuation that accepts the buffers so written. -/
noncomputable def kernelRun0_A (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) :
    Σ' (L2 : List (View.Piece (Elt F) S1x176x256 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIRunB.lean ====
/-
  The body of the call run once, symbolically, in the case where the second grid coordinate is not zero (the accumulators carry what the step before left):
  from the two input blocks, the accumulators at their running contents and the two scratch buffers at anything, it ends with the
  inputs as they were, each accumulator's buffer written by the stores the run lists, and the scratch buffers at some contents.
-/
import proofs.«405333_j27135603376138_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two accumulators' buffers in this case (last first), with the proof that the body runs to
    any continuation that accepts the buffers so written. -/
noncomputable def kernelRun0_B (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) :
    Σ' (L2 : List (View.Piece (Elt F) S1x176x256 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} f)
                ∗ (∃ f, arg7.view.loc (c : Thread nD τ) ↦[arg7.view.set]{fullShare} f)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIFrame.lean ====
/-
  The call's proof data and its run. After each grid point the two accumulators' buffers hold: at the first step of a
  core's row (points that are multiples of 625) what the reset-then-add run leaves; at every other point what the add run
  leaves over the contents of the point before (the buffers are not written back in between: they are written back only
  at the last step of a row). With that the body is sound at every point, the whole program runs to the end, every
  array of the call is named afterwards, and the two arguments end unchanged.
-/
import proofs.«405333_j27135603376138_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators' buffers -/

theorem cover0_A_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) (y : S1x176x256.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x176x256.size (by sl_kernel_rfl) y
theorem cover0_A_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) (y : S1x1x1.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x1x1.size (by sl_kernel_rfl) y
theorem cover0_B_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) (y : S1x176x256.Idx) :
    ∃ pc ∈ (kernelRun0_B c i arg2 harg2 arg3 harg3 arg4 harg4 arg5 harg5 arg6 harg6 arg7 harg7 hc0 x0 x1 xo2 xo3).1, y ∈ pc.1.set :=
  View.cover_of_tiledL (kernelRun0_B c i arg2 harg2 arg3 harg3 arg4 harg4 arg5 harg5 arg6 harg6 arg7 harg7 hc0 x0 x1 xo2 xo3).1 S1x176x256.size (by sl_kernel_rfl) y
theorem cover0_B_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) (y : S1x1x1.Idx) :
    ∃ pc ∈ (kernelRun0_B c i arg2 harg2 arg3 harg3 arg4 harg4 arg5 harg5 arg6 harg6 arg7 harg7 hc0 x0 x1 xo2 xo3).2.1, y ∈ pc.1.set :=
  View.cover_of_tiledL (kernelRun0_B c i arg2 harg2 arg3 harg3 arg4 harg4 arg5 harg5 arg6 harg6 arg7 harg7 hc0 x0 x1 xo2 xo3).2.1 S1x1x1.size (by sl_kernel_rfl) y

/-- The statistics accumulator after a reset step. -/
def out0_A_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) : Vec F S1x176x256 .f32 :=
  VO0_2.read (Elt F) (VO0_2.writes (Elt F) VO0_2.junk (kernelRun0_A c i arg2 harg2 arg3 harg3 arg4 harg4 arg5 harg5 arg6 harg6 arg7 harg7 hc0 x0 x1).1)
/-- The entropy accumulator after a reset step. -/
def out0_A_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) : Vec F S1x1x1 .f32 :=
  VO0_3.read (Elt F) (VO0_3.writes (Elt F) VO0_3.junk (kernelRun0_A c i arg2 harg2 arg3 harg3 arg4 harg4 arg5 harg5 arg6 harg6 arg7 harg7 hc0 x0 x1).2.1)
/-- The statistics accumulator after an adding step, over the running contents. -/
def out0_B_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) : Vec F S1x176x256 .f32 :=
  VO0_2.read (Elt F) (VO0_2.writes (Elt F) VO0_2.junk (kernelRun0_B c i arg2 harg2 arg3 harg3 arg4 harg4 arg5 harg5 arg6 harg6 arg7 harg7 hc0 x0 x1 xo2 xo3).1)
/-- The entropy accumulator after an adding step, over the running contents. -/
def out0_B_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 arg6 harg6 arg7 harg7 hc0 x0 x1 xo2 xo3).2.1)

/-! ## The accumulation, point by point -/

/-- What the two accumulators' buffers hold after the body at point `n` (statistics, entropy). -/
def outsAt0 (c : Dev nD) : (n : ℕ) → n < cfg0.N → Vec F S1x176x256 .f32 × Vec F S1x1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _)
        ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _)
        ((hcond0_0 ⟨0, hn⟩).mpr (Nat.zero_mod _)) (iblk m c 0 ⟨0, hn⟩) (iblk m c 1 ⟨0, hn⟩))
  | n + 1, hn =>
    if h0 : (n + 1) % 625 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _)
          (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a reset point. -/
theorem outsAt0_A (c : Dev nD) (t : Fin cfg0.N) (h0 : t.val % 625 = 0) :
    outsAt0 m c t.val t.isLt =
      (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          ((hcond0_0 t).mpr h0) (iblk m c 0 t) (iblk m c 1 t)) := by
  obtain ⟨n, hn⟩ := t
  cases n with
  | zero => exact rfl
  | succ n => exact (dif_pos h0).trans rfl

/-- At an adding point: over what the point before left. -/
theorem outsAt0_B (c : Dev nD) (t : Fin cfg0.N) (h0 : ¬t.val % 625 = 0) :
    outsAt0 m c t.val t.isLt =
      (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _)
          (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an adding point an accumulator's buffer holds what the point before left (it was not written back in between). -/
theorem before0_2_B (c : Dev nD) (t : Fin cfg0.N) (h0 : ¬t.val % 625 = 0) (d) :
    (dats m 0 c).before 2 t d = (outsAt0 m c (t.val - 1) (Nat.lt_of_le_of_lt (Nat.sub_le _ _) t.isLt)).1 := by
  have hN : t.val < 1250 := lt_of_lt_of_eq t.isLt (show cfg0.N = 1250 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 625 = 0) (d) :
    (dats m 0 c).before 3 t d = (outsAt0 m c (t.val - 1) (Nat.lt_of_le_of_lt (Nat.sub_le _ _) t.isLt)).2 := by
  have hN : t.val < 1250 := lt_of_lt_of_eq t.isLt (show cfg0.N = 1250 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body is sound at every point: the inputs' buffers hold their blocks; the point is a reset point or an adding
    point, and at an adding point the accumulators hold what the point before left; the scratch buffers and the
    generator register pass through at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 1250 := lt_of_lt_of_eq t.isLt (show cfg0.N = 1250 from N_0)
  by_cases h0 : t.val % 625 = 0
  · rw [outsAt0_A m c t h0]
    unfold out0_A_2 out0_A_3; (try dsimp only)
    iintro ⟨⟨⟨HS0, HS1⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists (scM0_0.view.read (Elt F) es0), es0; isplitr; · ipureintro; rfl
          iexact HS0
        unfold owns; iexists (scM0_1.view.read (Elt F) es1), es1; isplitr; · ipureintro; rfl
        iexact HS1
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    unfold owns; iexists _; isplitr
    swap; · iexact H3
    ipureintro; exact View.read_writes_of_cover _ _ _ _ _ (cover0_A_3 c _ _ _ _ _ _ _ _ _ _ _ _ _ _ _ _)
  · rw [outsAt0_B m c t h0]
    simp only [before0_2_B m c t h0, before0_3_B m c t h0]
    unfold out0_B_2 out0_B_3; (try dsimp only)
    iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists (scM0_0.view.read (Elt F) es0), es0; isplitr; · ipureintro; rfl
          iexact HS0
        unfold owns; iexists (scM0_1.view.read (Elt F) es1), es1; isplitr; · ipureintro; rfl
        iexact HS1
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 4000000 in
/-- Every weakly fair execution of the program terminates; afterwards every array of the call holds what the library
    computes from the proof data, and every other buffer what the later host lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIChain.lean ====
/-
  The two accumulators point by point, in closed form. Whatever the body's step functions are (the statistics buffer
  becomes `A2 x0 x1 old`, the entropy buffer `A3 x0 old`, and a reset step starts from `z2`, `z3`), the buffers after
  point `n` are the step functions iterated from the last reset point (the last multiple of 625 not above `n`). When a
  step adds to each entry a quantity that depends on the point's blocks only, the entry after point `n` is the reset
  value plus the sum of those quantities over the points since the reset.
-/
import proofs.«405333_j27135603376138_3_alg».proof.Proof.KIFrame
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

abbrev V2 := Vec Ideal S1x176x256 .f32
abbrev V3 := Vec Ideal S1x1x1 .f32
abbrev B0 := Vec Ideal S3200x6 .f32
abbrev B1 := Vec Ideal S3200x1 .i32

/-- The logits block and the id block the body is handed at point `t`. -/
abbrev blk0 (c : Dev nD) (t : Fin cfg0.N) : B0 := iblk m c 0 t
abbrev blk1 (c : Dev nD) (t : Fin cfg0.N) : B1 := iblk m c 1 t

section Steps

variable (A2 : B0 → B1 → V2 → V2) (A3 : B0 → V3 → V3) (z2 : V2) (z3 : V3)

/-- The running contents of the two accumulators after point `n`. -/
def chain (c : Dev nD) : (n : ℕ) → n < cfg0.N → V2 × V3
  | 0, h => (A2 (blk0 m c ⟨0, h⟩) (blk1 m c ⟨0, h⟩) z2, A3 (blk0 m c ⟨0, h⟩) z3)
  | n + 1, h =>
    if (n + 1) % 625 = 0 then (A2 (blk0 m c ⟨n + 1, h⟩) (blk1 m c ⟨n + 1, h⟩) z2, A3 (blk0 m c ⟨n + 1, h⟩) z3)
    else (A2 (blk0 m c ⟨n + 1, h⟩) (blk1 m c ⟨n + 1, h⟩) (chain c n (Nat.lt_of_succ_lt h)).1,
          A3 (blk0 m c ⟨n + 1, h⟩) (chain c n (Nat.lt_of_succ_lt h)).2)

variable (hB2 : ∀ (c : Dev nD) (i : grid0.Coords) (a2 : Memref sig .tc .vmem S3200x6 .f32) (h2 : a2.IsWhole) (a3 : Memref sig .tc .vmem S3200x1 .i32) (h3 : a3.IsWhole) (a4 : Memref sig .tc .vmem S1x176x256 .f32) (h4 : a4.IsWhole) (a5 : Memref sig .tc .vmem S1x1x1 .f32) (h5 : a5.IsWhole) (a6 : Memref sig .tc .vmem S3200x11 .bf16) (h6 : a6.IsWhole) (a7 : Memref sig .tc .vmem S3200x176 .bf16) (h7 : a7.IsWhole) (hc : ¬cond0_0 i) (x0 : B0) (x1 : B1) (xo2 : V2) (xo3 : V3),
    out0_B_2 (F := Ideal) c i a2 h2 a3 h3 a4 h4 a5 h5 a6 h6 a7 h7 hc x0 x1 xo2 xo3 = A2 x0 x1 xo2)
  (hB3 : ∀ (c : Dev nD) (i : grid0.Coords) (a2 : Memref sig .tc .vmem S3200x6 .f32) (h2 : a2.IsWhole) (a3 : Memref sig .tc .vmem S3200x1 .i32) (h3 : a3.IsWhole) (a4 : Memref sig .tc .vmem S1x176x256 .f32) (h4 : a4.IsWhole) (a5 : Memref sig .tc .vmem S1x1x1 .f32) (h5 : a5.IsWhole) (a6 : Memref sig .tc .vmem S3200x11 .bf16) (h6 : a6.IsWhole) (a7 : Memref sig .tc .vmem S3200x176 .bf16) (h7 : a7.IsWhole) (hc : ¬cond0_0 i) (x0 : B0) (x1 : B1) (xo2 : V2) (xo3 : V3),
    out0_B_3 (F := Ideal) c i a2 h2 a3 h3 a4 h4 a5 h5 a6 h6 a7 h7 hc x0 x1 xo2 xo3 = A3 x0 xo3)
  (hA2 : ∀ (c : Dev nD) (i : grid0.Coords) (a2 : Memref sig .tc .vmem S3200x6 .f32) (h2 : a2.IsWhole) (a3 : Memref sig .tc .vmem S3200x1 .i32) (h3 : a3.IsWhole) (a4 : Memref sig .tc .vmem S1x176x256 .f32) (h4 : a4.IsWhole) (a5 : Memref sig .tc .vmem S1x1x1 .f32) (h5 : a5.IsWhole) (a6 : Memref sig .tc .vmem S3200x11 .bf16) (h6 : a6.IsWhole) (a7 : Memref sig .tc .vmem S3200x176 .bf16) (h7 : a7.IsWhole) (hc : cond0_0 i) (x0 : B0) (x1 : B1),
    out0_A_2 (F := Ideal) c i a2 h2 a3 h3 a4 h4 a5 h5 a6 h6 a7 h7 hc x0 x1 = A2 x0 x1 z2)
  (hA3 : ∀ (c : Dev nD) (i : grid0.Coords) (a2 : Memref sig .tc .vmem S3200x6 .f32) (h2 : a2.IsWhole) (a3 : Memref sig .tc .vmem S3200x1 .i32) (h3 : a3.IsWhole) (a4 : Memref sig .tc .vmem S1x176x256 .f32) (h4 : a4.IsWhole) (a5 : Memref sig .tc .vmem S1x1x1 .f32) (h5 : a5.IsWhole) (a6 : Memref sig .tc .vmem S3200x11 .bf16) (h6 : a6.IsWhole) (a7 : Memref sig .tc .vmem S3200x176 .bf16) (h7 : a7.IsWhole) (hc : cond0_0 i) (x0 : B0) (x1 : B1),
    out0_A_3 (F := Ideal) c i a2 h2 a3 h3 a4 h4 a5 h5 a6 h6 a7 h7 hc x0 x1 = A3 x0 z3)

include hB2 hB3 hA2 hA3 in
/-- The proof data's recursion is that iteration. -/
theorem outsAt_eq (c : Dev nD) : ∀ (n : ℕ) (h : n < cfg0.N), outsAt0 m c n h = chain m A2 A3 z2 z3 c n h
  | 0, h => by
    rw [outsAt0_A m c ⟨0, h⟩ rfl, hA2, hA3]; rfl
  | n + 1, h => by
    by_cases h0 : (n + 1) % 625 = 0
    · rw [outsAt0_A m c ⟨n + 1, h⟩ h0, hA2, hA3]
      show _ = (if (n + 1) % 625 = 0 then _ else _)
      rw [if_pos h0]
    · rw [outsAt0_B m c ⟨n + 1, h⟩ h0, hB2, hB3]
      show _ = (if (n + 1) % 625 = 0 then _ else _)
      rw [if_neg h0]
      have e := outsAt_eq c n (Nat.lt_of_succ_lt h)
      show (A2 _ _ (outsAt0 m c n _).1, A3 _ (outsAt0 m c n _).2) = _
      rw [e]

end Steps

section Sums

variable (A2 : B0 → B1 → V2 → V2) (A3 : B0 → V3 → V3) (z2 : V2) (z3 : V3)
variable (S2 : B0 → B1 → Fin 176 → Fin 256 → EReal) (S3 : B0 → EReal)
variable (hS2 : ∀ (x0 : B0) (x1 : B1) (xo : V2) (e : Fin 176) (l : Fin 256),
    A2 x0 x1 xo (ix3 (0 : Fin 1) e l) = xo (ix3 (0 : Fin 1) e l) + S2 x0 x1 e l)
  (hS3 : ∀ (x0 : B0) (xo : V3), A3 x0 xo (ix3 (0 : Fin 1) (0 : Fin 1) (0 : Fin 1)) = xo (ix3 (0 : Fin 1) (0 : Fin 1) (0 : Fin 1)) + S3 x0)

/-- What point `j` adds to entry (e, l) of the statistics accumulator (zero past the grid). -/
def add2 (c : Dev nD) (e : Fin 176) (l : Fin 256) (j : ℕ) : EReal :=
  if h : j < cfg0.N then S2 (blk0 m c ⟨j, h⟩) (blk1 m c ⟨j, h⟩) e l else 0
/-- What point `j` adds to the entropy accumulator. -/
def add3 (c : Dev nD) (j : ℕ) : EReal := if h : j < cfg0.N then S3 (blk0 m c ⟨j, h⟩) else 0

include hS2 in
/-- Entry (e, l) of the statistics accumulator after point `n`: the reset value plus the sum over the points since the
    last reset. -/
theorem chain_fst (c : Dev nD) (e : Fin 176) (l : Fin 256) : ∀ (n : ℕ) (h : n < cfg0.N),
    (chain m A2 A3 z2 z3 c n h).1 (ix3 (0 : Fin 1) e l)
      = z2 (ix3 (0 : Fin 1) e l) + ∑ j ∈ Finset.range (n % 625 + 1), add2 m S2 c e l (n - n % 625 + j)
  | 0, h => by
    show A2 _ _ z2 _ = _
    rw [hS2, Finset.sum_range_one]
    show _ = _ + add2 m S2 c e l 0
    unfold add2; rw [dif_pos h]
  | n + 1, h => by
    by_cases h0 : (n + 1) % 625 = 0
    · show (if (n + 1) % 625 = 0 then _ else _ : V2 × V3).1 _ = _
      rw [if_pos h0, h0]
      show A2 _ _ z2 _ = _
      rw [hS2, Finset.sum_range_one]
      show _ = _ + add2 m S2 c e l (n + 1)
      unfold add2; rw [dif_pos h]
    · show (if (n + 1) % 625 = 0 then _ else _ : V2 × V3).1 _ = _
      rw [if_neg h0]
      show A2 _ _ (chain m A2 A3 z2 z3 c n _).1 _ = _
      have e1 : (n + 1) % 625 + 1 = (n % 625 + 1) + 1 := by omega
      have e2 : n + 1 - (n + 1) % 625 = n - n % 625 := by omega
      have e3 : n - n % 625 + (n % 625 + 1) = n + 1 := by omega
      have hR : ∑ j ∈ Finset.range ((n + 1) % 625 + 1), add2 m S2 c e l (n + 1 - (n + 1) % 625 + j)
          = (∑ j ∈ Finset.range (n % 625 + 1), add2 m S2 c e l (n - n % 625 + j)) + add2 m S2 c e l (n + 1) := by
        rw [e1, Finset.sum_range_succ, e2, e3]
      rw [hS2, chain_fst c e l n (Nat.lt_of_succ_lt h), hR, add_assoc]
      congr 2
      unfold add2; rw [dif_pos h]

include hS3 in
/-- The entropy accumulator after point `n`, likewise. -/
theorem chain_snd (c : Dev nD) : ∀ (n : ℕ) (h : n < cfg0.N),
    (chain m A2 A3 z2 z3 c n h).2 (ix3 (0 : Fin 1) (0 : Fin 1) (0 : Fin 1))
      = z3 (ix3 (0 : Fin 1) (0 : Fin 1) (0 : Fin 1)) + ∑ j ∈ Finset.range (n % 625 + 1), add3 m S3 c (n - n % 625 + j)
  | 0, h => by
    show A3 _ z3 _ = _
    rw [hS3, Finset.sum_range_one]
    show _ = _ + add3 m S3 c 0
    unfold add3; rw [dif_pos h]
  | n + 1, h => by
    by_cases h0 : (n + 1) % 625 = 0
    · show (if (n + 1) % 625 = 0 then _ else _ : V2 × V3).2 _ = _
      rw [if_pos h0, h0]
      show A3 _ z3 _ = _
      rw [hS3, Finset.sum_range_one]
      show _ = _ + add3 m S3 c (n + 1)
      unfold add3; rw [dif_pos h]
    · show (if (n + 1) % 625 = 0 then _ else _ : V2 × V3).2 _ = _
      rw [if_neg h0]
      show A3 _ (chain m A2 A3 z2 z3 c n _).2 _ = _
      have e1 : (n + 1) % 625 + 1 = (n % 625 + 1) + 1 := by omega
      have e2 : n + 1 - (n + 1) % 625 = n - n % 625 := by omega
      have e3 : n - n % 625 + (n % 625 + 1) = n + 1 := by omega
      have hR : ∑ j ∈ Finset.range ((n + 1) % 625 + 1), add3 m S3 c (n + 1 - (n + 1) % 625 + j)
          = (∑ j ∈ Finset.range (n % 625 + 1), add3 m S3 c (n - n % 625 + j)) + add3 m S3 c (n + 1) := by
        rw [e1, Finset.sum_range_succ, e2, e3]
      rw [hS3, chain_snd c n (Nat.lt_of_succ_lt h), hR, add_assoc]
      congr 2
      unfold add3; rw [dif_pos h]

end Sums

end Cert.KernelIdeal.Value

end
-- ==== Proof.KIArrays.lean ====
/-
  The call's arrays before and after. The logits block handed to point `t` is rows `3200 t … 3200 t + 3199` of the
  logits; the id block is the same rows of the ids (the host line before the call only re-lays the ids as a column).
  Each core's accumulators are written back once, after the last step of its row of the grid (point `625 k + 624` for
  core `k`), into slab `k` of the result arrays; the two slabs cover them. So after the call the statistics array at
  (k, e, l) and the entropy array at (k, 0, 0) hold what the accumulators held after point `625 k + 624`.
-/
import proofs.«405333_j27135603376138_3_alg».proof.Proof.KIFrame
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps over the grid: the input windows' block row is the point's number; the output windows'
    slab is the point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 625 ∧ win0_2.index t (1 : Fin 3) = 0 ∧ win0_2.index t (2 : Fin 3) = 0
    ∧ win0_3.index t (0 : Fin 3) = t.val / 625 ∧ win0_3.index t (1 : Fin 3) = 0 ∧ win0_3.index t (2 : Fin 3) = 0 :=
  (by decide +kernel : ∀ t : Fin grid0.N, _)

/-- Row `q` of point `t`'s block is row `3200 t + q` of the array. -/
def rowAt (t : Fin cfg0.N) (q : Fin 3200) : Fin 4000000 :=
  ⟨t.val * 3200 + q.val, by have h := t.isLt; have hN : cfg0.N = 1250 := N_0; omega⟩

/-- The logits block at a point, entry by entry. -/
theorem blk0_apply (c : Dev nD) (t : Fin cfg0.N) (q : Fin 3200) (a : Fin 6) :
    (iblk m c 0 t : Vec Ideal S3200x6 .f32) (ix2 q a) = m ((c : Thread nD τ).loc main_arg0) (ix2 (rowAt t q) a) := by
  obtain ⟨e0, e1, -⟩ := idx_facts t
  unfold iblk
  rw [View.read_apply]
  show V m c main_arg0 _ = _
  rw [V_main_arg0]
  congr 1
  funext b; apply Fin.ext
  match b with
  | ⟨0, _⟩ => show win0_0.index t (0 : Fin 2) * 3200 + 1 * q.val = t.val * 3200 + q.val; rw [e0]; omega
  | ⟨1, _⟩ => show win0_0.index t (1 : Fin 2) * 6 + 1 * a.val = a.val; rw [e1]; omega

/-- The ids as the call finds them: the launched ids re-laid as a column. -/
theorem V_main_v0 (c : Dev nD) : (V m c main_v0 : S4000000x1.Idx → BitVec 32)
    = shapeCast S4000000x1 (m ((c : Thread nD τ).loc main_arg1)) shapeCasts_S4000000_S4000000x1 := by
  dsimp only [V, V0]
  simp only [hostOps0, List.flatten_cons, List.flatten_nil, List.append_nil]
  after_results
  rfl

/-- The id block at a point, entry by entry. -/
theorem blk1_apply (c : Dev nD) (t : Fin cfg0.N) (q : Fin 3200) :
    (iblk m c 1 t : Vec Ideal S3200x1 .i32) (ix2 q (0 : Fin 1)) = m ((c : Thread nD τ).loc main_arg1) (ix1 (rowAt t q)) := by
  obtain ⟨-, -, e0, e1, -⟩ := idx_facts t
  unfold iblk
  rw [View.read_apply]
  show V m c main_v0 _ = _
  rw [V_main_v0]
  refine shapeCast_apply _ _ _ _ ?_
  show (S4000000.rowMajor (ix1 (rowAt t q))).val = (S4000000x1.rowMajor (((cfg0.win 1).blk t).view.emb (ix2 q (0 : Fin 1)))).val
  rw [Shape.rowMajor_val_one, Shape.rowMajor_val_two]
  show t.val * 3200 + q.val = (win0_1.index t (0 : Fin 2) * 3200 + 1 * q.val) * 1 + (win0_1.index t (1 : Fin 2) * 1 + 1 * 0)
  rw [e0, e1]; omega

/-! ## The result arrays -/

/-- The last point of core `k`'s row. -/
def lastPt (k : Fin 2) : Fin cfg0.N := ⟨k.val * 625 + 624, by have hN : cfg0.N = 1250 := N_0; omega⟩

/-- The statistics array after the call. -/
def accArr (c : Dev nD) : S2x176x256.Idx → EReal :=
  fun i => (outsAt0 m c (lastPt (i 0)).val (lastPt (i 0)).isLt).1 (ix3 (0 : Fin 1) (i 1) (i 2))
/-- The entropy array after the call. -/
def entArr (c : Dev nD) : S2x1x1.Idx → EReal :=
  fun i => (outsAt0 m c (lastPt (i 0)).val (lastPt (i 0)).isLt).2 (ix3 (0 : Fin 1) (i 1) (i 2))

theorem mem_blk2 (t : Fin cfg0.N) (i : S2x176x256.Idx) :
    i ∈ ((cfg0.win 2).blk t).view.set ↔ ∀ a : Fin 3, win0_2.index t a * S1x176x256.size a ≤ (i a).val ∧ (i a).val < win0_2.index t a * S1x176x256.size a + S1x176x256.size a := by
  show i ∈ ((View.whole main_v1_0).slice (win0_2.rect t)).set ↔ _
  rw [View.set_slice_whole, Rect.mem_set_unit]
  exact Iff.rfl
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1_1).slice (win0_3.rect t)).set ↔ _
  rw [View.set_slice_whole, Rect.mem_set_unit]
  exact Iff.rfl

/-- The proof data's recursion at equal points. -/
theorem outs_congr (c : Dev nD) {n n' : ℕ} (h : n < cfg0.N) (h' : n' < cfg0.N) (e : n = n') :
    outsAt0 m c n h = outsAt0 m c n' h' := by subst e; rfl

/-- `accArr` at an index of slab `t / 625`, for a last point `t` of a row. -/
theorem accArr_at (c : Dev nD) (t : Fin cfg0.N) (h624 : t.val % 625 = 624) (y : S2x176x256.Idx) (j : S1x176x256.Idx)
    (c0 : (y 0).val = t.val / 625) (c1 : (y 1).val = (j 1).val) (c2 : (y 2).val = (j 2).val) :
    accArr m c y = (outsAt0 m c t.val t.isLt).1 j := by
  unfold accArr
  have hval : (lastPt (y 0)).val = t.val := by show (y 0).val * 625 + 624 = t.val; rw [c0]; omega
  rw [outs_congr m c (lastPt (y 0)).isLt t.isLt hval]
  refine congrArg _ ?_
  funext b; apply Fin.ext
  match b with
  | ⟨0, _⟩ => show 0 = (j 0).val; have hj : (j 0).val < 1 := (j 0).isLt; omega
  | ⟨1, _⟩ => exact c1
  | ⟨2, _⟩ => exact c2
theorem entArr_at (c : Dev nD) (t : Fin cfg0.N) (h624 : t.val % 625 = 624) (y : S2x1x1.Idx) (j : S1x1x1.Idx)
    (c0 : (y 0).val = t.val / 625) (c1 : (y 1).val = (j 1).val) (c2 : (y 2).val = (j 2).val) :
    entArr m c y = (outsAt0 m c t.val t.isLt).2 j := by
  unfold entArr
  have hval : (lastPt (y 0)).val = t.val := by show (y 0).val * 625 + 624 = t.val; rw [c0]; omega
  rw [outs_congr m c (lastPt (y 0)).isLt t.isLt hval]
  refine congrArg _ ?_
  funext b; apply Fin.ext
  match b with
  | ⟨0, _⟩ => show 0 = (j 0).val; have hj : (j 0).val < 1 := (j 0).isLt; omega
  | ⟨1, _⟩ => exact c1
  | ⟨2, _⟩ => exact c2

set_option maxHeartbeats 2000000 in
/-- What a write-back point writes is its slab of `accArr`. -/
theorem flushed2_eq (c : Dev nD) (t : Fin cfg0.N) (hf : (cfg0.win 2).flush t = true) :
    (dats m 0 c).flushed 2 t = ((cfg0.win 2).blk t).view.read (Elt Ideal) (accArr m c) := by
  have h624 : t.val % 625 = 624 := (flush0_2 t).mp hf
  obtain ⟨-, -, -, -, e0, e1, e2, -⟩ := idx_facts t
  show (cfg0.win 2).cut (grid0.coords t) ((dats m 0 c).after 2 t) = _
  rw [after0_2]
  funext j
  rw [View.read_apply]
  refine (accArr_at m c t h624 _ j ?_ ?_ ?_).symm
  · show win0_2.index t (0 : Fin 3) * 1 + 1 * (j 0).val = _
    have hj : (j 0).val < 1 := (j 0).isLt
    rw [e0]; omega
  · show win0_2.index t (1 : Fin 3) * 176 + 1 * (j 1).val = _
    rw [e1]; omega
  · show win0_2.index t (2 : Fin 3) * 256 + 1 * (j 2).val = _
    rw [e2]; omega

set_option maxHeartbeats 2000000 in
theorem flushed3_eq (c : Dev nD) (t : Fin cfg0.N) (hf : (cfg0.win 3).flush t = true) :
    (dats m 0 c).flushed 3 t = ((cfg0.win 3).blk t).view.read (Elt Ideal) (entArr m c) := by
  have h624 : t.val % 625 = 624 := (flush0_3 t).mp hf
  obtain ⟨-, -, -, -, -, -, -, e0, e1, e2⟩ := idx_facts t
  show (cfg0.win 3).cut (grid0.coords t) ((dats m 0 c).after 3 t) = _
  rw [after0_3]
  funext j
  rw [View.read_apply]
  refine (entArr_at m c t h624 _ j ?_ ?_ ?_).symm
  · show win0_3.index t (0 : Fin 3) * 1 + 1 * (j 0).val = _
    have hj : (j 0).val < 1 := (j 0).isLt
    rw [e0]; omega
  · show win0_3.index t (1 : Fin 3) * 1 + 1 * (j 1).val = _
    rw [e1]; omega
  · show win0_3.index t (2 : Fin 3) * 1 + 1 * (j 2).val = _
    rw [e2]; omega

/-- The two slabs cover the statistics array, so it ends at `accArr`. -/
theorem final2 (c : Dev nD) : (dats m 0 c).arrAt 2 cfg0.N = accArr m c :=
  (dats m 0 c).arrAt_eq_of_cover 2 (accArr m c) (flushed2_eq m c) fun i => by
    have hi0 : (i 0).val < 2 := (i 0).isLt
    have hi1 : (i 1).val < 176 := (i 1).isLt
    have hi2 : (i 2).val < 256 := (i 2).isLt
    refine ⟨lastPt ⟨(i 0).val, hi0⟩, (flush0_2 _).mpr (by show ((i 0).val * 625 + 624) % 625 = 624; omega), ?_⟩
    obtain ⟨-, -, -, -, e0, e1, e2, -⟩ := idx_facts (lastPt ⟨(i 0).val, hi0⟩)
    have e0' : win0_2.index (lastPt ⟨(i 0).val, hi0⟩) (0 : Fin 3) = (i 0).val := by
      rw [e0]; show ((i 0).val * 625 + 624) / 625 = (i 0).val; omega
    rw [mem_blk2]
    intro a
    match a with
    | ⟨0, _⟩ => show win0_2.index _ (0 : Fin 3) * 1 ≤ (i 0).val ∧ (i 0).val < win0_2.index _ (0 : Fin 3) * 1 + 1; rw [e0']; omega
    | ⟨1, _⟩ => show win0_2.index _ (1 : Fin 3) * 176 ≤ (i 1).val ∧ (i 1).val < win0_2.index _ (1 : Fin 3) * 176 + 176; rw [e1]; omega
    | ⟨2, _⟩ => show win0_2.index _ (2 : Fin 3) * 256 ≤ (i 2).val ∧ (i 2).val < win0_2.index _ (2 : Fin 3) * 256 + 256; rw [e2]; omega

theorem final3 (c : Dev nD) : (dats m 0 c).arrAt 3 cfg0.N = entArr m c :=
  (dats m 0 c).arrAt_eq_of_cover 3 (entArr m c) (flushed3_eq m c) fun i => by
    have hi0 : (i 0).val < 2 := (i 0).isLt
    have hi1 : (i 1).val < 1 := (i 1).isLt
    have hi2 : (i 2).val < 1 := (i 2).isLt
    refine ⟨lastPt ⟨(i 0).val, hi0⟩, (flush0_3 _).mpr (by show ((i 0).val * 625 + 624) % 625 = 624; omega), ?_⟩
    obtain ⟨-, -, -, -, -, -, -, e0, e1, e2⟩ := idx_facts (lastPt ⟨(i 0).val, hi0⟩)
    have e0' : win0_3.index (lastPt ⟨(i 0).val, hi0⟩) (0 : Fin 3) = (i 0).val := by
      rw [e0]; show ((i 0).val * 625 + 624) / 625 = (i 0).val; omega
    rw [mem_blk3]
    intro a
    match a with
    | ⟨0, _⟩ => show win0_3.index _ (0 : Fin 3) * 1 ≤ (i 0).val ∧ (i 0).val < win0_3.index _ (0 : Fin 3) * 1 + 1; rw [e0']; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 1 ≤ (i 2).val ∧ (i 2).val < win0_3.index _ (2 : Fin 3) * 1 + 1; rw [e2]; omega

end Cert.KernelIdeal.Value

end
-- ==== Proof.Spec.lean ====
/-
  The mathematics both programs compute, stated once over the argument arrays read as functions: the logits
  `x : [4000000, 6]` (extended reals) and the segment ids `s : [4000000]` (32-bit words, read signed).

  For a row `r` the five class probabilities are the softmax of the first five logits, `prob r c = e^(x r c − max) / Σ e^(·)`.
  Row `r` carries eleven statistics: the five probabilities, the constant one, and the five squared probabilities.
  For a segment `g < 4096` and a statistic `j`, `segSum j g` adds statistic `j` over the rows whose id is `g`
  (a row whose id is outside `[0, 4096)` belongs to no segment). The entropy term of a row is `Σ_c prob · log (prob + ε)`.
  The result is `0.8 · smooth(count, sums, sums of squares) + 0.2 · entropy`, where `smooth` is one fixed chain of
  elementwise host operations (the unbiased variance per segment and class, masked to segments of at least two rows,
  averaged over classes, summed, divided by the number of non-empty segments): both programs apply that same chain, so it
  is kept as one function and never opened.
-/
import Idealize.ShloMosaic.PureOps.Ideal.Laws
import Idealize.ShloMosaic.Lib.ValueIdx
import Idealize.ShloMosaic.Lib.StableHlo

noncomputable section

open scoped BigOperators

namespace Cert.Spec

open Idealize.ShloMosaic Idealize.ShloMosaic.ValueIdx

abbrev SX : Shape := ⟨2, ![4000000, 6]⟩
abbrev SSeg : Shape := ⟨1, ![4000000]⟩
abbrev S_ : Shape := ⟨0, ![]⟩
abbrev S4096 : Shape := ⟨1, ![4096]⟩
abbrev S4096x1 : Shape := ⟨2, ![4096, 1]⟩
abbrev S4096x5 : Shape := ⟨2, ![4096, 5]⟩

/-- Class `c < 5` as a column of the six-column logits. -/
abbrev col (c : Fin 5) : Fin 6 := ⟨c.val, by omega⟩

section Rows
variable (x : SX.Idx → EReal)

/-- The largest of a row's first five logits. -/
def rowMax (r : Fin 4000000) : EReal := (Finset.univ : Finset (Fin 5)).fold max ⊥ (fun c => x (ix2 r (col c)))
/-- `e^(logit − max)`. -/
def ex (r : Fin 4000000) (c : Fin 5) : EReal := Ideal.exp (x (ix2 r (col c)) - rowMax x r)
/-- The softmax's denominator. -/
def den (r : Fin 4000000) : EReal := ∑ c : Fin 5, ex x r c
/-- The class probability. -/
def prob (r : Fin 4000000) (c : Fin 5) : EReal := Ideal.div (ex x r c) (den x r)
/-- The eleven statistics of a row: probabilities, one, squared probabilities. -/
def feat (r : Fin 4000000) (j : Fin 11) : EReal :=
  if h : j.val < 5 then prob x r ⟨j.val, h⟩
  else if h' : j.val = 5 then 1
  else prob x r ⟨j.val - 6, by omega⟩ * prob x r ⟨j.val - 6, by omega⟩
/-- The small constant under the logarithm (the f32 nearest 1e-8, on both sides the same word). -/
def eps : EReal := Ideal.ofBits .f32 0x322BCC77#32
/-- A row's entropy term `Σ_c p log (p + ε)` (its negative is the entropy). -/
def entRow (r : Fin 4000000) : EReal := ∑ c : Fin 5, prob x r c * Ideal.log (prob x r c + eps)
end Rows

/-- The rows of segment `g`: those whose id, read signed, is `g`. -/
def segRows (s : SSeg.Idx → BitVec 32) (g : Fin 4096) : Finset (Fin 4000000) :=
  Finset.univ.filter fun r => (s (ix1 r)).toInt = (g.val : Int)
/-- Statistic `j` added over segment `g`. -/
def segSum (x : SX.Idx → EReal) (s : SSeg.Idx → BitVec 32) (j : Fin 11) (g : Fin 4096) : EReal :=
  ∑ r ∈ segRows s g, feat x r j

/-- The count, the sums and the sums of squares per segment, as arrays. -/
def cntArr (x : SX.Idx → EReal) (s : SSeg.Idx → BitVec 32) : FVec Ideal S4096 .f32 := fun i => segSum x s 5 (i 0)
def s1Arr (x : SX.Idx → EReal) (s : SSeg.Idx → BitVec 32) : FVec Ideal S4096x5 .f32 :=
  fun i => segSum x s ⟨(i 1).val, by have h1 : (i 1).val < 5 := (i 1).isLt; show (i 1).val < 11; omega⟩ (i 0)
def s2Arr (x : SX.Idx → EReal) (s : SSeg.Idx → BitVec 32) : FVec Ideal S4096x5 .f32 :=
  fun i => segSum x s ⟨(i 1).val + 6, by have h1 : (i 1).val < 5 := (i 1).isLt; show (i 1).val + 6 < 11; omega⟩ (i 0)
/-- The sum of all rows' entropy terms. -/
def entTotal (x : SX.Idx → EReal) : EReal := ∑ r : Fin 4000000, entRow x r

/-- The shape relations the shared chain cites. -/
structure TailFacts : Prop where
  b_4096_4096x1 : S4096.BroadcastsInDim S4096x1 (![0] : Fin 1 → Fin S4096x1.rank)
  b_4096x1_4096x5 : S4096x1.BroadcastsInDim S4096x5 (![0, 1] : Fin 2 → Fin S4096x5.rank)
  b__4096 : S_.BroadcastsInDim S4096 (![] : Fin 0 → Fin S4096.rank)
  b__4096x1 : S_.BroadcastsInDim S4096x1 (![] : Fin 0 → Fin S4096x1.rank)
  b__4096x5 : S_.BroadcastsInDim S4096x5 (![] : Fin 0 → Fin S4096x5.rank)
  r_4096x5_4096 : S4096x5.ReducesTo [1] S4096
  r_4096_ : S4096.ReducesTo [0] S_
  h_ : 0 < S_.numel
  lt_1_32 : 1 < 32

variable {F : FTy → Type} [FloatOps F]

/-- The chain of host operations both programs apply to (count, sums, sums of squares): per segment and class the mean
    `s1 / max(cnt, 1)`, the unbiased variance `(s2 − cnt·mean·mean) / max(cnt − 1, 1)`, kept where `cnt ≥ 2` and zero
    elsewhere, averaged over the five classes, summed over segments, divided by `max(#{cnt > 0}, 1)`. -/
def smooth (hf : TailFacts) (cnt : FVec F S4096 .f32) (s1 s2 : FVec F S4096x5 .f32) : FVec F S_ .f32 :=
  Host.divf
    (Host.reduceAdd
      (Host.divf
        (Host.reduceAdd
          (select
            (broadcastInDim S4096x5 ![0, 1] hf.b_4096x1_4096x5 (broadcastInDim S4096x1 ![0] hf.b_4096_4096x1
              (cmpf (F := F) .oge cnt (broadcastInDim S4096 ![] hf.b__4096 (constant S_ .f32 0x40000000#32)))))
            (Host.divf
              (subf s2
                (mulf
                  (mulf (broadcastInDim S4096x5 ![0, 1] hf.b_4096x1_4096x5 (broadcastInDim S4096x1 ![0] hf.b_4096_4096x1 cnt))
                    (Host.divf s1 (broadcastInDim S4096x5 ![0, 1] hf.b_4096x1_4096x5
                      (maximumf (broadcastInDim S4096x1 ![0] hf.b_4096_4096x1 cnt) (broadcastInDim S4096x1 ![] hf.b__4096x1 (constant S_ .f32 0x3F800000#32))))))
                  (Host.divf s1 (broadcastInDim S4096x5 ![0, 1] hf.b_4096x1_4096x5
                    (maximumf (broadcastInDim S4096x1 ![0] hf.b_4096_4096x1 cnt) (broadcastInDim S4096x1 ![] hf.b__4096x1 (constant S_ .f32 0x3F800000#32)))))))
              (broadcastInDim S4096x5 ![0, 1] hf.b_4096x1_4096x5
                (maximumf
                  (subf (broadcastInDim S4096x1 ![0] hf.b_4096_4096x1 cnt) (broadcastInDim S4096x1 ![] hf.b__4096x1 (constant S_ .f32 0x3F800000#32)))
                  (broadcastInDim S4096x1 ![] hf.b__4096x1 (constant S_ .f32 0x3F800000#32)))))
            (broadcastInDim S4096x5 ![] hf.b__4096x5 (id (constant S_ .f32 0x00000000#32))))
          (constant S_ .f32 0x00000000#32) hf.r_4096x5_4096 hf.h_)
        (broadcastInDim S4096 ![] hf.b__4096 (constant S_ .f32 0x40A00000#32)))
      (constant S_ .f32 0x00000000#32) hf.r_4096_ hf.h_)
    (sitofp (F := F) .f32
      (maxsi
        (Host.reduce IntOp.addi
          (extui 32 (cmpf (F := F) .ogt cnt (broadcastInDim S4096 ![] hf.b__4096 (constant S_ .f32 0x00000000#32))) hf.lt_1_32)
          (constantI S_ 32 0#32) hf.r_4096_ hf.h_)
        (constantI S_ 32 1#32)))

/-- The weighted sum the programs return, from the smoothness term and the entropy term. -/
def combine (sm ent : FVec F S_ .f32) : FVec F S_ .f32 :=
  addf (mulf (constant S_ .f32 0x3F4CCCCD#32) sm) (mulf (constant S_ .f32 0x3E4CCCCD#32) ent)

/-- The entropy term: minus the mean of the rows' `Σ_c p log (p + ε)`. -/
def entTerm (x : SX.Idx → EReal) : FVec Ideal S_ .f32 :=
  fun _ => -(Ideal.div (entTotal x) (Ideal.ofBits .f32 0x4A742400#32))

/-- What both programs return. -/
def result (hf : TailFacts) (x : SX.Idx → EReal) (s : SSeg.Idx → BitVec 32) : FVec Ideal S_ .f32 :=
  combine (F := Ideal) (smooth (F := Ideal) hf (cntArr x s) (s1Arr x s) (s2Arr x s)) (entTerm x)

end Cert.Spec

end
-- ==== Proof.RowSpec.lean ====
/-
  The per-row quantities of the specification, stated over ONE row of logits `v : Fin 6 → EReal` and one segment id
  `w`, so that they can be read both at a row of the whole array and at a row of a block of it: the softmax of the first
  five entries, the eleven statistics, the entropy term, and the two one-hot factors of the id (its arithmetic shift
  right by 8 against a lane number below 16, its low eight bits against a lane number below 256).
-/
import proofs.«405333_j27135603376138_3_alg».proof.Proof.Spec

noncomputable section

open scoped BigOperators

namespace Cert.Spec

open Idealize.ShloMosaic Idealize.ShloMosaic.ValueIdx

def rowMaxV (v : Fin 6 → EReal) : EReal := (Finset.univ : Finset (Fin 5)).fold max ⊥ (fun c => v (col c))
def exV (v : Fin 6 → EReal) (c : Fin 5) : EReal := Ideal.exp (v (col c) - rowMaxV v)
def denV (v : Fin 6 → EReal) : EReal := ∑ c : Fin 5, exV v c
def probV (v : Fin 6 → EReal) (c : Fin 5) : EReal := Ideal.div (exV v c) (denV v)
def featV (v : Fin 6 → EReal) (j : Fin 11) : EReal :=
  if h : j.val < 5 then probV v ⟨j.val, h⟩
  else if h' : j.val = 5 then 1
  else probV v ⟨j.val - 6, by omega⟩ * probV v ⟨j.val - 6, by omega⟩
def entV (v : Fin 6 → EReal) : EReal := ∑ c : Fin 5, probV v c * Ideal.log (probV v c + eps)

/-- Row `r` of the logits. -/
abbrev rowOfX (x : SX.Idx → EReal) (r : Fin 4000000) : Fin 6 → EReal := fun a => x (ix2 r a)

theorem prob_eq (x : SX.Idx → EReal) (r : Fin 4000000) (c : Fin 5) : prob x r c = probV (rowOfX x r) c := rfl
theorem feat_eq (x : SX.Idx → EReal) (r : Fin 4000000) (j : Fin 11) : feat x r j = featV (rowOfX x r) j := rfl
theorem entRow_eq (x : SX.Idx → EReal) (r : Fin 4000000) : entRow x r = entV (rowOfX x r) := rfl

/-- The one-hot factor of the id's high part against lane `h`. -/
def hiM (w : BitVec 32) (h : Fin 16) : EReal := if IntOp.shrsi .vector w 8#32 = BitVec.ofNat 32 h.val then 1 else 0
/-- The one-hot factor of the id's low eight bits against lane `l`. -/
def loM (w : BitVec 32) (l : Fin 256) : EReal := if IntOp.andi w 255#32 = BitVec.ofNat 32 l.val then 1 else 0

end Cert.Spec

end
-- ==== Proof.SegMath.lean ====
/-
  Pure mathematics used when the kernel's one-hot accumulation is read as the per-segment sums of the specification:
  the rows enumerated by (core, grid step, row in step); a 32-bit word's arithmetic shift by 8 and its low byte determine it
  when the shifted part is below 16; a product with two 0 / 1 masks summed over the rows is the sum over the rows where both
  masks hold; the softmax of finite logits is finite and positive; and the negated mean of finitely many real terms.
-/
import Mathlib.Data.EReal.Basic
import Mathlib.Data.EReal.Operations
import Mathlib.Data.EReal.Inv
import Mathlib.Data.Finset.Fold
import Mathlib.Algebra.BigOperators.Fin
import Mathlib.Algebra.BigOperators.Group.Finset.Basic
import Mathlib.Analysis.SpecialFunctions.Log.Basic
import Idealize.ShloMosaic.PureOps.Ideal.Laws
import Idealize.ShloMosaic.Lib.ValueIdx
import proofs.«405333_j27135603376138_3_alg».proof.Proof.Spec

noncomputable section

open scoped BigOperators

namespace Cert.SegMath

open Idealize.ShloMosaic Idealize.ShloMosaic.ValueIdx Cert.Spec

/-! ### The rows, enumerated by core, grid step and row within the step -/

/-- Row `q` of grid step `i` of core `k`: each core takes 625 consecutive steps of 3200 consecutive rows. -/
def rowOf (k : Fin 2) (i : Fin 625) (q : Fin 3200) : Fin 4000000 := ⟨(k.val * 625 + i.val) * 3200 + q.val, by omega⟩

/-- (core, step, row in step) ↦ row is a bijection onto the 4,000,000 rows. -/
def rowEquiv : (Fin 2 × Fin 625) × Fin 3200 ≃ Fin 4000000 where
  toFun p := rowOf p.1.1 p.1.2 p.2
  invFun r := ((⟨r.val / 3200 / 625, by omega⟩, ⟨r.val / 3200 % 625, by omega⟩), ⟨r.val % 3200, by omega⟩)
  left_inv := by
    rintro ⟨⟨k, i⟩, q⟩
    simp only [rowOf, Prod.mk.injEq, Fin.ext_iff]
    omega
  right_inv := by
    intro r
    simp only [rowOf, Fin.ext_iff]
    omega

/-- The two cores' sums over their steps and rows add up to the sum over all rows. -/
theorem sum_rows (f : Fin 4000000 → EReal) :
    (∑ i : Fin 625, ∑ q : Fin 3200, f (rowOf 0 i q)) + (∑ i : Fin 625, ∑ q : Fin 3200, f (rowOf 1 i q)) = ∑ r : Fin 4000000, f r := by
  rw [← Fintype.sum_equiv rowEquiv (fun p => f (rowOf p.1.1 p.1.2 p.2)) f (fun _ => rfl)]
  rw [Fintype.sum_prod_type, Fintype.sum_prod_type, Fin.sum_univ_two]

/-! ### A 32-bit word from its arithmetic shift by 8 and its low byte -/

/-- For a word `w` read signed, `⌊w / 256⌋ = h` and `w mod 256 = l` with `h < 16`, `l < 256` say exactly `w = 256 h + l`. -/
theorem hi_lo_lane (w : BitVec 32) (h : Fin 16) (l : Fin 256) :
    (IntOp.shrsi .vector w 8#32 = BitVec.ofNat 32 h.val ∧ IntOp.andi w 255#32 = BitVec.ofNat 32 l.val)
      ↔ w.toInt = ((h.val * 256 + l.val : Nat) : Int) := by
  have hs : IntOp.shrsi .vector w 8#32 = w.sshiftRight 8 := by
    simp [IntOp.shrsi, BitVec.sshiftRight']
  have h255 : (255#32 : BitVec 32).toNat = 2 ^ 8 - 1 := by decide
  rw [hs, IntOp.andi, ← BitVec.toInt_inj, ← BitVec.toNat_inj (x := w &&& 255#32)]
  rw [BitVec.toInt_sshiftRight, BitVec.toNat_and, h255, Nat.and_two_pow_sub_one_eq_mod, BitVec.toInt_ofNat',
    BitVec.toNat_ofNat, Int.shiftRight_eq_div_pow, BitVec.toInt_eq_toNat_cond, Int.bmod_def]
  have hw := w.isLt
  have hh := h.isLt
  have hl := l.isLt
  omega

/-- The same for a segment `g < 4096` split as `g / 256` and `g mod 256`. -/
theorem hi_lo_iff (w : BitVec 32) (g : Fin 4096) :
    (IntOp.shrsi .vector w 8#32 = BitVec.ofNat 32 (g.val / 256) ∧ IntOp.andi w 255#32 = BitVec.ofNat 32 (g.val % 256))
      ↔ w.toInt = (g.val : Int) := by
  have hg := g.isLt
  have key := hi_lo_lane w ⟨g.val / 256, by omega⟩ ⟨g.val % 256, by omega⟩
  have e : g.val / 256 * 256 + g.val % 256 = g.val := by omega
  simp only [e] at key
  exact key

/-- An equality comparison's bit, widened to 32 bits and converted to a float, is the mask `1` / `0`. -/
theorem mask_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · simp [IntOp.cmpi, h]
  · have hb : (a == b) = false := beq_eq_false_iff_ne.mpr h
    simp [IntOp.cmpi, h, hb]

/-! ### Two 0 / 1 masks under a sum -/

/-- A term multiplied by two 0 / 1 masks and summed is the term summed where both masks hold (`0 * ⊤ = 0` on the extended reals). -/
theorem masked_sum {ι : Type} [Fintype ι] [DecidableEq ι] (f : ι → EReal) (p q : ι → Prop) [DecidablePred p] [DecidablePred q] :
    ∑ r : ι, (f r * (if p r then (1 : EReal) else 0)) * (if q r then (1 : EReal) else 0)
      = ∑ r ∈ Finset.univ.filter (fun r => p r ∧ q r), f r := by
  rw [Finset.sum_filter]
  refine Finset.sum_congr rfl fun r _ => ?_
  by_cases hp : p r <;> by_cases hq : q r <;> simp [hp, hq]

/-! ### Sums of real terms on the extended reals -/

/-- A finite sum of reals, formed on the extended reals, is the real sum. -/
theorem sum_coe {ι : Type} (s : Finset ι) (a : ι → ℝ) : ∑ i ∈ s, (a i : EReal) = ((∑ i ∈ s, a i : ℝ) : EReal) := by
  classical
  induction s using Finset.induction_on with
  | empty => simp
  | insert i s hi ih => rw [Finset.sum_insert hi, Finset.sum_insert hi, ih, EReal.coe_add]

/-- Negating each of finitely many real terms negates their sum. -/
theorem neg_sum_real {ι : Type} [Fintype ι] (a : ι → EReal) (h : ∀ i, ∃ v : ℝ, a i = (v : EReal)) :
    ∑ i, (0 - a i) = -(∑ i, a i) := by
  choose v hv using h
  have ha : a = fun i => (v i : EReal) := funext hv
  subst ha
  simp only [zero_sub, ← EReal.coe_neg]
  rw [sum_coe, sum_coe, Finset.sum_neg_distrib, EReal.coe_neg]

/-! ### The softmax of finite logits -/

/-- Every logit is a real number. -/
def Fin_x (x : SX.Idx → EReal) : Prop := ∀ i, ∃ v : ℝ, x i = (v : EReal)

/-- The small constant under the logarithm is a positive real. -/
theorem eps_real : ∃ e : ℝ, 0 < e ∧ eps = (e : EReal) := by
  have h : eps = (((2 ^ 23 + 2870391 : ℕ) : ℝ) * (2 : ℝ) ^ ((100 : Int) - 127 - 23) : ℝ) := by
    simp [eps, Ideal.ofBits, Ideal.ieee, -EReal.coe_mul]
  exact ⟨_, by positivity, h⟩

/-- The pattern `0x4A742400` is the real `4000000`. -/
theorem ofBits_4000000 : Ideal.ofBits .f32 0x4A742400#32 = ((4000000 : ℝ) : EReal) := by
  simp [Ideal.ofBits, Ideal.ieee, -EReal.coe_mul]
  norm_num

section Rows
variable (x : SX.Idx → EReal) (hx : Fin_x x)
include hx

/-- The largest of five reals is a real. -/
theorem rowMax_real (r : Fin 4000000) : ∃ m : ℝ, rowMax x r = (m : EReal) := by
  have htop : rowMax x r ≠ ⊤ := by
    apply ne_of_lt
    rw [rowMax, Finset.fold_max_lt]
    refine ⟨bot_lt_top, fun c _ => ?_⟩
    obtain ⟨v, hv⟩ := hx (ix2 r (col c))
    rw [hv]; exact EReal.coe_lt_top v
  have hbot : rowMax x r ≠ ⊥ := by
    apply ne_of_gt
    obtain ⟨v, hv⟩ := hx (ix2 r (col 0))
    have hle : x (ix2 r (col 0)) ≤ rowMax x r := by
      rw [rowMax, Finset.le_fold_max]
      exact Or.inr ⟨0, Finset.mem_univ _, le_rfl⟩
    exact lt_of_lt_of_le (by rw [hv]; exact EReal.bot_lt_coe v) hle
  exact ⟨(rowMax x r).toReal, (EReal.coe_toReal htop hbot).symm⟩

/-- `e^(logit − max)` is a positive real. -/
theorem ex_real (r : Fin 4000000) (c : Fin 5) : ∃ e : ℝ, 0 < e ∧ ex x r c = (e : EReal) := by
  obtain ⟨m, hm⟩ := rowMax_real x hx r
  obtain ⟨v, hv⟩ := hx (ix2 r (col c))
  refine ⟨Real.exp (v - m), Real.exp_pos _, ?_⟩
  rw [ex, hv, hm, ← EReal.coe_sub]
  rfl

/-- The softmax's denominator is a positive real. -/
theorem den_real (r : Fin 4000000) : ∃ D : ℝ, 0 < D ∧ den x r = (D : EReal) := by
  choose e he0 he using fun c => ex_real x hx r c
  refine ⟨∑ c, e c, Finset.sum_pos (fun c _ => he0 c) Finset.univ_nonempty, ?_⟩
  rw [den, ← sum_coe]
  exact Finset.sum_congr rfl fun c _ => he c

/-- Each class probability is a positive real. -/
theorem prob_real (r : Fin 4000000) (c : Fin 5) : ∃ p : ℝ, 0 < p ∧ prob x r c = (p : EReal) := by
  obtain ⟨e, he0, he⟩ := ex_real x hx r c
  obtain ⟨D, hD0, hD⟩ := den_real x hx r
  refine ⟨e * (1 / D), by positivity, ?_⟩
  rw [prob, he, hD, Ideal.div_coe hD0.ne', ← EReal.coe_mul]

/-- A row's entropy term is a real. -/
theorem entRow_real (r : Fin 4000000) : ∃ v : ℝ, entRow x r = (v : EReal) := by
  obtain ⟨ε, hε0, hε⟩ := eps_real
  choose p hp0 hp using fun c => prob_real x hx r c
  refine ⟨∑ c, p c * Real.log (p c + ε), ?_⟩
  rw [entRow, ← sum_coe]
  refine Finset.sum_congr rfl fun c _ => ?_
  rw [hp c, hε, ← EReal.coe_add, Ideal.log_coe, if_neg (not_le.mpr (add_pos (hp0 c) hε0)), ← EReal.coe_mul]

/-- The two cores' sums of the negated entropy terms, divided by the number of rows, is minus the mean entropy term. -/
theorem ent_bridge :
    Ideal.div ((∑ i : Fin 625, ∑ q : Fin 3200, (0 - entRow x (rowOf 0 i q)))
        + (∑ i : Fin 625, ∑ q : Fin 3200, (0 - entRow x (rowOf 1 i q)))) (Ideal.ofBits .f32 0x4A742400#32)
      = -(Ideal.div (entTotal x) (Ideal.ofBits .f32 0x4A742400#32)) := by
  rw [sum_rows (fun r => 0 - entRow x r), neg_sum_real _ (entRow_real x hx), ofBits_4000000]
  choose v hv using entRow_real x hx
  have hS : entTotal x = ((∑ r, v r : ℝ) : EReal) := by
    rw [entTotal, ← sum_coe]
    exact Finset.sum_congr rfl fun r _ => hv r
  show Ideal.div (-(entTotal x)) _ = _
  rw [hS, Ideal.div_coe (by norm_num), Ideal.div_coe (by norm_num), ← EReal.coe_neg, ← EReal.coe_mul, ← EReal.coe_mul,
    ← EReal.coe_neg, neg_mul]

end Rows

end Cert.SegMath

end
-- ==== Proof.KIBody.lean ====
/-
  What the body of the call leaves in its two accumulators at one grid point, read as values.

  The body computes, for the 3200 rows of its block, the softmax of the first five logits, writes the eleven statistics
  of each row (probabilities, one, squared probabilities) into a [3200,11] scratch, writes sixteen copies of those rows
  side by side into a [3200,176] scratch, copy h multiplied by the one-hot factor of the id's high part at lane h, and
  adds to the statistics accumulator the product of that scratch (contracted over the rows) with the one-hot factor of
  the id's low eight bits; to the entropy accumulator it adds the block's sum of the rows' negated entropy terms. At the
  first step of a core's row both accumulators are zeroed first.

  First, for any float values: the two scratch contents and the two steps as pure functions of the blocks, and each
  case's result as a step. Then, at the extended reals: the softmax block, the statistics rows, the high one-hot factor
  and the masked copies read at an index.
-/
import proofs.«405333_j27135603376138_3_alg».proof.Proof.KIFrame
import proofs.«405333_j27135603376138_3_alg».proof.Proof.RowSpec
import proofs.«405333_j27135603376138_3_alg».proof.Proof.SegMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Body

open Cert.KernelIdeal Cert.KernelIdeal.Gen Cert.KernelIdeal.Hand Cert.Spec
open Idealize.ShloMosaic Idealize.ShloMosaic.ValueIdx Idealize.ShloMosaic.Tactic
open Idealize.SL.Sem

variable {F : FTy → Type} [FloatOps F]

open scoped BigOperators

/-! ## Zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of the whole buffer after a list of stores reads the contents the stores leave. -/
theorem readCov_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (L : List (View.Piece Val S e)) :
    v.readCov L (Rect.unit off S.size inb).toLoadRect = View.canon L := by
  rw [View.readCov_eq_canon']
  exact View.ld_unit_zero h inb (View.canon L)

/-! ## The two scratch buffers and the two steps, as functions of the blocks -/

/-- The lane numbers 0..15 of the high one-hot factor. -/
abbrev iotaHi : IVec S1x16 32 := iota .tc S1x16 32 [1] iota_S1x16_d1_w32

/-- The three column stores into the statistics rows (last first): squares, the one, probabilities. -/
def featL (x0 : Vec F S3200x6 .f32) : List (View.Piece (Elt F) S3200x11 .bf16) :=
  [⟨Rect.unit ![0, 6] S3200x5.size inb_S3200x11_S3200x5_0_6, k0_pay7 x0⟩,
   ⟨Rect.unit ![0, 5] S3200x1.size inb_S3200x11_S3200x1_0_5, k0_pay6⟩,
   ⟨Rect.unit ![0, 0] S3200x5.size inb_S3200x11_S3200x5_0_0, k0_pay5 x0⟩]

/-- The statistics rows: what the [3200,11] scratch holds after its three column stores. -/
def featScr (x0 : Vec F S3200x6 .f32) : Vec F S3200x11 .bf16 := View.canon (featL x0)

/-- The sixteen column-block stores into the masked copies (last first). -/
def expL (x0 : Vec F S3200x6 .f32) (x1 : Vec F S3200x1 .i32) : List (View.Piece (Elt F) S3200x176 .bf16) :=
  [
    ⟨Rect.unit ![0, 165] S3200x11.size inb_S3200x176_S3200x11_0_165, k0_pay29 (featScr x0) (k0_pay11 (k0_pay9 x1) iotaHi)⟩,
    ⟨Rect.unit ![0, 154] S3200x11.size inb_S3200x176_S3200x11_0_154, k0_pay28 (featScr x0) (k0_pay11 (k0_pay9 x1) iotaHi)⟩,
    ⟨Rect.unit ![0, 143] S3200x11.size inb_S3200x176_S3200x11_0_143, k0_pay27 (featScr x0) (k0_pay11 (k0_pay9 x1) iotaHi)⟩,
    ⟨Rect.unit ![0, 132] S3200x11.size inb_S3200x176_S3200x11_0_132, k0_pay26 (featScr x0) (k0_pay11 (k0_pay9 x1) iotaHi)⟩,
    ⟨Rect.unit ![0, 121] S3200x11.size inb_S3200x176_S3200x11_0_121, k0_pay25 (featScr x0) (k0_pay11 (k0_pay9 x1) iotaHi)⟩,
    ⟨Rect.unit ![0, 110] S3200x11.size inb_S3200x176_S3200x11_0_110, k0_pay24 (featScr x0) (k0_pay11 (k0_pay9 x1) iotaHi)⟩,
    ⟨Rect.unit ![0, 99] S3200x11.size inb_S3200x176_S3200x11_0_99, k0_pay23 (featScr x0) (k0_pay11 (k0_pay9 x1) iotaHi)⟩,
    ⟨Rect.unit ![0, 88] S3200x11.size inb_S3200x176_S3200x11_0_88, k0_pay22 (featScr x0) (k0_pay11 (k0_pay9 x1) iotaHi)⟩,
    ⟨Rect.unit ![0, 77] S3200x11.size inb_S3200x176_S3200x11_0_77, k0_pay21 (featScr x0) (k0_pay11 (k0_pay9 x1) iotaHi)⟩,
    ⟨Rect.unit ![0, 66] S3200x11.size inb_S3200x176_S3200x11_0_66, k0_pay20 (featScr x0) (k0_pay11 (k0_pay9 x1) iotaHi)⟩,
    ⟨Rect.unit ![0, 55] S3200x11.size inb_S3200x176_S3200x11_0_55, k0_pay19 (featScr x0) (k0_pay18 (k0_pay9 x1) iotaHi)⟩,
    ⟨Rect.unit ![0, 44] S3200x11.size inb_S3200x176_S3200x11_0_44, k0_pay17 (featScr x0) (k0_pay9 x1) iotaHi⟩,
    ⟨Rect.unit ![0, 33] S3200x11.size inb_S3200x176_S3200x11_0_33, k0_pay16 (featScr x0) (k0_pay9 x1) iotaHi⟩,
    ⟨Rect.unit ![0, 22] S3200x11.size inb_S3200x176_S3200x11_0_22, k0_pay15 (featScr x0) (k0_pay9 x1) iotaHi⟩,
    ⟨Rect.unit ![0, 11] S3200x11.size inb_S3200x176_S3200x11_0_11, k0_pay14 (featScr x0) (k0_pay9 x1) iotaHi⟩,
    ⟨Rect.unit ![0, 0] S3200x11.size inb_S3200x176_S3200x11_0_0, k0_pay13 (featScr x0) (k0_pay9 x1) iotaHi⟩]

/-- The sixteen masked copies side by side: what the [3200,176] scratch holds after its sixteen stores. -/
def expScr (x0 : Vec F S3200x6 .f32) (x1 : Vec F S3200x1 .i32) : Vec F S3200x176 .bf16 := View.canon (expL x0 x1)

/-- One step of the statistics accumulator: the running contents plus the product of the masked copies
    (contracted over the rows) with the low one-hot factor. -/
def accStep (x0 : Vec F S3200x6 .f32) (x1 : Vec F S3200x1 .i32) (xo2 : Vec F S1x176x256 .f32) : Vec F S1x176x256 .f32 :=
  k0_pay30 (k0_pay12 (k0_pay10 x1)) (expScr x0 x1) xo2

/-- One step of the entropy accumulator: the running contents plus the block's sum of the rows' negated terms. -/
def entStep (x0 : Vec F S3200x6 .f32) (xo3 : Vec F S1x1x1 .f32) : Vec F S1x1x1 .f32 :=
  k0_pay1 (k0_pay31 (k0_pay4 x0)) xo3

/-! ## What each case leaves -/

set_option maxHeartbeats 4000000 in
/-- An adding step leaves, in the statistics accumulator, its step over the running contents. -/
theorem out_B_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) :
    out0_B_2 c i arg2 harg2 arg3 harg3 arg4 harg4 arg5 harg5 arg6 harg6 arg7 harg7 hc0 x0 x1 xo2 xo3 = accStep x0 x1 xo2 := by
  unfold out0_B_2
  rw [View.read_writes_eq_canon _ _ _ (cover0_B_2 c i arg2 harg2 arg3 harg3 arg4 harg4 arg5 harg5 arg6 harg6 arg7 harg7 hc0 x0 x1 xo2 xo3)]
  unfold kernelRun0_B
  dsimp only
  sl_unfold_words
  rw [View.canon_unit_zero hz3]
  simp only [View.readAt_eq_ld, harg2.read_unread, harg3.read_unread, harg4.read_unread,
    View.ld_unit_zero (S := S3200x6) hz2, View.ld_unit_zero (S := S3200x1) hz2, View.ld_unit_zero (S := S1x176x256) hz3,
    readCov_whole (S := S3200x11) _ hz2, readCov_whole (S := S3200x176) _ hz2]
  rfl

set_option maxHeartbeats 4000000 in
/-- An adding step leaves, in the entropy accumulator, its step over the running contents. -/
theorem out_B_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : ¬cond0_0 i)
    (x0 : Vec F S3200x6 .f32) (x1 : Vec F S3200x1 .i32) (xo2 : Vec F S1x176x256 .f32) (xo3 : Vec F S1x1x1 .f32) :
    out0_B_3 c i arg2 harg2 arg3 harg3 arg4 harg4 arg5 harg5 arg6 harg6 arg7 harg7 hc0 x0 x1 xo2 xo3 = entStep x0 xo3 := by
  unfold out0_B_3
  rw [View.read_writes_eq_canon _ _ _ (cover0_B_3 c i arg2 harg2 arg3 harg3 arg4 harg4 arg5 harg5 arg6 harg6 arg7 harg7 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S3200x6) hz2, View.ld_unit_zero (S := S3200x1) hz2, View.ld_unit_zero (S := S1x176x256) hz3,
    View.ld_unit_zero (S := S1x1x1) hz3,
    readCov_whole (S := S3200x11) _ hz2, readCov_whole (S := S3200x176) _ hz2]
  rfl

set_option maxHeartbeats 4000000 in
/-- A reset step leaves, in the statistics accumulator, its step over the zero block. -/
theorem out_A_2 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) :
    out0_A_2 c i arg2 harg2 arg3 harg3 arg4 harg4 arg5 harg5 arg6 harg6 arg7 harg7 hc0 x0 x1 = accStep x0 x1 (k0_pay2 (F := F)) := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x176x256) hz3]
  simp only [View.readAt_eq_ld, harg2.read_unread, harg3.read_unread,
    View.ld_unit_zero (S := S3200x6) hz2, View.ld_unit_zero (S := S3200x1) hz2,
    View.readCov_unit_zero (S := S1x176x256) _ hz3, View.readCov_unit_zero (S := S1x1x1) _ hz3,
    readCov_whole (S := S3200x11) _ hz2, readCov_whole (S := S3200x176) _ hz2]
  rfl

set_option maxHeartbeats 4000000 in
/-- A reset step leaves, in the entropy accumulator, its step over the zero block. -/
theorem out_A_3 (c : Dev nD) (i : grid0.Coords) (arg2 : Memref sig .tc .vmem S3200x6 .f32) (harg2 : arg2.IsWhole) (arg3 : Memref sig .tc .vmem S3200x1 .i32) (harg3 : arg3.IsWhole) (arg4 : Memref sig .tc .vmem S1x176x256 .f32) (harg4 : arg4.IsWhole) (arg5 : Memref sig .tc .vmem S1x1x1 .f32) (harg5 : arg5.IsWhole) (arg6 : Memref sig .tc .vmem S3200x11 .bf16) (harg6 : arg6.IsWhole) (arg7 : Memref sig .tc .vmem S3200x176 .bf16) (harg7 : arg7.IsWhole) (hc0 : cond0_0 i)
    (x0 : Vec F S3200x6 .f32) (x1 : Vec F S3200x1 .i32) :
    out0_A_3 c i arg2 harg2 arg3 harg3 arg4 harg4 arg5 harg5 arg6 harg6 arg7 harg7 hc0 x0 x1 = entStep x0 (k0_pay3 (F := F)) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x1x1) hz3]
  simp only [View.readAt_eq_ld, harg2.read_unread, harg3.read_unread,
    View.ld_unit_zero (S := S3200x6) hz2, View.ld_unit_zero (S := S3200x1) hz2,
    View.readCov_unit_zero (S := S1x176x256) _ hz3, View.readCov_unit_zero (S := S1x1x1) _ hz3,
    readCov_whole (S := S3200x11) _ hz2, readCov_whole (S := S3200x176) _ hz2]
  rfl

/-! ## Two layout forms: a vector as a column, and a column broadcast along rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The softmax block at an index -/

section Softmax

theorem negInf_f32 : Ideal.ofBits .f32 0xFF800000#32 = ⊥ := by simp [Ideal.ofBits, Ideal.ieee]

theorem vexp_apply {s : Shape} {φ : FTy} (a : FVec Ideal s φ) (i : s.Idx) : exp a i = Ideal.exp (a i) := rfl
theorem vlog_apply {s : Shape} {φ : FTy} (a : FVec Ideal s φ) (i : s.Idx) : log a i = Ideal.log (a i) := rfl

theorem fmt_f32 : FKind.Formats .f32 := .inl rfl
theorem maxNeutral_f32 : (0xFF800000#32 : BitVec FTy.f32.bits) = FKind.maximumf.neutral .f32 fmt_f32 := rfl
theorem addNeutral_f32 : (0x00000000#32 : BitVec FTy.f32.bits) = FKind.add.neutral .f32 fmt_f32 := rfl

/-- The first five columns of a six-column block. -/
def sl5 (x0 : Vec F S3200x6 .f32) : FVec F S3200x5 .f32 :=
  extractStridedSlice S3200x5 ![0, 0] x0 slices_S3200x6_o0_0_S3200x5
/-- The lane maximum of a [3200,5] array, kept as a column. -/
def laneMaxCol (E : FVec F S3200x5 .f32) : FVec F S3200x1 .f32 :=
  shapeCast S3200x1 (multiReduction .maximumf [1] S3200 E 0xFF800000#32 reduces_S3200x5_S3200 fmt_f32 maxNeutral_f32)
    shapeCasts_S3200_S3200x1
/-- The lane sum of a [3200,5] array, kept as a column. -/
def laneSumCol (E : FVec F S3200x5 .f32) : FVec F S3200x1 .f32 :=
  shapeCast S3200x1 (multiReduction .add [1] S3200 E 0x00000000#32 reduces_S3200x5_S3200 fmt_f32 addNeutral_f32)
    shapeCasts_S3200_S3200x1
/-- The exponentials of the first five logits less their maximum. -/
def expBlk (x0 : Vec F S3200x6 .f32) : FVec F S3200x5 .f32 :=
  exp (subf (sl5 x0) (broadcastTo S3200x5 (laneMaxCol (sl5 x0)) broadcasts_S3200x1_S3200x5))

/-- The softmax block is the exponentials over their lane sums. -/
theorem pay4_eq (x0 : Vec F S3200x6 .f32) :
    k0_pay4 x0 = divf (expBlk x0) (broadcastTo S3200x5 (laneSumCol (expBlk x0)) broadcasts_S3200x1_S3200x5) := rfl

/-- The index over row `q` of a [3200,5] array with lane `k` inserted is `(q, k)`. -/
theorem lift_row5 (h : S3200x5.Reduces [1] S3200) (q : Fin 3200) (k : Fin 5) : h.lift (ix1 q) k = ix2 q k := by
  funext a
  match a with
  | ⟨0, _⟩ => rfl
  | ⟨1, _⟩ => rfl

theorem sl5_apply (x0 : Vec Ideal S3200x6 .f32) (q : Fin 3200) (c : Fin 5) :
    sl5 (F := Ideal) x0 (ix2 q c) = x0 (ix2 q (col c)) :=
  extractStridedSlice_apply _ _ _ _ _ (fun ax => by
    match ax with
    | ⟨0, _⟩ => exact (Nat.zero_add _).symm
    | ⟨1, _⟩ => exact (Nat.zero_add _).symm)

/-- At row `q` the lane sum is the sum of the row's five entries. -/
theorem laneSumCol_apply (E : FVec Ideal S3200x5 .f32) (q : Fin 3200) (u : Fin 1) :
    laneSumCol (F := Ideal) E (ix2 q u) = ∑ k : Fin 5, E (ix2 q k) := by
  unfold laneSumCol
  rw [shapeCast_a_a1_apply, Ideal.multiReduction_add_single]
  refine Finset.sum_congr rfl fun (k : Fin 5) _ => ?_
  rw [lift_row5]

/-- At row `q` the lane maximum is the largest of the row's five entries. -/
theorem laneMaxCol_apply (E : FVec Ideal S3200x5 .f32) (q : Fin 3200) (u : Fin 1) :
    laneMaxCol (F := Ideal) E (ix2 q u) = (Finset.univ : Finset (Fin 5)).fold max ⊥ (fun k => E (ix2 q k)) := by
  unfold laneMaxCol
  rw [shapeCast_a_a1_apply, Ideal.multiReduction_maximumf_single, Ideal.ofBits_def, negInf_f32]
  have hf : (E ∘ reduces_S3200x5_S3200.lift (ix1 q)) = fun k : Fin 5 => E (ix2 q k) := funext fun (k : Fin 5) => by
    show E (reduces_S3200x5_S3200.lift (ix1 q) k) = _
    rw [lift_row5]
  exact congrArg (fun f : Fin 5 → EReal => Finset.fold max ⊥ f Finset.univ) hf

theorem expBlk_apply (x0 : Vec Ideal S3200x6 .f32) (q : Fin 3200) (c : Fin 5) :
    expBlk (F := Ideal) x0 (ix2 q c) = exV (fun a => x0 (ix2 q a)) c := by
  unfold expBlk exV rowMaxV
  rw [vexp_apply, subf_apply, sl5_apply, broadcastTo_a1_ab_apply, laneMaxCol_apply]
  simp only [sl5_apply]

/-- The softmax of a row's first five logits. -/
theorem pay4_apply (x0 : Vec Ideal S3200x6 .f32) (q : Fin 3200) (c : Fin 5) :
    k0_pay4 (F := Ideal) x0 (ix2 q c) = probV (fun a => x0 (ix2 q a)) c := by
  rw [pay4_eq, divf_apply, broadcastTo_a1_ab_apply, laneSumCol_apply, expBlk_apply]
  unfold probV denV
  simp only [expBlk_apply]

end Softmax

/-! ## Stores into column blocks of a rank-2 buffer, read at an index -/

section ColPieces
variable {Val : EltTy → Type} [∀ e, Nonempty (Val e)] {e : EltTy} {n0 n1 m : ℕ}

/-- The block of `m` columns from column `o` places its `(q, c)` at `(q, o + c)`. -/
theorem emb_col (o : ℕ) (inb : ∀ a, (![0, o] : Fin 2 → ℕ) a + (![n0, m] : Fin 2 → ℕ) a ≤ (⟨2, ![n0, n1]⟩ : Shape).size a)
    (q : Fin n0) (c : Fin m) (j : Fin n1) (hj : j.val = o + c.val) :
    (Rect.unit (s := ⟨2, ![n0, n1]⟩) ![0, o] ![n0, m] inb).emb (ix2 q c) = ix2 q j := by
  funext a
  apply Fin.ext
  rw [Rect.emb_apply]
  match a with
  | ⟨0, _⟩ => show 0 + 1 * q.val = q.val; omega
  | ⟨1, _⟩ => show o + 1 * c.val = j.val; omega

/-- Under the last store, a block of columns from `o`: the canon at `(q, o + c)` is the payload at `(q, c)`. -/
theorem canon_cons_col_hit (o : ℕ) (inb : ∀ a, (![0, o] : Fin 2 → ℕ) a + (![n0, m] : Fin 2 → ℕ) a ≤ (⟨2, ![n0, n1]⟩ : Shape).size a)
    (w : (⟨2, ![n0, m]⟩ : Shape).Idx → Val e) (L : List (View.Piece Val ⟨2, ![n0, n1]⟩ e))
    (q : Fin n0) (c : Fin m) (j : Fin n1) (hj : j.val = o + c.val) :
    View.canon ((⟨Rect.unit (s := ⟨2, ![n0, n1]⟩) ![0, o] ![n0, m] inb, w⟩ : View.Piece Val ⟨2, ![n0, n1]⟩ e) :: L) (ix2 q j)
      = w (ix2 q c) := by
  rw [← emb_col o inb q c j hj]
  exact View.canon_cons_emb (Rect.unit (s := ⟨2, ![n0, n1]⟩) ![0, o] ![n0, m] inb) w L (ix2 q c)

/-- Off it, the canon of the earlier stores. -/
theorem canon_cons_col_miss (o : ℕ) (inb : ∀ a, (![0, o] : Fin 2 → ℕ) a + (![n0, m] : Fin 2 → ℕ) a ≤ (⟨2, ![n0, n1]⟩ : Shape).size a)
    (w : (⟨2, ![n0, m]⟩ : Shape).Idx → Val e) (L : List (View.Piece Val ⟨2, ![n0, n1]⟩ e))
    (q : Fin n0) (j : Fin n1) (hj : j.val < o ∨ o + m ≤ j.val) :
    View.canon ((⟨Rect.unit (s := ⟨2, ![n0, n1]⟩) ![0, o] ![n0, m] inb, w⟩ : View.Piece Val ⟨2, ![n0, n1]⟩ e) :: L) (ix2 q j)
      = View.canon L (ix2 q j) := by
  refine View.canon_cons_of_not_mem _ L (fun hmem => ?_)
  have h1 : o ≤ j.val ∧ j.val < o + m :=
    (Rect.mem_set_unit (s := ⟨2, ![n0, n1]⟩) (off := ![0, o]) (size := ![n0, m]) (inb := inb) (i := ix2 q j)).mp hmem 1
  omega

end ColPieces

/-! ## The statistics rows at an index -/

section Feat

theorem one_bf16 : Ideal.ofBits .bf16 0x3F80#16 = 1 := by
  simp [Ideal.ofBits, Ideal.ieee, -EReal.coe_mul]
  norm_num

theorem pay5_apply (x0 : Vec Ideal S3200x6 .f32) (q : Fin 3200) (c : Fin 5) :
    k0_pay5 (F := Ideal) x0 (ix2 q c) = probV (fun a => x0 (ix2 q a)) c := by
  unfold k0_pay5
  rw [shapeCast_self, truncf_apply, pay4_apply]

theorem pay6_apply (q : Fin 3200) (u : Fin 1) : k0_pay6 (F := Ideal) (ix2 q u) = 1 := by
  unfold k0_pay6
  rw [shapeCast_self, broadcast_apply]
  exact one_bf16

theorem pay7_apply (x0 : Vec Ideal S3200x6 .f32) (q : Fin 3200) (c : Fin 5) :
    k0_pay7 (F := Ideal) x0 (ix2 q c) = probV (fun a => x0 (ix2 q a)) c * probV (fun a => x0 (ix2 q a)) c := by
  unfold k0_pay7
  rw [shapeCast_self, truncf_apply, mulf_apply, pay4_apply]

/-- Row `q`, column `j` of the statistics scratch is statistic `j` of row `q`. -/
theorem featScr_apply (x0 : Vec Ideal S3200x6 .f32) (q : Fin 3200) (j : Fin 11) :
    featScr (F := Ideal) x0 (ix2 q j) = featV (fun a => x0 (ix2 q a)) j := by
  unfold featScr featL featV
  by_cases h5 : j.val < 5
  · rw [dif_pos h5, canon_cons_col_miss 6 _ _ _ q j (Or.inl (by omega)), canon_cons_col_miss 5 _ _ _ q j (Or.inl h5),
      canon_cons_col_hit 0 _ _ _ q ⟨j.val, h5⟩ j (by simp), pay5_apply]
  · rw [dif_neg h5]
    by_cases h5' : j.val = 5
    · rw [dif_pos h5', canon_cons_col_miss 6 _ _ _ q j (Or.inl (by omega)),
        canon_cons_col_hit 5 _ _ _ q (0 : Fin 1) j (by simp [h5']), pay6_apply]
    · rw [dif_neg h5', canon_cons_col_hit 6 _ _ _ q ⟨j.val - 6, by have := j.isLt; omega⟩ j (by show j.val = 6 + (j.val - 6); omega),
        pay7_apply]

end Feat

/-! ## The high one-hot factor at an index -/

section Masks

theorem cmpi_apply {s : Shape} {w : ℕ} (p : CmpIPredicate) (a b : IVec s w) (i : s.Idx) : cmpi p a b i = IntOp.cmpi p (a i) (b i) := rfl
theorem shrsi_apply {s : Shape} {w : ℕ} (a b : IVec s w) (i : s.Idx) : shrsi a b i = IntOp.shrsi .vector (a i) (b i) := rfl

/-- Lane `h` of the lane numbers is `h`. -/
theorem iotaHi_apply (u : Fin 1) (h : Fin 16) : iotaHi (ix2 u h) = BitVec.ofNat 32 h.val :=
  iota_single_apply .tc S1x16 32 1 iota_S1x16_d1_w32 (ix2 u h)

/-- The high one-hot factor: lane `h` of row `q` is 1 when the id shifted right by 8 is `h`, else 0. -/
theorem hi_apply (x1 : Vec Ideal S3200x1 .i32) (q : Fin 3200) (h : Fin 16) :
    k0_pay11 (F := Ideal) (k0_pay9 (F := Ideal) x1) iotaHi (ix2 q h) = hiM (x1 (ix2 q (0 : Fin 1))) h := by
  unfold k0_pay11 k0_pay9 k0_pay8 hiM
  rw [truncf_apply, sitofp_apply, extui_apply, cmpi_apply, Cert.SegMath.mask_val, broadcastTo_a1_ab_apply,
    broadcastTo_1b_ab_apply, iotaHi_apply, shrsi_apply, shapeCast_self, broadcast_apply]

end Masks

/-! ## The sixteen masked copies at an index -/

section Copies

/-- Copy `h` of the statistics rows: each row times the high one-hot factor at lane `h`. -/
def maskedCopy (FS : Vec F S3200x11 .bf16) (HI : FVec F S3200x16 .bf16) (h : ℕ) (hs : S3200x16.Slices ![0, h] S3200x1) :
    FVec F S3200x11 .bf16 :=
  shapeCast S3200x11 (mulf FS (broadcastTo S3200x11 (extractStridedSlice S3200x1 ![0, h] HI hs) broadcasts_S3200x1_S3200x11))
    shapeCasts_S3200x11_S3200x11

theorem copy0_eq (FS : Vec F S3200x11 .bf16) (v31 : IVec S3200x1 32) (v34 : IVec S1x16 32) :
    k0_pay13 FS v31 v34 = maskedCopy FS (k0_pay11 (F := F) v31 v34) 0 slices_S3200x16_o0_0_S3200x1 := rfl
theorem copy1_eq (FS : Vec F S3200x11 .bf16) (v31 : IVec S3200x1 32) (v34 : IVec S1x16 32) :
    k0_pay14 FS v31 v34 = maskedCopy FS (k0_pay11 (F := F) v31 v34) 1 slices_S3200x16_o0_1_S3200x1 := rfl
theorem copy2_eq (FS : Vec F S3200x11 .bf16) (v31 : IVec S3200x1 32) (v34 : IVec S1x16 32) :
    k0_pay15 FS v31 v34 = maskedCopy FS (k0_pay11 (F := F) v31 v34) 2 slices_S3200x16_o0_2_S3200x1 := rfl
theorem copy3_eq (FS : Vec F S3200x11 .bf16) (v31 : IVec S3200x1 32) (v34 : IVec S1x16 32) :
    k0_pay16 FS v31 v34 = maskedCopy FS (k0_pay11 (F := F) v31 v34) 3 slices_S3200x16_o0_3_S3200x1 := rfl
theorem copy4_eq (FS : Vec F S3200x11 .bf16) (v31 : IVec S3200x1 32) (v34 : IVec S1x16 32) :
    k0_pay17 FS v31 v34 = maskedCopy FS (k0_pay11 (F := F) v31 v34) 4 slices_S3200x16_o0_4_S3200x1 := rfl
theorem copy5_eq (FS : Vec F S3200x11 .bf16) (v31 : IVec S3200x1 32) (v34 : IVec S1x16 32) :
    k0_pay19 FS (k0_pay18 (F := F) v31 v34) = maskedCopy FS (k0_pay11 (F := F) v31 v34) 5 slices_S3200x16_o0_5_S3200x1 := rfl
theorem copy6_eq (FS : Vec F S3200x11 .bf16) (v31 : IVec S3200x1 32) (v34 : IVec S1x16 32) :
    k0_pay20 FS (k0_pay11 (F := F) v31 v34) = maskedCopy FS (k0_pay11 (F := F) v31 v34) 6 slices_S3200x16_o0_6_S3200x1 := rfl
theorem copy7_eq (FS : Vec F S3200x11 .bf16) (v31 : IVec S3200x1 32) (v34 : IVec S1x16 32) :
    k0_pay21 FS (k0_pay11 (F := F) v31 v34) = maskedCopy FS (k0_pay11 (F := F) v31 v34) 7 slices_S3200x16_o0_7_S3200x1 := rfl
theorem copy8_eq (FS : Vec F S3200x11 .bf16) (v31 : IVec S3200x1 32) (v34 : IVec S1x16 32) :
    k0_pay22 FS (k0_pay11 (F := F) v31 v34) = maskedCopy FS (k0_pay11 (F := F) v31 v34) 8 slices_S3200x16_o0_8_S3200x1 := rfl
theorem copy9_eq (FS : Vec F S3200x11 .bf16) (v31 : IVec S3200x1 32) (v34 : IVec S1x16 32) :
    k0_pay23 FS (k0_pay11 (F := F) v31 v34) = maskedCopy FS (k0_pay11 (F := F) v31 v34) 9 slices_S3200x16_o0_9_S3200x1 := rfl
theorem copy10_eq (FS : Vec F S3200x11 .bf16) (v31 : IVec S3200x1 32) (v34 : IVec S1x16 32) :
    k0_pay24 FS (k0_pay11 (F := F) v31 v34) = maskedCopy FS (k0_pay11 (F := F) v31 v34) 10 slices_S3200x16_o0_10_S3200x1 := rfl
theorem copy11_eq (FS : Vec F S3200x11 .bf16) (v31 : IVec S3200x1 32) (v34 : IVec S1x16 32) :
    k0_pay25 FS (k0_pay11 (F := F) v31 v34) = maskedCopy FS (k0_pay11 (F := F) v31 v34) 11 slices_S3200x16_o0_11_S3200x1 := rfl
theorem copy12_eq (FS : Vec F S3200x11 .bf16) (v31 : IVec S3200x1 32) (v34 : IVec S1x16 32) :
    k0_pay26 FS (k0_pay11 (F := F) v31 v34) = maskedCopy FS (k0_pay11 (F := F) v31 v34) 12 slices_S3200x16_o0_12_S3200x1 := rfl
theorem copy13_eq (FS : Vec F S3200x11 .bf16) (v31 : IVec S3200x1 32) (v34 : IVec S1x16 32) :
    k0_pay27 FS (k0_pay11 (F := F) v31 v34) = maskedCopy FS (k0_pay11 (F := F) v31 v34) 13 slices_S3200x16_o0_13_S3200x1 := rfl
theorem copy14_eq (FS : Vec F S3200x11 .bf16) (v31 : IVec S3200x1 32) (v34 : IVec S1x16 32) :
    k0_pay28 FS (k0_pay11 (F := F) v31 v34) = maskedCopy FS (k0_pay11 (F := F) v31 v34) 14 slices_S3200x16_o0_14_S3200x1 := rfl
theorem copy15_eq (FS : Vec F S3200x11 .bf16) (v31 : IVec S3200x1 32) (v34 : IVec S1x16 32) :
    k0_pay29 FS (k0_pay11 (F := F) v31 v34) = maskedCopy FS (k0_pay11 (F := F) v31 v34) 15 slices_S3200x16_o0_15_S3200x1 := rfl

theorem maskedCopy_apply (FS : Vec Ideal S3200x11 .bf16) (HI : FVec Ideal S3200x16 .bf16) (h : Fin 16)
    (hs : S3200x16.Slices ![0, h.val] S3200x1) (q : Fin 3200) (c : Fin 11) :
    maskedCopy (F := Ideal) FS HI h.val hs (ix2 q c) = FS (ix2 q c) * HI (ix2 q h) := by
  unfold maskedCopy
  rw [shapeCast_self, mulf_apply, broadcastTo_a1_ab_apply, slice2_axis1_apply h.val HI hs q (0 : Fin 1) h (by simp)]

theorem copy_apply (x0 : Vec Ideal S3200x6 .f32) (x1 : Vec Ideal S3200x1 .i32) (h : Fin 16)
    (hs : S3200x16.Slices ![0, h.val] S3200x1) (q : Fin 3200) (c : Fin 11) :
    maskedCopy (F := Ideal) (featScr x0) (k0_pay11 (F := Ideal) (k0_pay9 (F := Ideal) x1) iotaHi) h.val hs (ix2 q c)
      = featScr (F := Ideal) x0 (ix2 q c) * hiM (x1 (ix2 q (0 : Fin 1))) h := by
  rw [maskedCopy_apply, hi_apply]

/-- What the [3200,176] scratch holds: at row `q`, column `e`, statistic `e mod 11` of the row times the high one-hot
    factor at lane `e / 11`. -/
def expG (x0 : Vec Ideal S3200x6 .f32) (x1 : Vec Ideal S3200x1 .i32) : S3200x176.Idx → Ideal .bf16 := fun y =>
  featScr (F := Ideal) x0 (ix2 (y 0) ⟨(y 1).val % 11, Nat.mod_lt _ (by norm_num)⟩)
    * hiM (x1 (ix2 (y 0) (0 : Fin 1))) ⟨(y 1).val / 11, by have := idx2_lt1 (n0 := 3200) (n1 := 176) y; omega⟩

/-- A store of copy `h` into the columns from `11 h` agrees with that function. -/
theorem expPiece_ok (x0 : Vec Ideal S3200x6 .f32) (x1 : Vec Ideal S3200x1 .i32) (h : Fin 16) (o : ℕ) (ho : o = h.val * 11)
    (inb : ∀ a, (![0, o] : Fin 2 → ℕ) a + S3200x11.size a ≤ S3200x176.size a) (w : S3200x11.Idx → Ideal .bf16)
    (hw : ∀ (q : Fin 3200) (c : Fin 11), w (ix2 q c) = featScr (F := Ideal) x0 (ix2 q c) * hiM (x1 (ix2 q (0 : Fin 1))) h)
    (x : (Rect.unit (s := S3200x176) ![0, o] S3200x11.size inb).shape.Idx) :
    w x = expG x0 x1 ((Rect.unit (s := S3200x176) ![0, o] S3200x11.size inb).emb x) := by
  obtain ⟨q, c, rfl⟩ : ∃ (q : Fin 3200) (c : Fin 11), x = ix2 q c := ⟨x 0, x 1, eq_ix2 x⟩
  have hc := c.isLt
  have hh := h.isLt
  rw [hw, emb_col o inb q c ⟨o + c.val, by omega⟩ rfl]
  unfold expG
  have e1 : (⟨(o + c.val) % 11, Nat.mod_lt _ (by norm_num)⟩ : Fin 11) = c := Fin.ext (by show (o + c.val) % 11 = c.val; omega)
  have e2 : (⟨(o + c.val) / 11, by omega⟩ : Fin 16) = h := Fin.ext (by show (o + c.val) / 11 = h.val; omega)
  show _ = featScr (F := Ideal) x0 (ix2 q ⟨(o + c.val) % 11, _⟩) * hiM (x1 (ix2 q (0 : Fin 1))) ⟨(o + c.val) / 11, _⟩
  rw [e1, e2]

set_option maxHeartbeats 1600000 in
/-- Row `q`, column `e` of the masked copies. -/
theorem expScr_apply' (x0 : Vec Ideal S3200x6 .f32) (x1 : Vec Ideal S3200x1 .i32) (y : S3200x176.Idx) :
    expScr (F := Ideal) x0 x1 y = expG x0 x1 y := by
  have hp : ∀ p ∈ expL (F := Ideal) x0 x1, ∀ x : p.1.shape.Idx, p.2 x = expG x0 x1 (p.1.emb x) := by
    intro p hp
    simp only [expL, List.mem_cons, List.mem_nil_iff, or_false] at hp
    rcases hp with rfl | rfl | rfl | rfl | rfl | rfl | rfl | rfl | rfl | rfl | rfl | rfl | rfl | rfl | rfl | rfl
    · refine expPiece_ok x0 x1 15 165 rfl inb_S3200x176_S3200x11_0_165 _ (fun q c => ?_)
      rw [copy15_eq]; exact copy_apply x0 x1 15 _ q c
    · refine expPiece_ok x0 x1 14 154 rfl inb_S3200x176_S3200x11_0_154 _ (fun q c => ?_)
      rw [copy14_eq]; exact copy_apply x0 x1 14 _ q c
    · refine expPiece_ok x0 x1 13 143 rfl inb_S3200x176_S3200x11_0_143 _ (fun q c => ?_)
      rw [copy13_eq]; exact copy_apply x0 x1 13 _ q c
    · refine expPiece_ok x0 x1 12 132 rfl inb_S3200x176_S3200x11_0_132 _ (fun q c => ?_)
      rw [copy12_eq]; exact copy_apply x0 x1 12 _ q c
    · refine expPiece_ok x0 x1 11 121 rfl inb_S3200x176_S3200x11_0_121 _ (fun q c => ?_)
      rw [copy11_eq]; exact copy_apply x0 x1 11 _ q c
    · refine expPiece_ok x0 x1 10 110 rfl inb_S3200x176_S3200x11_0_110 _ (fun q c => ?_)
      rw [copy10_eq]; exact copy_apply x0 x1 10 _ q c
    · refine expPiece_ok x0 x1 9 99 rfl inb_S3200x176_S3200x11_0_99 _ (fun q c => ?_)
      rw [copy9_eq]; exact copy_apply x0 x1 9 _ q c
    · refine expPiece_ok x0 x1 8 88 rfl inb_S3200x176_S3200x11_0_88 _ (fun q c => ?_)
      rw [copy8_eq]; exact copy_apply x0 x1 8 _ q c
    · refine expPiece_ok x0 x1 7 77 rfl inb_S3200x176_S3200x11_0_77 _ (fun q c => ?_)
      rw [copy7_eq]; exact copy_apply x0 x1 7 _ q c
    · refine expPiece_ok x0 x1 6 66 rfl inb_S3200x176_S3200x11_0_66 _ (fun q c => ?_)
      rw [copy6_eq]; exact copy_apply x0 x1 6 _ q c
    · refine expPiece_ok x0 x1 5 55 rfl inb_S3200x176_S3200x11_0_55 _ (fun q c => ?_)
      rw [copy5_eq]; exact copy_apply x0 x1 5 _ q c
    · refine expPiece_ok x0 x1 4 44 rfl inb_S3200x176_S3200x11_0_44 _ (fun q c => ?_)
      rw [copy4_eq]; exact copy_apply x0 x1 4 _ q c
    · refine expPiece_ok x0 x1 3 33 rfl inb_S3200x176_S3200x11_0_33 _ (fun q c => ?_)
      rw [copy3_eq]; exact copy_apply x0 x1 3 _ q c
    · refine expPiece_ok x0 x1 2 22 rfl inb_S3200x176_S3200x11_0_22 _ (fun q c => ?_)
      rw [copy2_eq]; exact copy_apply x0 x1 2 _ q c
    · refine expPiece_ok x0 x1 1 11 rfl inb_S3200x176_S3200x11_0_11 _ (fun q c => ?_)
      rw [copy1_eq]; exact copy_apply x0 x1 1 _ q c
    · refine expPiece_ok x0 x1 0 0 rfl inb_S3200x176_S3200x11_0_0 _ (fun q c => ?_)
      rw [copy0_eq]; exact copy_apply x0 x1 0 _ q c
  exact View.canon_apply_of_pieces (expG x0 x1) (expL x0 x1) hp y
    (View.cover_of_tiledL (expL (F := Ideal) x0 x1) S3200x11.size (by sl_kernel_rfl) y)

/-- The same over the row's statistics. -/
theorem expScr_apply (x0 : Vec Ideal S3200x6 .f32) (x1 : Vec Ideal S3200x1 .i32) (q : Fin 3200) (e : Fin 176) :
    expScr (F := Ideal) x0 x1 (ix2 q e)
      = featV (fun a => x0 (ix2 q a)) ⟨e.val % 11, Nat.mod_lt _ (by norm_num)⟩
          * hiM (x1 (ix2 q (0 : Fin 1))) ⟨e.val / 11, by have := e.isLt; omega⟩ := by
  rw [expScr_apply', ← featScr_apply]
  rfl

end Copies

end Cert.KernelIdeal.Body
end
-- ==== Proof.KIBodyEnt.lean ====
/-
  The entropy accumulator's payload read at its one entry: the running value plus the sum over the block's 3200 rows of
  minus the row's sum over the five classes; and the per-entry term `p · log (p + ε)`. The reset stores are zero.
-/
import proofs.«405333_j27135603376138_3_alg».proof.Proof.KIBody
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Body

open Cert.KernelIdeal Cert.KernelIdeal.Gen Cert.Spec
open Idealize.ShloMosaic Idealize.ShloMosaic.ValueIdx

/-- The reset value of the statistics accumulator is zero everywhere. -/
theorem pay2_apply (j : S1x176x256.Idx) : k0_pay2 (F := Ideal) j = 0 := by
  unfold k0_pay2
  show Ideal.ofBits .f32 0x00000000#32 = 0
  exact Ideal.ofBits_zero_f32

/-- The reset value of the entropy accumulator is zero. -/
theorem pay3_apply (j : S1x1x1.Idx) : k0_pay3 (F := Ideal) j = 0 := by
  unfold k0_pay3
  show Ideal.ofBits .f32 0x00000000#32 = 0
  exact Ideal.ofBits_zero_f32

/-- The entropy term's factor entry by entry. -/
theorem pay31_apply (v13 : FVec Ideal S3200x5 .f32) (q : Fin 3200) (c : Fin 5) :
    k0_pay31 v13 (ix2 q c) = v13 (ix2 q c) * Ideal.log (v13 (ix2 q c) + Ideal.ofBits .f32 0x322BCC77#32) := by
  unfold k0_pay31
  rfl

/-- A lane sum over the five classes, read at a row. -/
theorem rowSum_apply (v : FVec Ideal S3200x5 .f32) (hφ : FKind.Formats .f32) (hacc : (0x00000000#32 : BitVec 32) = FKind.add.neutral .f32 hφ) (q : Fin 3200) :
    multiReduction .add [1] S3200 v 0x00000000#32 reduces_S3200x5_S3200 hφ hacc (ix1 q) = ∑ c : Fin 5, v (ix2 q c) := by
  rw [Ideal.multiReduction_add_single]
  exact Finset.sum_congr rfl fun c _ => congrArg v (funext fun a => Fin.ext (by match a with | ⟨0, _⟩ => rfl | ⟨1, _⟩ => rfl))

/-- A sum down the 3200 rows of a one-column block. -/
theorem colSum_apply (v : FVec Ideal S3200x1 .f32) (hφ : FKind.Formats .f32) (hacc : (0x00000000#32 : BitVec 32) = FKind.add.neutral .f32 hφ) :
    multiReduction .add [0] S1 v 0x00000000#32 reduces_S3200x1_S1 hφ hacc (ix1 (0 : Fin 1)) = ∑ q : Fin 3200, v (ix2 q (0 : Fin 1)) := by
  rw [Ideal.multiReduction_add_single]
  exact Finset.sum_congr rfl fun q _ => congrArg v (funext fun a => Fin.ext (by match a with | ⟨0, _⟩ => rfl | ⟨1, _⟩ => rfl))

/-- The entropy accumulator's new value at its one entry. -/
theorem pay1_apply (v155 : FVec Ideal S3200x5 .f32) (v162 : Vec Ideal S1x1x1 .f32) :
    k0_pay1 v155 v162 (ix3 (0 : Fin 1) (0 : Fin 1) (0 : Fin 1))
      = v162 (ix3 (0 : Fin 1) (0 : Fin 1) (0 : Fin 1)) + ∑ q : Fin 3200, (0 - ∑ c : Fin 5, v155 (ix2 q c)) := by
  unfold k0_pay1
  rw [shapeCast_apply _ shapeCasts_S1x1_S1x1x1 (ix3 (0 : Fin 1) (0 : Fin 1) (0 : Fin 1)) (ix2 (0 : Fin 1) (0 : Fin 1))
    (by rw [Shape.rowMajor_val_two, Shape.rowMajor_val_three]; rfl)]
  show (shapeCast S1x1 v162 _ _ : EReal) + shapeCast S1x1 _ _ _ = _
  rw [shapeCast_apply v162 shapeCasts_S1x1x1_S1x1 (ix2 (0 : Fin 1) (0 : Fin 1)) (ix3 (0 : Fin 1) (0 : Fin 1) (0 : Fin 1))
    (by rw [Shape.rowMajor_val_two, Shape.rowMajor_val_three]; rfl)]
  rw [shapeCast_apply _ shapeCasts_S1_S1x1 (ix2 (0 : Fin 1) (0 : Fin 1)) (ix1 (0 : Fin 1))
    (by rw [Shape.rowMajor_val_two, Shape.rowMajor_val_one]; rfl)]
  refine congrArg (v162 (ix3 (0 : Fin 1) (0 : Fin 1) (0 : Fin 1)) + ·) ((colSum_apply _ _ _).trans ?_)
  refine Finset.sum_congr rfl fun q _ => ?_
  show Ideal.ofBits .f32 0x00000000#32 - shapeCast S3200x1 _ _ (ix2 q (0 : Fin 1)) = _
  rw [Ideal.ofBits_zero_f32, shapeCast_apply _ shapeCasts_S3200_S3200x1 (ix2 q (0 : Fin 1)) (ix1 q)
    (by rw [Shape.rowMajor_val_two, Shape.rowMajor_val_one]; show q.val = q.val * 1 + 0; omega)]
  exact congrArg (0 - ·) (rowSum_apply _ _ _ q)

/-- The entropy accumulator after a step: the old value plus the sum over the block's rows of minus the row's entropy term. -/
theorem entStep_apply (x0 : Vec Ideal S3200x6 .f32) (xo3 : Vec Ideal S1x1x1 .f32) :
    entStep (F := Ideal) x0 xo3 (ix3 (0 : Fin 1) (0 : Fin 1) (0 : Fin 1))
      = xo3 (ix3 (0 : Fin 1) (0 : Fin 1) (0 : Fin 1)) + ∑ q : Fin 3200, (0 - entV (fun a => x0 (ix2 q a))) := by
  unfold entStep
  rw [pay1_apply]
  refine congrArg _ (Finset.sum_congr rfl fun q _ => ?_)
  refine congrArg (0 - ·) ?_
  unfold entV
  refine Finset.sum_congr rfl fun c _ => ?_
  rw [pay31_apply, pay4_apply]
  rfl

end Cert.KernelIdeal.Body

end
-- ==== Proof.LibDotTN.lean ====
/-
  A matrix product with BOTH operands contracted on their first axis, read at one entry. For the dimension numbers
  "contraction × rows by contraction × columns" with no batch axis (the left operand transposed), the product into a zero
  accumulator, at row `r` and column `q`, is the sum over the contracted coordinate `j` of the left operand at (j, r)
  times the right operand at (j, q). Stated over extended reals, where the product is the exact sum.
-/
import Idealize.ShloMosaic.PureOps.Ideal.Laws
import Idealize.ShloMosaic.Lib.ValueIdx

noncomputable section

open scoped BigOperators

namespace Cert.LibDotTN

open Idealize.ShloMosaic Idealize.ShloMosaic.ValueIdx

/-- Those dimension numbers for a left operand `[K, M]`, a right operand `[K, N]` and a result `[M, N]`. -/
abbrev tnDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The left operand's index at output entry (r, q) and contracted coordinate `j` is (j, r). -/
theorem tn_lhsIdx (K M N : Nat) (wf : DotDims.WF ⟨2, ![K, M]⟩ ⟨2, ![K, N]⟩ ⟨2, ![M, N]⟩ [0] [0] [1] [1] [] [])
    (r : Fin M) (q : Fin N) (j : Fin K) :
    (tnDims K M N wf).lhsIdx (ix2 r q) ((contrEquiv1 (tnDims K M N wf) K rfl rfl).symm j) = ix2 j r := by
  have hj := contrEquiv1_symm_val (tnDims K M N wf) K rfl rfl j
  funext a
  apply Fin.ext
  match a with
  | ⟨0, _⟩ => refine Eq.trans ?_ hj; rfl
  | ⟨1, _⟩ => rfl

/-- The right operand's index at output entry (r, q) and contracted coordinate `j` is (j, q). -/
theorem tn_rhsIdx (K M N : Nat) (wf : DotDims.WF ⟨2, ![K, M]⟩ ⟨2, ![K, N]⟩ ⟨2, ![M, N]⟩ [0] [0] [1] [1] [] [])
    (r : Fin M) (q : Fin N) (j : Fin K) :
    (tnDims K M N wf).rhsIdx (ix2 r q) ((contrEquiv1 (tnDims K M N wf) K rfl rfl).symm j) = ix2 j q := by
  have hj := contrEquiv1_symm_val (tnDims K M N wf) K rfl rfl j
  funext a
  apply Fin.ext
  match a with
  | ⟨0, _⟩ => refine Eq.trans ?_ hj; rfl
  | ⟨1, _⟩ => rfl

/-- The matrix unit's product into a zero accumulator, at one entry. -/
theorem matmul_tn_apply {φ₁ φ₂ : FTy} (K M N : Nat) (wf : DotDims.WF ⟨2, ![K, M]⟩ ⟨2, ![K, N]⟩ ⟨2, ![M, N]⟩ [0] [0] [1] [1] [] [])
    (prec : Option ContractPrecision)
    (A : FVec Ideal ⟨2, ![K, M]⟩ φ₁) (B : FVec Ideal ⟨2, ![K, N]⟩ φ₂) (r : Fin M) (q : Fin N) :
    FloatOps.matmul (tnDims K M N wf) prec A B (constant ⟨2, ![M, N]⟩ .f32 0x00000000#32) (ix2 r q)
      = ∑ j : Fin K, A (ix2 j r) * B (ix2 j q) := by
  rw [Ideal.matmul_constant_zero_apply, ← Equiv.sum_comp (contrEquiv1 (tnDims K M N wf) K rfl rfl).symm]
  refine Finset.sum_congr rfl fun j _ => ?_
  rw [tn_lhsIdx, tn_rhsIdx]

end Cert.LibDotTN

end
-- ==== Proof.KIBodyMat.lean ====
/-
  The statistics accumulator's payload read at an entry: the running value plus the product, contracted over the block's
  3200 rows, of the expanded statistics (row q, column e) with the low one-hot factor (row q, lane l). And the low
  one-hot factor itself: one where the id's low eight bits are the lane number.
-/
import proofs.«405333_j27135603376138_3_alg».proof.Proof.KIBody
import proofs.«405333_j27135603376138_3_alg».proof.Proof.LibDotTN
import Idealize.ShloMosaic.Lib.ValueLayout

set_option maxRecDepth 16384

noncomputable section

open scoped BigOperators

namespace Cert.KernelIdeal.Body

open Cert.KernelIdeal Cert.KernelIdeal.Gen Cert.Spec
open Idealize.ShloMosaic Idealize.ShloMosaic.ValueIdx

/-- The accumulator's new value at entry (e, l). -/
theorem pay30_apply (v47 : FVec Ideal S3200x256 .bf16) (v144 : Vec Ideal S3200x176 .bf16) (v146 : Vec Ideal S1x176x256 .f32)
    (e : Fin 176) (l : Fin 256) :
    k0_pay30 v47 v144 v146 (ix3 (0 : Fin 1) e l) = v146 (ix3 (0 : Fin 1) e l) + ∑ q : Fin 3200, v144 (ix2 q e) * v47 (ix2 q l) := by
  unfold k0_pay30
  rw [shapeCast_ab_1ab_apply]
  show (shapeCast S176x256 v146 _ (ix2 e l) : EReal) + _ = _
  rw [shapeCast_1ab_ab_apply]
  refine congrArg (v146 (ix3 (0 : Fin 1) e l) + ·) ?_
  exact Cert.LibDotTN.matmul_tn_apply 3200 176 256 Facts₀.dot_S3200x176_S3200x256_S176x256_0_0_1_1_n_n_wf none v144 v47 e l

theorem andi_apply {s : Shape} {w : ℕ} (a b : IVec s w) (i : s.Idx) : andi a b i = IntOp.andi (a i) (b i) := rfl

/-- Lane `l` of the 256 lane numbers is `l`. -/
theorem iotaLo_apply (u : Fin 1) (l : Fin 256) : iota .tc S1x256 32 [1] iota_S1x256_d1_w32 (ix2 u l) = BitVec.ofNat 32 l.val :=
  iota_single_apply .tc S1x256 32 1 iota_S1x256_d1_w32 (ix2 u l)

/-- The low one-hot factor at row q, lane l. -/
theorem loMask_apply (x1 : Vec Ideal S3200x1 .i32) (q : Fin 3200) (l : Fin 256) :
    k0_pay12 (F := Ideal) (k0_pay10 x1) (ix2 q l) = loM (x1 (ix2 q (0 : Fin 1))) l := by
  unfold k0_pay12 k0_pay10 k0_pay8 loM
  rw [truncf_apply, sitofp_apply, extui_apply, cmpi_apply, Cert.SegMath.mask_val, broadcastTo_a1_ab_apply,
    broadcastTo_1b_ab_apply, iotaLo_apply, andi_apply, shapeCast_self, broadcast_apply]

/-- Entry (e, l) of the statistics accumulator after a step: the old value plus, over the block's rows, statistic
    `e mod 11` times the high one-hot factor at lane `e / 11` times the low one-hot factor at lane `l`. -/
theorem accStep_apply (x0 : Vec Ideal S3200x6 .f32) (x1 : Vec Ideal S3200x1 .i32) (xo2 : Vec Ideal S1x176x256 .f32) (e : Fin 176) (l : Fin 256) :
    accStep (F := Ideal) x0 x1 xo2 (ix3 (0 : Fin 1) e l)
      = xo2 (ix3 (0 : Fin 1) e l) + ∑ q : Fin 3200, (featV (fun a => x0 (ix2 q a)) ⟨e.val % 11, Nat.mod_lt _ (by decide)⟩
          * hiM (x1 (ix2 q (0 : Fin 1))) ⟨e.val / 11, by have := e.isLt; omega⟩) * loM (x1 (ix2 q (0 : Fin 1))) l := by
  unfold accStep
  rw [pay30_apply]
  refine congrArg _ (Finset.sum_congr rfl fun q _ => ?_)
  rw [expScr_apply, loMask_apply]

end Cert.KernelIdeal.Body

end
-- ==== Proof.KITail.lean ====
/-
  The host lines after the one pipelined call, read at the ideal instance as a function of the call's two result arrays.
  The call returns an accumulator `[2, 176, 256]` (one half per core) and an entropy sum `[2, 1, 1]`. The lines add the
  two halves; re-lay the sum, whose row `hi·11 + stat` and column `lo` hold statistic `stat` of segment `hi·256 + lo`,
  as rows `stat` and columns `hi·256 + lo`; cut out the five sums (statistics 0 … 4), the count (statistic 5) and the
  five sums of squares (statistics 6 … 10); transpose the sums and sums of squares to `[4096, 5]`; apply the shared chain;
  and return `0.8 · smooth + 0.2 · (entropy sum / 4000000)`.

  First, for any float family, the seventy lines compose to the shared chain and the weighted sum applied to the layout
  operations of the two arrays (the shared chain is matched whole and never opened). Then, at the ideal instance, each
  layout operation is read at an index: a reshape keeps the row-major position, a transpose permutes the coordinates, a
  slice shifts one coordinate. So the count, the sums and the sums of squares of segment `g` are the accumulator's entries
  at row `(g / 256)·11 + stat`, column `g % 256`, the two halves added.
-/
import proofs.«405333_j27135603376138_3_alg».proof.Proof.KIFrameKit
import proofs.«405333_j27135603376138_3_alg».proof.Proof.Spec
import Idealize.ShloMosaic.Lib.ValueLayout
import Idealize.ShloMosaic.Lib.ValueIdx
import Idealize.ShloMosaic.Lib.StableHlo.Run

set_option maxRecDepth 16384

noncomputable section

namespace Cert.KernelIdeal.Tail

open Cert.KernelIdeal Cert.KernelIdeal.Gen Cert.KernelIdeal.Hand
open Idealize.ShloMosaic Idealize.ShloMosaic.ValueIdx Idealize.ShloMosaic.StableHlo

variable {F : FTy → Type} [FloatOps F]

/-! ## The layout terms, for any float family -/

/-- The two cores' halves of the accumulator added: a `[176, 256]` array. -/
def accSum (ACC : FVec F S2x176x256 .f32) : FVec F S176x256 .f32 :=
  addf (shapeCast S176x256 (extractStridedSlice S1x176x256 ![0, 0, 0] ACC slices_S2x176x256_S1x176x256_0_0_0) shapeCasts_S1x176x256_S176x256)
    (shapeCast S176x256 (extractStridedSlice S1x176x256 ![1, 0, 0] ACC slices_S2x176x256_S1x176x256_1_0_0) shapeCasts_S1x176x256_S176x256)

/-- The sum re-laid from rows `hi·11 + stat`, columns `lo` to rows `stat`, columns `hi·256 + lo`. -/
def statSeg (ACC : FVec F S2x176x256 .f32) : FVec F S11x4096 .f32 :=
  shapeCast S11x4096 (transpose S11x16x256 [1, 0, 2] (shapeCast S16x11x256 (accSum ACC) shapeCasts_S176x256_S16x11x256)
    transposes_S16x11x256_S11x16x256_1_0_2) shapeCasts_S11x16x256_S11x4096

/-- Row 5 (the counts) as a vector. -/
def cntT (ACC : FVec F S2x176x256 .f32) : FVec F S4096 .f32 :=
  shapeCast S4096 (extractStridedSlice S1x4096 ![5, 0] (statSeg ACC) slices_S11x4096_S1x4096_5_0) shapeCasts_S1x4096_S4096
/-- Rows 0 … 4 (the sums), transposed. -/
def s1T (ACC : FVec F S2x176x256 .f32) : FVec F S4096x5 .f32 :=
  transpose S4096x5 [1, 0] (extractStridedSlice S5x4096 ![0, 0] (statSeg ACC) slices_S11x4096_S5x4096_0_0) transposes_S5x4096_S4096x5_1_0
/-- Rows 6 … 10 (the sums of squares), transposed. -/
def s2T (ACC : FVec F S2x176x256 .f32) : FVec F S4096x5 .f32 :=
  transpose S4096x5 [1, 0] (extractStridedSlice S5x4096 ![6, 0] (statSeg ACC) slices_S11x4096_S5x4096_6_0) transposes_S5x4096_S4096x5_1_0
/-- The two cores' entropy sums added. -/
def entT (ENT : FVec F S2x1x1 .f32) : FVec F S_ .f32 :=
  addf (shapeCast S_ (extractStridedSlice S1x1x1 ![0, 0, 0] ENT slices_S2x1x1_S1x1x1_0_0_0) shapeCasts_S1x1x1_S_)
    (shapeCast S_ (extractStridedSlice S1x1x1 ![1, 0, 0] ENT slices_S2x1x1_S1x1x1_1_0_0) shapeCasts_S1x1x1_S_)

set_option maxHeartbeats 4000000 in
/-- The seventy host lines after the call compose to the shared chain applied to the re-laid accumulator, and the
    weighted sum with the entropy term: for any float family. -/
theorem tail_term (hf : Cert.Spec.TailFacts) (W : Valuation τ sig (Elt F)) :
    StableHlo.after (List.flatten (tailOps (F := F))) W (Proc.devRef .tc main_v54)
      = Cert.Spec.combine (F := F) (Cert.Spec.smooth (F := F) hf (cntT (W (Proc.devRef .tc main_v1_0))) (s1T (W (Proc.devRef .tc main_v1_0))) (s2T (W (Proc.devRef .tc main_v1_0))))
          (Host.divf (F := F) (entT (W (Proc.devRef .tc main_v1_1))) (constant Cert.Spec.S_ .f32 0x4A742400#32)) := by
  simp only [tailOps, hostOps1, hostOps1_1, hostOps1_2, List.flatten_cons, List.flatten_nil, List.append_nil, List.cons_append, List.nil_append]
  after_results_simp
  rfl

/-! ## The accumulator read by statistic and segment -/

/-- statistic j of segment g = hi·256 + lo sits in the accumulator at row hi·11 + j, column lo; the two cores' halves are added -/
def accAt (ACC : FVec Ideal S2x176x256 .f32) (j : Fin 11) (g : Fin 4096) : EReal :=
  ACC (ix3 (0 : Fin 2) ⟨(g.val / 256) * 11 + j.val, by omega⟩ ⟨g.val % 256, by omega⟩)
    + ACC (ix3 (1 : Fin 2) ⟨(g.val / 256) * 11 + j.val, by omega⟩ ⟨g.val % 256, by omega⟩)
/-- The counts per segment: statistic 5. -/
def cntOf (ACC : FVec Ideal S2x176x256 .f32) : FVec Ideal Cert.Spec.S4096 .f32 := fun i => accAt ACC 5 (i 0)
/-- The sums per segment and class: statistics 0 … 4. -/
def s1Of (ACC : FVec Ideal S2x176x256 .f32) : FVec Ideal Cert.Spec.S4096x5 .f32 :=
  fun i => accAt ACC ⟨(i 1).val, by have h : (i 1).val < 5 := (i 1).isLt; omega⟩ (i 0)
/-- The sums of squares per segment and class: statistics 6 … 10. -/
def s2Of (ACC : FVec Ideal S2x176x256 .f32) : FVec Ideal Cert.Spec.S4096x5 .f32 :=
  fun i => accAt ACC ⟨(i 1).val + 6, by have h : (i 1).val < 5 := (i 1).isLt; omega⟩ (i 0)
/-- The two cores' entropy sums added. -/
def entOf (ENT : FVec Ideal S2x1x1 .f32) : FVec Ideal Cert.Spec.S_ .f32 :=
  fun _ => ENT (ix3 (0 : Fin 2) (0 : Fin 1) (0 : Fin 1)) + ENT (ix3 (1 : Fin 2) (0 : Fin 1) (0 : Fin 1))

/-! ## The layout operations read at an index -/

/-- The added halves at row `r`, column `c`. -/
theorem accSum_apply (ACC : FVec Ideal S2x176x256 .f32) (r : Fin 176) (c : Fin 256) :
    accSum ACC (ix2 r c) = ACC (ix3 (0 : Fin 2) r c) + ACC (ix3 (1 : Fin 2) r c) := by
  unfold accSum
  rw [addf_apply, shapeCast_1ab_ab_apply, shapeCast_1ab_ab_apply]
  congr 1
  · exact extractStridedSlice_apply _ _ _ _ _ (fun ax => match ax with
      | ⟨0, _⟩ => rfl | ⟨1, _⟩ => (Nat.zero_add _).symm | ⟨2, _⟩ => (Nat.zero_add _).symm)
  · exact extractStridedSlice_apply _ _ _ _ _ (fun ax => match ax with
      | ⟨0, _⟩ => rfl | ⟨1, _⟩ => (Nat.zero_add _).symm | ⟨2, _⟩ => (Nat.zero_add _).symm)

/-- The re-laid sum at statistic `j`, segment `g`: the accumulator's row `(g / 256)·11 + j`, column `g % 256`. -/
theorem statSeg_apply (ACC : FVec Ideal S2x176x256 .f32) (j : Fin 11) (g : Fin 4096) :
    statSeg ACC (ix2 j g) = accAt ACC j g := by
  have hg := g.isLt
  have hj := j.isLt
  unfold statSeg accAt
  refine (shapeCast_apply _ _ (ix2 j g) (ix3 j (⟨g.val / 256, by omega⟩ : Fin 16) (⟨g.val % 256, by omega⟩ : Fin 256)) ?_).trans ?_
  · rw [Shape.rowMajor_val_three, Shape.rowMajor_val_two]
    show (j.val * 16 + g.val / 256) * 256 + g.val % 256 = j.val * 4096 + g.val
    omega
  refine (transpose_apply _ _ _ _ (ix3 (⟨g.val / 256, by omega⟩ : Fin 16) j (⟨g.val % 256, by omega⟩ : Fin 256))
    (fun b => match b with | ⟨0, _⟩ => rfl | ⟨1, _⟩ => rfl | ⟨2, _⟩ => rfl)).trans ?_
  refine (shapeCast_apply _ _ _ (ix2 (⟨(g.val / 256) * 11 + j.val, by omega⟩ : Fin 176) (⟨g.val % 256, by omega⟩ : Fin 256)) ?_).trans ?_
  · rw [Shape.rowMajor_val_two, Shape.rowMajor_val_three]
    rfl
  exact accSum_apply ACC _ _

/-- Row 5 as a vector is the counts. -/
theorem cntT_eq (ACC : FVec Ideal S2x176x256 .f32) : cntT ACC = cntOf ACC := by
  funext i
  obtain ⟨g, rfl⟩ : ∃ g : Fin 4096, i = ix1 g := ⟨i 0, eq_ix1 i⟩
  unfold cntT cntOf
  rw [shapeCast_1a_a_apply, slice2_axis0_apply 5 _ _ (0 : Fin 1) g (5 : Fin 11) rfl]
  exact statSeg_apply ACC 5 g

/-- Rows 0 … 4 transposed are the sums. -/
theorem s1T_eq (ACC : FVec Ideal S2x176x256 .f32) : s1T ACC = s1Of ACC := by
  funext i
  obtain ⟨g, a, rfl⟩ : ∃ (g : Fin 4096) (a : Fin 5), i = ix2 g a := ⟨i 0, i 1, eq_ix2 i⟩
  have ha := a.isLt
  unfold s1T s1Of
  rw [transpose_ix2_apply, slice2_axis0_apply 0 _ _ a g (⟨a.val, by omega⟩ : Fin 11) (Nat.zero_add _).symm]
  exact statSeg_apply ACC _ g

/-- Rows 6 … 10 transposed are the sums of squares. -/
theorem s2T_eq (ACC : FVec Ideal S2x176x256 .f32) : s2T ACC = s2Of ACC := by
  funext i
  obtain ⟨g, a, rfl⟩ : ∃ (g : Fin 4096) (a : Fin 5), i = ix2 g a := ⟨i 0, i 1, eq_ix2 i⟩
  have ha := a.isLt
  unfold s2T s2Of
  rw [transpose_ix2_apply, slice2_axis0_apply 6 _ _ a g (⟨a.val + 6, by omega⟩ : Fin 11) (Nat.add_comm _ _)]
  exact statSeg_apply ACC _ g

/-- The entropy scalar is the sum of the two cores' entries. -/
theorem entT_eq (ENT : FVec Ideal S2x1x1 .f32) : entT ENT = entOf ENT := by
  funext i
  unfold entT entOf
  rw [addf_apply]
  congr 1
  · refine (shapeCast_apply _ _ i (ix3 (0 : Fin 1) (0 : Fin 1) (0 : Fin 1)) ?_).trans ?_
    · rw [Shape.rowMajor_val_three]
      exact (Shape.rowMajorPi_zero _ _).symm
    · exact extractStridedSlice_apply _ _ _ _ _ (fun ax => match ax with | ⟨0, _⟩ => rfl | ⟨1, _⟩ => rfl | ⟨2, _⟩ => rfl)
  · refine (shapeCast_apply _ _ i (ix3 (0 : Fin 1) (0 : Fin 1) (0 : Fin 1)) ?_).trans ?_
    · rw [Shape.rowMajor_val_three]
      exact (Shape.rowMajorPi_zero _ _).symm
    · exact extractStridedSlice_apply _ _ _ _ _ (fun ax => match ax with | ⟨0, _⟩ => rfl | ⟨1, _⟩ => rfl | ⟨2, _⟩ => rfl)

/-! ## The result of the lines after the call -/

/-- What the program returns, as a function of the call's two result arrays: the shared chain on the counts, sums and
    sums of squares read off the accumulator, weighted with the summed entropy over the number of rows. -/
theorem tail_value (hf : Cert.Spec.TailFacts) (W : Valuation τ sig (Elt Ideal)) :
    StableHlo.after (List.flatten (tailOps (F := Ideal))) W (Proc.devRef .tc main_v54)
      = Cert.Spec.combine (F := Ideal) (Cert.Spec.smooth (F := Ideal) hf (cntOf (W (Proc.devRef .tc main_v1_0))) (s1Of (W (Proc.devRef .tc main_v1_0))) (s2Of (W (Proc.devRef .tc main_v1_0))))
          (Host.divf (F := Ideal) (entOf (W (Proc.devRef .tc main_v1_1))) (constant Cert.Spec.S_ .f32 0x4A742400#32)) := by
  rw [tail_term hf W, cntT_eq, s1T_eq, s2T_eq, entT_eq]

end Cert.KernelIdeal.Tail

end
-- ==== Proof.KIValue.lean ====
/-
  The kernel program's result at the ideal instance. Each core's statistics accumulator ends at the sum, over its 625
  grid points, of what a point adds: for entry (h·11 + j, l) the sum over the point's 3200 rows of statistic j times the
  two one-hot factors of the row's id (high part against h, low eight bits against l). The two cores' arrays added and
  re-laid give, for segment g = 256 h + l, the sum over ALL rows of statistic j times both factors, and both factors are
  one exactly when the id read signed is g: the segment sum. The entropy accumulators give the sum of minus the rows'
  entropy terms; with finite logits every term is a real and the sign comes out. The later host lines then apply the
  shared chain and the weights.
-/
import proofs.«405333_j27135603376138_3_alg».proof.Proof.KIChain
import proofs.«405333_j27135603376138_3_alg».proof.Proof.KIArrays
import proofs.«405333_j27135603376138_3_alg».proof.Proof.KIBody
import proofs.«405333_j27135603376138_3_alg».proof.Proof.KIBodyEnt
import proofs.«405333_j27135603376138_3_alg».proof.Proof.KIBodyMat
import proofs.«405333_j27135603376138_3_alg».proof.Proof.KITail
import proofs.«405333_j27135603376138_3_alg».proof.Proof.SegMath

set_option maxRecDepth 16384

noncomputable section

open scoped BigOperators

namespace Cert.KernelIdeal.Value

open Cert.KernelIdeal Cert.KernelIdeal.Gen Cert.KernelIdeal.Hand Cert.KernelIdeal.Body Cert.KernelIdeal.Tail
open Idealize.ShloMosaic Idealize.ShloMosaic.TcCoe Idealize.SL.Sem Idealize.ShloMosaic.ValueIdx
open Idealize.ShloMosaic.Pipeline (Dat)
open Cert.Spec Cert.SegMath

variable (m : (ℓ : Loc nD τ sig) → Buf (Elt Ideal) ℓ)

/-- The logits and the ids as launched, read as the specification's functions. -/
abbrev xOf (c : Dev nD) : SX.Idx → EReal := m ((c : Thread nD τ).loc main_arg0)
abbrev sOf (c : Dev nD) : SSeg.Idx → BitVec 32 := m ((c : Thread nD τ).loc main_arg1)

/-- What one point adds to entry (e, l) of the statistics accumulator, from its two blocks. -/
def S2 (x0 : B0) (x1 : B1) (e : Fin 176) (l : Fin 256) : EReal :=
  ∑ q : Fin 3200, (featV (fun a => x0 (ix2 q a)) ⟨e.val % 11, Nat.mod_lt _ (by decide)⟩
      * hiM (x1 (ix2 q (0 : Fin 1))) ⟨e.val / 11, by have := e.isLt; omega⟩) * loM (x1 (ix2 q (0 : Fin 1))) l
/-- What one point adds to the entropy accumulator. -/
def S3 (x0 : B0) : EReal := ∑ q : Fin 3200, (0 - entV (fun a => x0 (ix2 q a)))

/-- Point `625 k + i`. -/
def pt (k : Fin 2) (i : Fin 625) : Fin cfg0.N := ⟨k.val * 625 + i.val, by rw [show cfg0.N = 1250 from N_0]; omega⟩

theorem rowAt_pt (k : Fin 2) (i : Fin 625) (q : Fin 3200) : rowAt (pt k i) q = rowOf k i q := rfl

/-- The row of logits that row `q` of point `t`'s block is. -/
theorem blk0_row (c : Dev nD) (t : Fin cfg0.N) (q : Fin 3200) :
    (fun a => (blk0 m c t) (ix2 q a)) = rowOfX (xOf m c) (rowAt t q) :=
  funext fun a => blk0_apply m c t q a

/-- Entry (k, e, l) of the statistics array after the call: the sum over core `k`'s 625 points. -/
theorem accArr_apply (c : Dev nD) (k : Fin 2) (e : Fin 176) (l : Fin 256) :
    accArr m c (ix3 k e l) = ∑ i : Fin 625, S2 (blk0 m c (pt k i)) (blk1 m c (pt k i)) e l := by
  have hlt : (lastPt k).val < cfg0.N := (lastPt k).isLt
  show (outsAt0 m c (lastPt k).val hlt).1 (ix3 (0 : Fin 1) e l) = _
  rw [outsAt_eq m (accStep (F := Ideal)) (entStep (F := Ideal)) (k0_pay2 (F := Ideal)) (k0_pay3 (F := Ideal))
      (fun c i a2 h2 a3 h3 a4 h4 a5 h5 a6 h6 a7 h7 hc x0 x1 xo2 xo3 => out_B_2 c i a2 h2 a3 h3 a4 h4 a5 h5 a6 h6 a7 h7 hc x0 x1 xo2 xo3)
      (fun c i a2 h2 a3 h3 a4 h4 a5 h5 a6 h6 a7 h7 hc x0 x1 xo2 xo3 => out_B_3 c i a2 h2 a3 h3 a4 h4 a5 h5 a6 h6 a7 h7 hc x0 x1 xo2 xo3)
      (fun c i a2 h2 a3 h3 a4 h4 a5 h5 a6 h6 a7 h7 hc x0 x1 => out_A_2 c i a2 h2 a3 h3 a4 h4 a5 h5 a6 h6 a7 h7 hc x0 x1)
      (fun c i a2 h2 a3 h3 a4 h4 a5 h5 a6 h6 a7 h7 hc x0 x1 => out_A_3 c i a2 h2 a3 h3 a4 h4 a5 h5 a6 h6 a7 h7 hc x0 x1) c _ hlt,
    chain_fst m (accStep (F := Ideal)) (entStep (F := Ideal)) (k0_pay2 (F := Ideal)) (k0_pay3 (F := Ideal)) S2
      (fun x0 x1 xo e l => accStep_apply x0 x1 xo e l) c e l _ hlt, pay2_apply, zero_add]
  have h1 : (lastPt k).val % 625 + 1 = 625 := by show (k.val * 625 + 624) % 625 + 1 = 625; omega
  have h2 : (lastPt k).val - (lastPt k).val % 625 = k.val * 625 := by show (k.val * 625 + 624) - (k.val * 625 + 624) % 625 = k.val * 625; omega
  rw [h1, h2, Finset.sum_range]
  refine Finset.sum_congr rfl fun i _ => ?_
  unfold add2
  rw [dif_pos (show k.val * 625 + i.val < cfg0.N from (pt k i).isLt)]
  rfl

/-- The entropy array after the call at core `k`. -/
theorem entArr_apply (c : Dev nD) (k : Fin 2) :
    entArr m c (ix3 k (0 : Fin 1) (0 : Fin 1)) = ∑ i : Fin 625, S3 (blk0 m c (pt k i)) := by
  have hlt : (lastPt k).val < cfg0.N := (lastPt k).isLt
  show (outsAt0 m c (lastPt k).val hlt).2 (ix3 (0 : Fin 1) (0 : Fin 1) (0 : Fin 1)) = _
  rw [outsAt_eq m (accStep (F := Ideal)) (entStep (F := Ideal)) (k0_pay2 (F := Ideal)) (k0_pay3 (F := Ideal))
      (fun c i a2 h2 a3 h3 a4 h4 a5 h5 a6 h6 a7 h7 hc x0 x1 xo2 xo3 => out_B_2 c i a2 h2 a3 h3 a4 h4 a5 h5 a6 h6 a7 h7 hc x0 x1 xo2 xo3)
      (fun c i a2 h2 a3 h3 a4 h4 a5 h5 a6 h6 a7 h7 hc x0 x1 xo2 xo3 => out_B_3 c i a2 h2 a3 h3 a4 h4 a5 h5 a6 h6 a7 h7 hc x0 x1 xo2 xo3)
      (fun c i a2 h2 a3 h3 a4 h4 a5 h5 a6 h6 a7 h7 hc x0 x1 => out_A_2 c i a2 h2 a3 h3 a4 h4 a5 h5 a6 h6 a7 h7 hc x0 x1)
      (fun c i a2 h2 a3 h3 a4 h4 a5 h5 a6 h6 a7 h7 hc x0 x1 => out_A_3 c i a2 h2 a3 h3 a4 h4 a5 h5 a6 h6 a7 h7 hc x0 x1) c _ hlt,
    chain_snd m (accStep (F := Ideal)) (entStep (F := Ideal)) (k0_pay2 (F := Ideal)) (k0_pay3 (F := Ideal)) S3
      (fun x0 xo => entStep_apply x0 xo) c _ hlt, pay3_apply, zero_add]
  have h1 : (lastPt k).val % 625 + 1 = 625 := by show (k.val * 625 + 624) % 625 + 1 = 625; omega
  have h2 : (lastPt k).val - (lastPt k).val % 625 = k.val * 625 := by show (k.val * 625 + 624) - (k.val * 625 + 624) % 625 = k.val * 625; omega
  rw [h1, h2, Finset.sum_range]
  refine Finset.sum_congr rfl fun i _ => ?_
  unfold add3
  rw [dif_pos (show k.val * 625 + i.val < cfg0.N from (pt k i).isLt)]
  rfl

/-- A row's contribution to statistic `j` of segment `g`: the statistic times the two one-hot factors of the row's id. -/
def contrib (x : SX.Idx → EReal) (s : SSeg.Idx → BitVec 32) (j : Fin 11) (g : Fin 4096) (r : Fin 4000000) : EReal :=
  (feat x r j * hiM (s (ix1 r)) ⟨g.val / 256, by have := g.isLt; omega⟩) * loM (s (ix1 r)) ⟨g.val % 256, Nat.mod_lt _ (by decide)⟩

/-- Summed over all rows that is the segment sum: the two factors are both one exactly on the segment's rows. -/
theorem sum_contrib (x : SX.Idx → EReal) (s : SSeg.Idx → BitVec 32) (j : Fin 11) (g : Fin 4096) :
    ∑ r : Fin 4000000, contrib x s j g r = segSum x s j g := by
  unfold contrib hiM loM
  rw [masked_sum]
  unfold segSum segRows
  refine Finset.sum_congr (Finset.filter_congr fun r _ => ?_) fun _ _ => rfl
  exact hi_lo_iff (s (ix1 r)) g

/-- The two cores' halves of statistic `j`, segment `g`, added: the segment sum. -/
theorem accAt_eq (c : Dev nD) (j : Fin 11) (g : Fin 4096) :
    accAt (accArr m c) j g = segSum (xOf m c) (sOf m c) j g := by
  have hg := g.isLt
  have hj := j.isLt
  unfold accAt
  rw [accArr_apply, accArr_apply, ← sum_contrib, ← sum_rows]
  have hterm : ∀ (k : Fin 2) (i : Fin 625),
      S2 (blk0 m c (pt k i)) (blk1 m c (pt k i)) ⟨g.val / 256 * 11 + j.val, by omega⟩ ⟨g.val % 256, by omega⟩
        = ∑ q : Fin 3200, contrib (xOf m c) (sOf m c) j g (rowOf k i q) := by
    intro k i
    unfold S2 contrib
    refine Finset.sum_congr rfl fun q _ => ?_
    rw [blk0_row, show (blk1 m c (pt k i)) (ix2 q (0 : Fin 1)) = sOf m c (ix1 (rowOf k i q)) from blk1_apply m c (pt k i) q, rowAt_pt, ← feat_eq]
    have e1 : (⟨(g.val / 256 * 11 + j.val) % 11, Nat.mod_lt _ (by decide)⟩ : Fin 11) = j := Fin.ext (by show (g.val / 256 * 11 + j.val) % 11 = j.val; omega)
    have e2 : ∀ h, (⟨(g.val / 256 * 11 + j.val) / 11, h⟩ : Fin 16) = ⟨g.val / 256, by omega⟩ := fun h => Fin.ext (by show (g.val / 256 * 11 + j.val) / 11 = g.val / 256; omega)
    simp only [e1, e2]
  simp only [hterm]

theorem cnt_eq (c : Dev nD) : cntOf (accArr m c) = cntArr (xOf m c) (sOf m c) :=
  funext fun i => accAt_eq m c 5 (i 0)
theorem s1_eq (c : Dev nD) : s1Of (accArr m c) = s1Arr (xOf m c) (sOf m c) :=
  funext fun i => accAt_eq m c _ (i 0)
theorem s2_eq (c : Dev nD) : s2Of (accArr m c) = s2Arr (xOf m c) (sOf m c) :=
  funext fun i => accAt_eq m c _ (i 0)

/-- The entropy term: the two cores' sums of minus the rows' terms, over 4e6; with finite logits every term is a real,
    so the minus signs come out of the sum. -/
theorem ent_eq (c : Dev nD) (hx : Fin_x (xOf m c)) :
    Host.divf (F := Ideal) (entOf (entArr m c)) (constant Cert.Spec.S_ .f32 0x4A742400#32) = entTerm (xOf m c) := by
  funext i
  show Ideal.div (entOf (entArr m c) i) (Ideal.ofBits .f32 0x4A742400#32) = -(Ideal.div (entTotal (xOf m c)) (Ideal.ofBits .f32 0x4A742400#32))
  rw [← ent_bridge (xOf m c) hx]
  unfold entOf
  rw [entArr_apply, entArr_apply]
  have hterm : ∀ (k : Fin 2) (i : Fin 625), S3 (blk0 m c (pt k i)) = ∑ q : Fin 3200, (0 - entRow (xOf m c) (rowOf k i q)) := by
    intro k i
    unfold S3
    refine Finset.sum_congr rfl fun q _ => ?_
    rw [blk0_row, rowAt_pt, ← entRow_eq]
  simp only [hterm]

/-- The program's result buffer after the run. -/
theorem ker_value (hf : TailFacts) (c : Dev nD) (hx : Fin_x (xOf m c)) :
    Pipeline.afterTail₀ cfgs (dats m) 0 (V0 m) tailOps c main_v54 = result hf (xOf m c) (sOf m c) := by
  unfold Pipeline.afterTail₀
  rw [tail_value hf]
  have w2 : Pipeline.withArrays spec0 c (V0 m c) (fun w => (dats m 0 c).arrAt w cfg0.N) (Proc.devRef .tc main_v1_0) = accArr m c :=
    (Pipeline.withArrays_arr spec0 launch0.win.arr_inj c _ _ 2).trans (final2 m c)
  have w3 : Pipeline.withArrays spec0 c (V0 m c) (fun w => (dats m 0 c).arrAt w cfg0.N) (Proc.devRef .tc main_v1_1) = entArr m c :=
    (Pipeline.withArrays_arr spec0 launch0.win.arr_inj c _ _ 3).trans (final3 m c)
  rw [w2, w3, cnt_eq, s1_eq, s2_eq, ent_eq m c hx]
  rfl

/-- The run, read: the result at the specification's value, the arguments unchanged. -/
theorem run (hf : TailFacts) (ρ : Dev nD → PrngReg) (hx : ∀ c, Fin_x (xOf m c)) :
    θ_run defs (onTc (τ := τ) (main (F := Ideal))) ⟨m, fun _ => 0, ρ⟩ fun r => ∀ c : Dev nD,
      r.2.mem ((c.tc : Thread nD τ).loc main_v54) = result hf (xOf m c) (sOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v54 (Pipeline.mem_restRefs_of main_v54 (by decide) (by decide))).trans (ker_value m hf c (hx c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Value

end
-- ==== Proof.LibRowScatter.lean ====
/-
  A row scatter-add read at one entry. For the dimension numbers "each update row e lands on the operand row its index
  word names" (update window axis 1, inserted window axis 0, the index vector of length one on axis 1), the accumulating
  scatter at row `r`, column `a` is the operand there plus the sum, over the update rows `e` whose index word read as a
  signed integer is `r`, of the update at (e, a). An index word that names no row contributes nothing.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- Those dimension numbers for an operand `[R, C]`, scatter indices `[E, 1]` and updates `[E, C]`. -/
abbrev rowDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- On operand axis 0 the window starts at the index word of the update's row, read signed. -/
private theorem start0 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (0 : Fin 2) = (idx (ix2 (j 0) (0 : Fin 1))).toInt := by
  unfold ScatterDims.start
  rw [dif_pos (show (0 : Fin 2) ∈ (rowDims R C E wf).scatterDimsToOperandDims from List.mem_singleton.mpr rfl)]
  have hsi : (rowDims R C E wf).siIdx j ⟨List.idxOf (0 : Fin 2) (rowDims R C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On operand axis 1, which the index map does not name, the window starts at 0. -/
private theorem start1 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (1 : Fin 2) = 0 := by
  unfold ScatterDims.start
  rw [dif_neg (show ¬ (1 : Fin 2) ∈ ([0] : List (Fin 2)) by decide)]

/-- Operand axis 0 is an inserted window axis: the window coordinate there is 0. -/
private theorem window0 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (0 : Fin 2) = 0 := by
  unfold ScatterDims.window
  have hn : (0 : Fin 2) ∉ (rowDims R C E wf).sKept :=
    show ¬ (0 : Fin 2) ∈ (List.finRange 2).filter (· ∉ ([0] : List (Fin 2))) by decide
  rw [dif_neg hn]

/-- On operand axis 1 the window coordinate is the update's column. -/
private theorem window1 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (1 : Fin 2) = (j 1).val := by
  unfold ScatterDims.window
  have hp : (1 : Fin 2) ∈ (rowDims R C E wf).sKept :=
    show (1 : Fin 2) ∈ (List.finRange 2).filter (· ∉ ([0] : List (Fin 2))) by decide
  rw [dif_pos hp]
  rfl

/-- Update index `j` lands at (r, a) exactly when its row's index word reads `r` and its column is `a`. -/
private theorem resultIdx_iff {R C E w : Nat}
    (wf : ScatterDims.WF ⟨2, ![R, C]⟩ ⟨2, ![E, 1]⟩ ⟨2, ![E, C]⟩ [1] [0] [0] 1)
    (idx : IVec ⟨2, ![E, 1]⟩ w) (r : Fin R) (a : Fin C) (j : (⟨2, ![E, C]⟩ : Shape).Idx) :
    (rowDims R C E wf).resultIdx? j idx = some (ix2 r a)
      ↔ (idx (ix2 (j 0) (0 : Fin 1))).toInt = (r.val : Int) ∧ (j 1).val = a.val := by
  have hj1 : (j 1).val < C := idx2_lt1 j
  unfold ScatterDims.resultIdx?
  split
  · rename_i h
    rw [Option.some.injEq]
    have h0 := h (0 : Fin 2)
    have h1 := h (1 : Fin 2)
    rw [start0, window0] at h0
    rw [start1, window1] at h1
    constructor
    · intro hEq
      have e0 := congrArg (fun f => (f (0 : Fin 2)).val) hEq
      have e1 := congrArg (fun f => (f (1 : Fin 2)).val) hEq
      simp only [start0, start1, window0, window1] at e0 e1
      change _ = r.val at e0
      change _ = a.val at e1
      constructor
      · omega
      · omega
    · rintro ⟨g0, g1⟩
      funext b
      refine Fin.ext ?_
      match b with
      | ⟨0, _⟩ =>
        show ((rowDims R C E wf).start j idx (0 : Fin 2) + ((rowDims R C E wf).window j (0 : Fin 2) : Int)).toNat = r.val
        rw [start0, window0]; omega
      | ⟨1, _⟩ =>
        show ((rowDims R C E wf).start j idx (1 : Fin 2) + ((rowDims R C E wf).window j (1 : Fin 2) : Int)).toNat = a.val
        rw [start1, window1]; omega
  · rename_i h
    constructor
    · intro hEq; exact absurd hEq (by simp)
    · rintro ⟨g0, g1⟩
      exfalso
      apply h
      intro b
      match b with
      | ⟨0, _⟩ =>
        show 0 ≤ (rowDims R C E wf).start j idx (0 : Fin 2) + ((rowDims R C E wf).window j (0 : Fin 2) : Int) ∧
          (rowDims R C E wf).start j idx (0 : Fin 2) + ((rowDims R C E wf).window j (0 : Fin 2) : Int) < (R : Int)
        rw [start0, window0]; have := r.isLt; omega
      | ⟨1, _⟩ =>
        show 0 ≤ (rowDims R C E wf).start j idx (1 : Fin 2) + ((rowDims R C E wf).window j (1 : Fin 2) : Int) ∧
          (rowDims R C E wf).start j idx (1 : Fin 2) + ((rowDims R C E wf).window j (1 : Fin 2) : Int) < (C : Int)
        rw [start1, window1]; omega

/-- The accumulating row scatter at entry (r, a). -/
theorem scatterAdd_row_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (a : Fin C) :
    Ideal.hostScatterAdd (rowDims R C E wf) x idx upd (ix2 r a)
      = x (ix2 r a) + ∑ e ∈ Finset.univ.filter (fun e : Fin E => (idx (ix2 e (0 : Fin 1))).toInt = (r.val : Int)), upd (ix2 e a) := by
  have hback : ∀ j : (⟨2, ![E, C]⟩ : Shape).Idx, (j 1).val = a.val → ix2 (j 0 : Fin E) a = j := by
    intro j h
    funext b
    match b with
    | ⟨0, _⟩ => rfl
    | ⟨1, _⟩ => exact (Fin.ext h).symm
  unfold Ideal.hostScatterAdd
  congr 1
  refine Finset.sum_nbij' (fun j => (j 0 : Fin E)) (fun e => ix2 e a) ?_ ?_ ?_ ?_ ?_
  · intro j hj
    rw [Finset.mem_filter] at hj
    exact Finset.mem_filter.mpr ⟨Finset.mem_univ _, ((resultIdx_iff wf idx r a j).mp hj.2).1⟩
  · intro e he
    rw [Finset.mem_filter] at he ⊢
    exact ⟨Finset.mem_univ _, (resultIdx_iff wf idx r a (ix2 e a)).mpr ⟨he.2, rfl⟩⟩
  · intro j hj
    rw [Finset.mem_filter] at hj
    exact hback j ((resultIdx_iff wf idx r a j).mp hj.2).2
  · intro e _
    rfl
  · intro j hj
    rw [Finset.mem_filter] at hj
    exact congrArg upd (hback j ((resultIdx_iff wf idx r a j).mp hj.2).2).symm

end Cert.LibRowScatter

end
-- ==== Proof.LibElemScatter.lean ====
/-
  An element scatter-add read at one entry. For the dimension numbers "each update element e lands on the operand
  element its index word names" (no update window axis, inserted window axis 0, the index vector of length one on
  axis 1), the accumulating scatter at position `r` is the operand there plus the sum, over the update positions `e`
  whose index word read as a signed integer is `r`, of the update at `e`. An index word that names no position
  contributes nothing.
-/
import Idealize.ShloMosaic.PureOps.Ideal.Laws
import Idealize.ShloMosaic.Lib.ValueIdx

noncomputable section

open scoped BigOperators

namespace Cert.LibElemScatter

open Idealize.ShloMosaic Idealize.ShloMosaic.ValueIdx

/-- Those dimension numbers for an operand `[R]`, scatter indices `[E, 1]` and updates `[E]`. -/
abbrev elemDims (R E : Nat)
    (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

/-- On the operand's only axis the window starts at the index word of the update's position, read signed. -/
private theorem start0 {R E w : Nat}
    (wf : ScatterDims.WF ⟨1, ![R]⟩ ⟨2, ![E, 1]⟩ ⟨1, ![E]⟩ [] [0] [0] 1)
    (idx : IVec ⟨2, ![E, 1]⟩ w) (j : (⟨1, ![E]⟩ : Shape).Idx) :
    (elemDims R E wf).start j idx (0 : Fin 1) = (idx (ix2 (j 0) (0 : Fin 1))).toInt := by
  unfold ScatterDims.start
  rw [dif_pos (show (0 : Fin 1) ∈ (elemDims R E wf).scatterDimsToOperandDims from List.mem_singleton.mpr rfl)]
  have hsi : (elemDims R E wf).siIdx j ⟨List.idxOf (0 : Fin 1) (elemDims R E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's only axis is an inserted window axis: the window coordinate there is 0. -/
private theorem window0 {R E : Nat}
    (wf : ScatterDims.WF ⟨1, ![R]⟩ ⟨2, ![E, 1]⟩ ⟨1, ![E]⟩ [] [0] [0] 1)
    (j : (⟨1, ![E]⟩ : Shape).Idx) :
    (elemDims R E wf).window j (0 : Fin 1) = 0 := by
  unfold ScatterDims.window
  have hn : (0 : Fin 1) ∉ (elemDims R E wf).sKept :=
    show ¬ (0 : Fin 1) ∈ (List.finRange 1).filter (· ∉ ([0] : List (Fin 1))) by decide
  rw [dif_neg hn]

/-- Update position `j` lands at `r` exactly when its index word reads `r`. -/
private theorem resultIdx_iff {R E w : Nat}
    (wf : ScatterDims.WF ⟨1, ![R]⟩ ⟨2, ![E, 1]⟩ ⟨1, ![E]⟩ [] [0] [0] 1)
    (idx : IVec ⟨2, ![E, 1]⟩ w) (r : Fin R) (j : (⟨1, ![E]⟩ : Shape).Idx) :
    (elemDims R E wf).resultIdx? j idx = some (ix1 r)
      ↔ (idx (ix2 (j 0) (0 : Fin 1))).toInt = (r.val : Int) := by
  unfold ScatterDims.resultIdx?
  split
  · rename_i h
    rw [Option.some.injEq]
    have h0 := h (0 : Fin 1)
    rw [start0, window0] at h0
    constructor
    · intro hEq
      have e0 := congrArg (fun f => (f (0 : Fin 1)).val) hEq
      simp only [start0, window0] at e0
      change _ = r.val at e0
      omega
    · intro g0
      funext b
      refine Fin.ext ?_
      match b with
      | ⟨0, _⟩ =>
        show ((elemDims R E wf).start j idx (0 : Fin 1) + ((elemDims R E wf).window j (0 : Fin 1) : Int)).toNat = r.val
        rw [start0, window0]; omega
  · rename_i h
    constructor
    · intro hEq; exact absurd hEq (by simp)
    · intro g0
      exfalso
      apply h
      intro b
      match b with
      | ⟨0, _⟩ =>
        show 0 ≤ (elemDims R E wf).start j idx (0 : Fin 1) + ((elemDims R E wf).window j (0 : Fin 1) : Int) ∧
          (elemDims R E wf).start j idx (0 : Fin 1) + ((elemDims R E wf).window j (0 : Fin 1) : Int) < (R : Int)
        rw [start0, window0]; have := r.isLt; omega

/-- The accumulating element scatter at position `r`: the operand there plus the sum of the updates whose index
    word, read signed, is `r`. -/
theorem scatterAdd_elem_apply {R E w : Nat}
    (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal)
    (r : Fin R) :
    Ideal.hostScatterAdd (elemDims R E wf) x idx upd (ix1 r)
      = x (ix1 r) + ∑ e ∈ Finset.univ.filter (fun e : Fin E => (idx (ix2 e (0 : Fin 1))).toInt = (r.val : Int)), upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact Finset.mem_filter.mpr ⟨Finset.mem_univ _, (resultIdx_iff wf idx r j).mp hj.2⟩
  · intro e he
    rw [Finset.mem_filter] at he ⊢
    exact ⟨Finset.mem_univ _, (resultIdx_iff wf idx r (ix1 e)).mpr he.2⟩
  · intro j _
    exact (eq_ix1 j).symm
  · intro e _
    rfl
  · intro j _
    exact congrArg upd (eq_ix1 j)

end Cert.LibElemScatter

end
-- ==== Proof.RefValue.lean ====
/-
  The reference program's result, read at the ideal instance, is the specification's `result`.

  The last stage of the reference is the weighted sum `combine` of the shared chain `smooth` applied to three
  accumulating scatters, and of the entropy term. Row by row the reference computes the softmax of the first five
  logits: the row maximum is the fold of `max` from −∞, the exponentials of the differences are summed over the five
  classes, the quotient is the class probability. The three scatters start from zero and add, at segment `g`, over the
  rows whose id read signed is `g`: the constant one (the count), the probabilities (the sums), their squares (the sums
  of squares). The entropy term sums `p · log (p + ε)` over classes and then over rows, divides by the number of rows
  and negates.
-/
import proofs.«405333_j27135603376138_3_alg».proof.Proof.Spec
import proofs.«405333_j27135603376138_3_alg».proof.Proof.RefRun
import proofs.«405333_j27135603376138_3_alg».proof.Proof.RefReadG
import proofs.«405333_j27135603376138_3_alg».proof.Proof.LibRowScatter
import proofs.«405333_j27135603376138_3_alg».proof.Proof.LibElemScatter

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable [Cert.ReferenceIdeal.Facts]

/-! ## The last stage is the shared chain over the three scatters, combined with the entropy term -/

/-- For any float values: the reference's last stage is `combine (smooth count sums squares) entropy`, node for node. -/
theorem v63_shape {F : FTy → Type} [FloatOps F] (hf : Cert.Spec.TailFacts)
    (x0 : (⟨S4000000x6, .f32⟩ : BufTy).Contents (Elt F)) (x1 : (⟨S4000000, .i32⟩ : BufTy).Contents (Elt F)) :
    val_main_v63 (F := F) x0 x1
      = Cert.Spec.combine (Cert.Spec.smooth hf (val_main_v15 (F := F) x1) (val_main_v18 (F := F) x0 x1) (val_main_v22 (F := F) x0 x1))
          (val_main_v60 (F := F) x0) := rfl

/-! ## Words -/

/-- The f32 word of −∞ is the bottom extended real. -/
theorem ofBits_neg_inf : Ideal.ofBits .f32 0xFF800000#32 = ⊥ := by simp [Ideal.ofBits, Ideal.ieee]

/-- The f32 word of one is the extended real one. -/
theorem ofBits_one : Ideal.ofBits .f32 0x3F800000#32 = 1 := by
  simp [Ideal.ofBits, Ideal.ieee, -EReal.coe_mul]; norm_num

/-! ## A sum over a rank-one index set is the sum over its coordinate -/

/-- A rank-one index is its coordinate. -/
def idx1Equiv (n : Nat) : (⟨1, ![n]⟩ : Shape).Idx ≃ Fin n where
  toFun j := j 0
  invFun := ix1
  left_inv j := (eq_ix1 j).symm
  right_inv _ := rfl

theorem sum_idx1 {n : Nat} (f : (⟨1, ![n]⟩ : Shape).Idx → EReal) : ∑ j, f j = ∑ r : Fin n, f (ix1 r) :=
  Fintype.sum_equiv (idx1Equiv n) _ _ fun j => congrArg f (eq_ix1 j)

/-! ## The softmax, row by row -/

section Rows
variable (x0 : (⟨S4000000x6, .f32⟩ : BufTy).Contents (Elt Ideal))

/-- The slice keeps the first five columns. -/
theorem v0_at (r : Fin 4000000) (c : Fin 5) :
    val_main_v0 (F := Ideal) x0 (ix2 r c) = x0 (ix2 r (Cert.Spec.col c)) := by
  rw [val_main_v0_apply]
  exact congrArg x0 (funext fun a => by match a with | ⟨0, _⟩ => rfl | ⟨1, _⟩ => rfl)

/-- The row maximum: the fold of `max` from −∞ over the five classes. -/
theorem v1_at (r : Fin 4000000) : val_main_v1 (F := Ideal) x0 (ix1 r) = Cert.Spec.rowMax x0 r := by
  have hR : S4000000x5.Reduces [1] S4000000 := by decide
  unfold val_main_v1
  refine (Host.reduce_eq_fold_single (FloatOps.maximumf (F := Ideal) (φ := .f32)) (val_main_v0 (F := Ideal) x0)
    (val_main_cst (F := Ideal)) reducesTo_S4000000x5_S4000000_d1 hR h_S_ (ix1 r)).trans ?_
  show (Finset.univ : Finset (Fin 5)).fold max (Ideal.ofBits .f32 0xFF800000#32)
    (fun c => val_main_v0 (F := Ideal) x0 (hR.lift (ix1 r) c)) = _
  rw [ofBits_neg_inf]
  unfold Cert.Spec.rowMax
  refine Finset.fold_congr fun c _ => ?_
  rw [val_main_v0_apply]
  exact congrArg x0 (funext fun a => Fin.ext (by match a with | ⟨0, _⟩ => rfl | ⟨1, _⟩ => rfl))

/-- The maximum with the −∞ splat changes nothing. -/
theorem v3_at (r : Fin 4000000) : val_main_v3 (F := Ideal) x0 (ix1 r) = Cert.Spec.rowMax x0 r := by
  rw [val_main_v3_apply, val_main_v2_apply, val_main_cst_0_apply, Ideal.maximumf_def, Ideal.ofBits_def, ofBits_neg_inf,
    max_bot_left, v1_at]

/-- The row maximum broadcast along the classes. -/
theorem v5_at (r : Fin 4000000) (c : Fin 5) : val_main_v5 (F := Ideal) x0 (ix2 r c) = Cert.Spec.rowMax x0 r := by
  rw [val_main_v5_apply, val_main_v4_apply, ← v3_at]
  exact congrArg (val_main_v3 (F := Ideal) x0) (funext fun a => by match a with | ⟨0, _⟩ => rfl)

/-- The exponential of the logit less the row maximum. -/
theorem v7_at (r : Fin 4000000) (c : Fin 5) : val_main_v7 (F := Ideal) x0 (ix2 r c) = Cert.Spec.ex x0 r c := by
  rw [val_main_v7_apply, val_main_v6_apply, Ideal.hostUnary_exp_def, Ideal.subf_def, v0_at, v5_at]
  rfl

/-- The softmax's denominator. -/
theorem v8_at (r : Fin 4000000) : val_main_v8 (F := Ideal) x0 (ix1 r) = Cert.Spec.den x0 r := by
  rw [val_main_v8_apply, val_main_cst_1_apply, Ideal.ofBits_def, Ideal.ofBits_zero_f32, zero_add]
  unfold Cert.Spec.den
  refine Finset.sum_congr rfl fun k _ => ?_
  rw [← v7_at]
  exact congrArg (val_main_v7 (F := Ideal) x0) (funext fun a => by match a with | ⟨0, _⟩ => rfl | ⟨1, _⟩ => rfl)

/-- The denominator broadcast along the classes. -/
theorem v10_at (r : Fin 4000000) (c : Fin 5) : val_main_v10 (F := Ideal) x0 (ix2 r c) = Cert.Spec.den x0 r := by
  rw [val_main_v10_apply, val_main_v9_apply, ← v8_at]
  exact congrArg (val_main_v8 (F := Ideal) x0) (funext fun a => by match a with | ⟨0, _⟩ => rfl)

/-- The class probability. -/
theorem v11_at (r : Fin 4000000) (c : Fin 5) : val_main_v11 (F := Ideal) x0 (ix2 r c) = Cert.Spec.prob x0 r c := by
  rw [val_main_v11_apply, Ideal.hostDivf_def, v7_at, v10_at]
  rfl

/-- The squared class probability. -/
theorem v19_at (r : Fin 4000000) (c : Fin 5) :
    val_main_v19 (F := Ideal) x0 (ix2 r c) = Cert.Spec.prob x0 r c * Cert.Spec.prob x0 r c := by
  rw [val_main_v19_apply, Ideal.mulf_def, v11_at]

/-- A class's entropy summand `p · log (p + ε)`. -/
theorem v56_at (r : Fin 4000000) (c : Fin 5) :
    val_main_v56 (F := Ideal) x0 (ix2 r c)
      = Cert.Spec.prob x0 r c * Ideal.log (Cert.Spec.prob x0 r c + Cert.Spec.eps) := by
  rw [val_main_v56_apply, val_main_v55_apply, val_main_v54_apply, val_main_v53_apply, val_main_cst_16_apply,
    Ideal.mulf_def, Ideal.hostUnary_log_def, Ideal.addf_def, Ideal.ofBits_def, v11_at]
  rfl

/-- A row's entropy term. -/
theorem v57_at (r : Fin 4000000) : val_main_v57 (F := Ideal) x0 (ix1 r) = Cert.Spec.entRow x0 r := by
  rw [val_main_v57_apply, val_main_cst_17_apply, Ideal.ofBits_def, Ideal.ofBits_zero_f32, zero_add]
  unfold Cert.Spec.entRow
  refine Finset.sum_congr rfl fun k _ => ?_
  rw [← v56_at]
  exact congrArg (val_main_v56 (F := Ideal) x0) (funext fun a => by match a with | ⟨0, _⟩ => rfl | ⟨1, _⟩ => rfl)

/-- The sum of all rows' entropy terms. -/
theorem v58_at (i : S_.Idx) : val_main_v58 (F := Ideal) x0 i = Cert.Spec.entTotal x0 := by
  rw [val_main_v58_apply, val_main_cst_18_apply, Ideal.ofBits_def, Ideal.ofBits_zero_f32, zero_add]
  exact (sum_idx1 (val_main_v57 (F := Ideal) x0)).trans (Finset.sum_congr rfl fun r _ => v57_at x0 r)

/-- The entropy term: minus the mean of the rows' terms. -/
theorem v60_eq : val_main_v60 (F := Ideal) x0 = Cert.Spec.entTerm x0 := by
  funext i
  rw [val_main_v60_apply, val_main_v59_apply, v58_at, val_main_cst_19_apply, Ideal.hostNegf_def, Ideal.negf_def,
    Ideal.hostDivf_def, Ideal.ofBits_def]
  rfl

end Rows

/-! ## The statistics the scatters add -/

section Feat
variable (x : Cert.Spec.SX.Idx → EReal)

/-- The sixth statistic is the constant one. -/
theorem feat_five (r : Fin 4000000) : Cert.Spec.feat x r 5 = 1 := by
  unfold Cert.Spec.feat
  rw [dif_neg (by decide), dif_pos (by decide)]

/-- The first five statistics are the probabilities. -/
theorem feat_lo (r : Fin 4000000) (a : Fin 5) (h : a.val < 11) : Cert.Spec.feat x r ⟨a.val, h⟩ = Cert.Spec.prob x r a := by
  unfold Cert.Spec.feat
  rw [dif_pos (show (⟨a.val, h⟩ : Fin 11).val < 5 from a.isLt)]

/-- The last five statistics are the squared probabilities. -/
theorem feat_hi (r : Fin 4000000) (a : Fin 5) (h : a.val + 6 < 11) :
    Cert.Spec.feat x r ⟨a.val + 6, h⟩ = Cert.Spec.prob x r a * Cert.Spec.prob x r a := by
  have e : ∀ p : a.val + 6 - 6 < 5, (⟨a.val + 6 - 6, p⟩ : Fin 5) = a := fun _ => Fin.ext (by show a.val + 6 - 6 = a.val; omega)
  unfold Cert.Spec.feat
  rw [dif_neg (show ¬ (⟨a.val + 6, h⟩ : Fin 11).val < 5 from by show ¬ a.val + 6 < 5; omega),
    dif_neg (show ¬ (⟨a.val + 6, h⟩ : Fin 11).val = 5 from by show ¬ a.val + 6 = 5; omega)]
  show Cert.Spec.prob x r ⟨a.val + 6 - 6, _⟩ * Cert.Spec.prob x r ⟨a.val + 6 - 6, _⟩ = _
  rw [e]

end Feat

/-! ## The three scatters -/

section Scatters
variable (x0 : (⟨S4000000x6, .f32⟩ : BufTy).Contents (Elt Ideal)) (x1 : (⟨S4000000, .i32⟩ : BufTy).Contents (Elt Ideal))

/-- The index array at (e, 0) is the id of row `e`. -/
theorem v14_at (e : Fin 4000000) : val_main_v14 (F := Ideal) x1 (ix2 e (0 : Fin 1)) = x1 (ix1 e) := by
  rw [val_main_v14_apply]
  exact congrArg x1 (funext fun a => by match a with | ⟨0, _⟩ => rfl)

theorem v17_at (e : Fin 4000000) : val_main_v17 (F := Ideal) x1 (ix2 e (0 : Fin 1)) = x1 (ix1 e) := by
  rw [val_main_v17_apply]
  exact congrArg x1 (funext fun a => by match a with | ⟨0, _⟩ => rfl)

theorem v21_at (e : Fin 4000000) : val_main_v21 (F := Ideal) x1 (ix2 e (0 : Fin 1)) = x1 (ix1 e) := by
  rw [val_main_v21_apply]
  exact congrArg x1 (funext fun a => by match a with | ⟨0, _⟩ => rfl)

/-- The update rows a segment collects are the segment's rows. -/
theorem rows_eq (idx : (⟨2, ![4000000, 1]⟩ : Shape).Idx → BitVec 32) (hidx : ∀ e : Fin 4000000, idx (ix2 e (0 : Fin 1)) = x1 (ix1 e))
    (g : Fin 4096) :
    (Finset.univ.filter fun e : Fin 4000000 => (idx (ix2 e (0 : Fin 1))).toInt = (g.val : Int)) = Cert.Spec.segRows x1 g := by
  unfold Cert.Spec.segRows
  refine Finset.filter_congr fun e _ => ?_
  rw [hidx]

/-- At the ideal values the host's accumulating scatter is the exact one. -/
theorem host_scatter_eq {s si su : Shape} {w : Nat} (d : ScatterDims s si su) (x : FVec Ideal s .f32) (idx : IVec si w)
    (upd : FVec Ideal su .f32) : Host.scatterAdd (F := Ideal) d x idx upd = Ideal.hostScatterAdd d x idx upd := rfl

/-- The element scatter of the reference, over any operand, indices and updates, at segment `g`. -/
theorem elem_at (x : S4096.Idx → EReal) (idx : IVec S4000000x1 32) (upd : S4000000.Idx → EReal) (g : Fin 4096) :
    Ideal.hostScatterAdd scatter_S4096_S4000000x1_S4000000_n_0_0_1 x idx upd (ix1 g)
      = x (ix1 g) + ∑ e ∈ Finset.univ.filter (fun e : Fin 4000000 => (idx (ix2 e (0 : Fin 1))).toInt = (g.val : Int)), upd (ix1 e) :=
  Cert.LibElemScatter.scatterAdd_elem_apply Facts₀.scatter_S4096_S4000000x1_S4000000_n_0_0_1_wf x idx upd g

/-- The row scatter of the reference, over any operand, indices and updates, at segment `g` and class `a`. -/
theorem row_at (x : S4096x5.Idx → EReal) (idx : IVec S4000000x1 32) (upd : S4000000x5.Idx → EReal) (g : Fin 4096) (a : Fin 5) :
    Ideal.hostScatterAdd scatter_S4096x5_S4000000x1_S4000000x5_1_0_0_1 x idx upd (ix2 g a)
      = x (ix2 g a) + ∑ e ∈ Finset.univ.filter (fun e : Fin 4000000 => (idx (ix2 e (0 : Fin 1))).toInt = (g.val : Int)), upd (ix2 e a) :=
  Cert.LibRowScatter.scatterAdd_row_apply Facts₀.scatter_S4096x5_S4000000x1_S4000000x5_1_0_0_1_wf x idx upd g a

/-- The count of segment `g`. -/
theorem v15_at (g : Fin 4096) : val_main_v15 (F := Ideal) x1 (ix1 g) = Cert.Spec.segSum x0 x1 5 g := by
  unfold val_main_v15
  rw [host_scatter_eq, elem_at, val_main_v13_apply, val_main_cst_3_apply, Ideal.ofBits_def, Ideal.ofBits_zero_f32, zero_add,
    rows_eq x1 _ (v14_at x1) g]
  unfold Cert.Spec.segSum
  refine Finset.sum_congr rfl fun e _ => ?_
  rw [val_main_v12_apply, val_main_cst_2_apply, Ideal.ofBits_def, ofBits_one, feat_five]

/-- The sum of class `a`'s probability over segment `g`. -/
theorem v18_at (g : Fin 4096) (a : Fin 5) (h : a.val < 11) :
    val_main_v18 (F := Ideal) x0 x1 (ix2 g a) = Cert.Spec.segSum x0 x1 ⟨a.val, h⟩ g := by
  unfold val_main_v18
  rw [host_scatter_eq, row_at, val_main_v16_apply, val_main_cst_4_apply, Ideal.ofBits_def, Ideal.ofBits_zero_f32, zero_add,
    rows_eq x1 _ (v17_at x1) g]
  unfold Cert.Spec.segSum
  refine Finset.sum_congr rfl fun e _ => ?_
  rw [v11_at, feat_lo]

/-- The sum of class `a`'s squared probability over segment `g`. -/
theorem v22_at (g : Fin 4096) (a : Fin 5) (h : a.val + 6 < 11) :
    val_main_v22 (F := Ideal) x0 x1 (ix2 g a) = Cert.Spec.segSum x0 x1 ⟨a.val + 6, h⟩ g := by
  unfold val_main_v22
  rw [host_scatter_eq, row_at, val_main_v20_apply, val_main_cst_5_apply, Ideal.ofBits_def, Ideal.ofBits_zero_f32, zero_add,
    rows_eq x1 _ (v21_at x1) g]
  unfold Cert.Spec.segSum
  refine Finset.sum_congr rfl fun e _ => ?_
  rw [v19_at, feat_hi]

/-- The count per segment, as an array. -/
theorem v15_eq : @Eq (FVec Ideal Cert.Spec.S4096 .f32) (val_main_v15 (F := Ideal) x1) (Cert.Spec.cntArr x0 x1) :=
  funext fun i => (congrArg (val_main_v15 (F := Ideal) x1) (eq_ix1 i)).trans (v15_at x0 x1 (i 0))

/-- The sums per segment and class, as an array. -/
theorem v18_eq : @Eq (FVec Ideal Cert.Spec.S4096x5 .f32) (val_main_v18 (F := Ideal) x0 x1) (Cert.Spec.s1Arr x0 x1) :=
  funext fun i => (congrArg (val_main_v18 (F := Ideal) x0 x1) (eq_ix2 i)).trans (v18_at x0 x1 (i 0) (i 1) _)

/-- The sums of squares per segment and class, as an array. -/
theorem v22_eq : @Eq (FVec Ideal Cert.Spec.S4096x5 .f32) (val_main_v22 (F := Ideal) x0 x1) (Cert.Spec.s2Arr x0 x1) :=
  funext fun i => (congrArg (val_main_v22 (F := Ideal) x0 x1) (eq_ix2 i)).trans (v22_at x0 x1 (i 0) (i 1) _)

end Scatters

/-! ## The result -/

/-- The reference's result, for any arguments, is the specification's `result` of the logits and the ids. -/
theorem ref_value (hf : Cert.Spec.TailFacts) (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v63 (F := Ideal) m c
      = Cert.Spec.result hf (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  unfold Cert.Spec.result
  rw [val_main_v63_eq, v63_shape hf,
    v15_eq (m ((c.tc : Thread Cert.ReferenceIdeal.nD Cert.ReferenceIdeal.τ).loc Cert.ReferenceIdeal.main_arg0)), v18_eq, v22_eq, v60_eq]

end Cert.RefSide

end
-- ==== Proof.PreFinite.lean ====
/-
  The printed precondition "every logit has absolute value below +∞" read at the extended reals: every logit is a real number.
-/
import Mathlib.Data.EReal.Basic
import Mathlib.Data.EReal.Operations
import Idealize.ShloMosaic.Lib.ReduceAll
import Idealize.ShloMosaic.Lib.ValueIdx
import Idealize.ShloMosaic.PureOps.Ideal.Laws
import proofs.«405333_j27135603376138_3_alg».proof.Pre_finite_inputs

noncomputable section

namespace Cert.PreFinite

open Idealize.ShloMosaic

/-- The pattern `0x7F800000` is `+∞`. -/
theorem ofBits_inf : Ideal.ofBits .f32 0x7F800000#32 = (⊤ : EReal) := by
  simp [Ideal.ofBits, Ideal.ieee]

/-- An extended real whose absolute value `max a (−a)` is below `+∞` is a real number. -/
theorem real_of_abs_lt_top (a : EReal) (h : max a (-a) < ⊤) : ∃ v : ℝ, a = (v : EReal) := by
  rw [max_lt_iff] at h
  induction a using EReal.rec with
  | bot => exact absurd h.2 (by simp)
  | coe r => exact ⟨r, rfl⟩
  | top => exact absurd h.1 (lt_irrefl _)

/-- If the conjunction over all elements of `|x| < +∞` holds, every element of `x` is a real number. -/
theorem finite_of_pre [Cert.Pre_finite_inputs.Facts] (x : FVec Ideal Cert.Pre_finite_inputs.S4000000x6 .f32)
    (s : IVec Cert.Pre_finite_inputs.S4000000 32)
    (h : Cert.Pre_finite_inputs.fn (F := Ideal) x s = fun _ => 1#1) : ∀ i, ∃ v : ℝ, x i = (v : EReal) := by
  intro i
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  change BitVec.ofBool (decide (max (x i) (-(x i)) < Ideal.ofBits .f32 0x7F800000#32)) = 1#1 at hi
  rw [ofBits_inf] at hi
  refine real_of_abs_lt_top (x i) ?_
  by_contra hn
  simp [hn] at hi

end Cert.PreFinite

end
-- ==== Proof.lean ====
/-
  The certificate of the five claims. Both programs compute, from the logits `x : [4000000, 6]` and the segment ids
  `s : [4000000]`: the softmax probabilities of the first five logits of every row; per segment g < 4096 the number of
  rows with id g, the sums of their probabilities and of their squared probabilities; from those the unbiased variance
  per segment and class, averaged and normalised by the number of non-empty segments; and the mean entropy of the rows;
  and return 0.8 · (that smoothness) + 0.2 · (that entropy).

  The reference takes the segment sums by an accumulating scatter (ids outside [0, 4096) land nowhere). The kernel takes
  them by a product with two one-hot factors of the id — its arithmetic shift right by 8 against sixteen lanes, its low
  eight bits against 256 lanes — summed over the rows by a matrix product, 3200 rows per grid point, 625 points per core,
  the accumulator reset at each core's first point and written back after its last; the two factors are both one exactly
  when the id read signed is 256 h + l, and multiplying by a zero factor kills any value, so the sum over all rows is the
  sum over the segment's rows: commutativity and associativity of the extended reals' sum are all that is used there.
  The kernel sums minus each row's entropy term and divides by 4e6; the reference sums the terms, divides and negates:
  equal because, the logits being finite (the precondition), every term is a real number. The later host operations are
  the same chain on both sides and are never opened.

  The frames: the kernel's body is run once per case (reset point / adding point) by the symbolic executor on any staging
  buffers, the launch theorem of the library carries that over the 1250 grid points and the host lines around the call;
  the reference's frame is its run with the result dropped. The ideal pass rewrote nothing: `preserves` is `True`.
-/
import proofs.«405333_j27135603376138_3_alg».proof.Defs
import proofs.«405333_j27135603376138_3_alg».proof.Proof.KFrame
import proofs.«405333_j27135603376138_3_alg».proof.Proof.KIValue
import proofs.«405333_j27135603376138_3_alg».proof.Proof.RefValue
import proofs.«405333_j27135603376138_3_alg».proof.Proof.PreFinite
import proofs.«405333_j27135603376138_3_alg».proof.Proof.Gen.Pre_finite_inputs
import Idealize.ShloMosaic.Adequacy
import Idealize.ShloMosaic.Init

noncomputable section

namespace Cert.Proof

open Idealize.ShloMosaic Idealize.SL.Sem

/-- The shape relations the shared chain of host operations cites: the reference states them, and they hold. -/
theorem tailFacts : Cert.Spec.TailFacts where
  b_4096_4096x1 := Cert.ReferenceIdeal.Facts₀.bcast_S4096_S4096x1_0
  b_4096x1_4096x5 := Cert.ReferenceIdeal.Facts₀.bcast_S4096x1_S4096x5_0_1
  b__4096 := Cert.ReferenceIdeal.Facts₀.bcast_S_S4096
  b__4096x1 := Cert.ReferenceIdeal.Facts₀.bcast_S_S4096x1
  b__4096x5 := Cert.ReferenceIdeal.Facts₀.bcast_S_S4096x5
  r_4096x5_4096 := Cert.ReferenceIdeal.Facts₀.reducesTo_S4096x5_S4096_d1
  r_4096_ := Cert.ReferenceIdeal.Facts₀.reducesTo_S4096_S_d0
  h_ := Cert.ReferenceIdeal.Facts₀.h_S_
  lt_1_32 := Cert.ReferenceIdeal.Facts₀.natLt_1_32

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's value of the (agreeing) arguments. -/
theorem algebraic : Cert.algebraic_KernelIdeal_ReferenceIdeal := by
  intro m ρ m' ρ' hpre hagree
  have hx : ∀ c, Cert.SegMath.Fin_x (Cert.KernelIdeal.Value.xOf m c) := fun c => Cert.PreFinite.finite_of_pre _ _ (hpre c)
  refine ⟨fun c => Cert.Spec.result tailFacts (Cert.KernelIdeal.Value.xOf m c) (Cert.KernelIdeal.Value.sOf m c),
    Cert.KernelIdeal.Value.run m tailFacts ρ hx, ?_⟩
  refine (θ_run Cert.ReferenceIdeal.defs _ _).mono (fun _ h c => ⟨(h c).1.trans ?_, (h c).2⟩)
    (Cert.ReferenceIdeal.Value.run (F := Ideal) m' ρ')
  rw [Cert.RefSide.ref_value tailFacts m' c, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
